-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x16x32x32 : Shape := ⟨5, ![8, 128, 16, 32, 32]⟩
abbrev S16x128 : Shape := ⟨2, ![16, 128]⟩
abbrev S128x16 : Shape := ⟨2, ![128, 16]⟩
abbrev S_ : Shape := ⟨0, ![]⟩

class Facts : Prop where
  bcast_S_S8x128x16x32x32 : S_.BroadcastsInDim S8x128x16x32x32 (![] : Fin 0 → Fin S8x128x16x32x32.rank)
  reducesTo_S8x128x16x32x32_S_d0_1_2_3_4 : S8x128x16x32x32.ReducesTo [0, 1, 2, 3, 4] S_
  h_S_ : 0 < S_.numel
  bcast_S_S16x128 : S_.BroadcastsInDim S16x128 (![] : Fin 0 → Fin S16x128.rank)
  reducesTo_S16x128_S_d0_1 : S16x128.ReducesTo [0, 1] S_
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S8x128x16x32x32 .f32) (main_arg1 : FVec F S16x128 .f32) (main_arg2 : FVec F S128x16 .f32) : IVec S_ 1 :=
  let main_v0 : FVec F S8x128x16x32x32 .f32 := Host.absf main_arg0
  let main_cst : FVec F S_ .f32 := constant S_ .f32 0x7F800000#32
  let main_v1 : FVec F S8x128x16x32x32 .f32 := broadcastInDim S8x128x16x32x32 ![] bcast_S_S8x128x16x32x32 main_cst
  let main_v2 : IVec S8x128x16x32x32 1 := cmpf .olt main_v0 main_v1
  let main_c : IVec S_ 1 := constantI S_ 1 1#1
  let main_v3 : IVec S_ 1 := (fun x v => Host.reduce IntOp.andi x v reducesTo_S8x128x16x32x32_S_d0_1_2_3_4 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  main_v13
-- ==== Kernel.lean ====
abbrev S8x128x16x32x32 : Shape := ⟨5, ![8, 128, 16, 32, 32]⟩
abbrev S16x128 : Shape := ⟨2, ![16, 128]⟩
abbrev S128x16 : Shape := ⟨2, ![128, 16]⟩
abbrev S8x128x16384 : Shape := ⟨3, ![8, 128, 16384]⟩
abbrev S1x128x2048 : Shape := ⟨3, ![1, 128, 2048]⟩
abbrev S1x128x16384 : Shape := ⟨3, ![1, 128, 16384]⟩
abbrev S128x16384 : Shape := ⟨2, ![128, 16384]⟩
abbrev S128x1 : Shape := ⟨2, ![128, 1]⟩
abbrev S128x2048 : Shape := ⟨2, ![128, 2048]⟩
abbrev S128 : Shape := ⟨1, ![128]⟩
abbrev S16 : Shape := ⟨1, ![16]⟩
abbrev S1x16 : Shape := ⟨2, ![1, 16]⟩

abbrev nBuf : Space → Nat
  | .hbm => 7
  | .vmem => 8
  | .smem => 0
  | _ => 0

abbrev bufTy : (tb : Table) → Fin (tcTables nBuf tb) → BufTy
  | .hbm, ⟨0, _⟩ => ⟨S8x128x16x32x32, .f32⟩
  | .hbm, ⟨1, _⟩ => ⟨S16x128, .f32⟩
  | .hbm, ⟨2, _⟩ => ⟨S128x16, .f32⟩
  | .hbm, ⟨3, _⟩ => ⟨S8x128x16384, .f32⟩
  | .hbm, ⟨4, _⟩ => ⟨S128x16, .f32⟩
  | .hbm, ⟨5, _⟩ => ⟨S8x128x16384, .f32⟩
  | .hbm, ⟨6, _⟩ => ⟨S8x128x16x32x32, .f32⟩
  | .local _ .vmem, ⟨0, _⟩ => ⟨S1x128x2048, .f32⟩
  | .local _ .vmem, ⟨1, _⟩ => ⟨S1x128x2048, .f32⟩
  | .local _ .vmem, ⟨2, _⟩ => ⟨S128x16, .f32⟩
  | .local _ .vmem, ⟨3, _⟩ => ⟨S128x16, .f32⟩
  | .local _ .vmem, ⟨4, _⟩ => ⟨S1x128x16384, .f32⟩
  | .local _ .vmem, ⟨5, _⟩ => ⟨S1x128x16384, .f32⟩
  | .local _ .vmem, ⟨6, _⟩ => ⟨S128x16384, .f32⟩
  | .local _ .vmem, ⟨7, _⟩ => ⟨S128x1, .f32⟩
  | _, _ => ⟨S8x128x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let c0_3 : Index := 0#32
  let arg1 : BitVec 32 := BitVec.ofNat 32 (i 1).val
  let c2048_i32 : BitVec 32 := 2048#32
  let v5 : BitVec 32 := Scalar.muli arg1 c2048_i32
  let v6 : Index := Scalar.indexCast v5
  ![0, v6.toNat]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_8 : BitVec 32 := 0#32
  let v19 : BitVec 1 := Scalar.cmpi .ne v18 c0_i32_8
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x128x16x32x32_S8x128x16384 : S8x128x16x32x32.ShapeCasts S8x128x16384
  transposes_S16x128_S128x16_1_0 : S16x128.Transposes [1, 0] S128x16
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  inb_S128x16_S128x16_0_0 : ∀ a, (![0, 0] : Fin 2 → Nat) a + S128x16.size a ≤ S128x16.size a
  h_S128x16 : 0 < S128x16.numel
  shapeCasts_S128x16_S128x16 : S128x16.ShapeCasts S128x16
  broadcasts_S128x1_S128x16 : S128x1.Broadcasts S128x16
  reduces_S128x16_S16 : S128x16.Reduces [0] S16
  shapeCasts_S16_S1x16 : S16.ShapeCasts S1x16
  broadcasts_S1x16_S128x16 : S1x16.Broadcasts S128x16
  reduces_S128x16_S128 : S128x16.Reduces [1] S128
  inb_S128x16384_S128x16384_0_0 : ∀ a, (![0, 0] : Fin 2 → Nat) a + S128x16384.size a ≤ S128x16384.size a
  h_S128x16384 : 0 < S128x16384.numel
  broadcasts_S128x1_S128x16384 : S128x1.Broadcasts S128x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  shapeCasts_S128x16384_S1x128x16384 : S128x16384.ShapeCasts S1x128x16384
  shapeCasts_S8x128x16384_S8x128x16x32x32 : S8x128x16384.ShapeCasts S8x128x16x32x32
  hrank0 : 0 < grid0.rank
  k0_off1_inb : ∀ i : grid0.Coords, ∀ a, (k0_off1 i) a + S128x2048.size a ≤ S128x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x128x16384.size a
  hwx0_0 : ∀ i : grid0.Coords, EltTy.bits .f32 = 32 ∨ (Rect.block (s := S8x128x16384) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16384.size a ≤ S8x128x16384.size a
  hwx0_3 : ∀ i : grid0.Coords, EltTy.bits .f32 = 32 ∨ (Rect.block (s := S8x128x16384) S1x128x16384.size (cc0_transform_3 i) (hinb0_3 i)).WholeWords (EltTy.packing .f32)

variable [Facts₀]

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x128x16x32x32 : Shape := ⟨5, ![8, 128, 16, 32, 32]⟩
abbrev S16x128 : Shape := ⟨2, ![16, 128]⟩
abbrev S128x16 : Shape := ⟨2, ![128, 16]⟩
abbrev S8x128x16384 : Shape := ⟨3, ![8, 128, 16384]⟩
abbrev S8x128x1 : Shape := ⟨3, ![8, 128, 1]⟩
abbrev S1x128x6144 : Shape := ⟨3, ![1, 128, 6144]⟩
abbrev S1x128x1 : Shape := ⟨3, ![1, 128, 1]⟩
abbrev S128x6144 : Shape := ⟨2, ![128, 6144]⟩
abbrev S128x1 : Shape := ⟨2, ![128, 1]⟩
abbrev S128 : Shape := ⟨1, ![128]⟩
abbrev S8x128 : Shape := ⟨2, ![8, 128]⟩
abbrev S_ : Shape := ⟨0, ![]⟩
abbrev S8x16 : Shape := ⟨2, ![8, 16]⟩

abbrev nBuf : Space → Nat
  | .hbm => 27
  | .vmem => 10
  | .smem => 0
  | _ => 0

abbrev bufTy : (tb : Table) → Fin (tcTables nBuf tb) → BufTy
  | .hbm, ⟨0, _⟩ => ⟨S8x128x16x32x32, .f32⟩
  | .hbm, ⟨1, _⟩ => ⟨S16x128, .f32⟩
  | .hbm, ⟨2, _⟩ => ⟨S128x16, .f32⟩
  | .hbm, ⟨3, _⟩ => ⟨S8x128x16384, .f32⟩
  | .hbm, ⟨4, _⟩ => ⟨S8x128x1, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S128x16, .f32⟩
  | .hbm, ⟨10, _⟩ => ⟨S8x16, .f32⟩
  | .hbm, ⟨11, _⟩ => ⟨S_, .f32⟩
  | .hbm, ⟨12, _⟩ => ⟨S8x16, .f32⟩
  | .hbm, ⟨13, _⟩ => ⟨S8x16, .f32⟩
  | .hbm, ⟨14, _⟩ => ⟨S16x128, .f32⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S_, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S8x128x1, .f32⟩
  | .hbm, ⟨25, _⟩ => ⟨S8x128x16384, .f32⟩
  | .hbm, ⟨26, _⟩ => ⟨S8x128x16x32x32, .f32⟩
  | .local _ .vmem, ⟨0, _⟩ => ⟨S1x128x6144, .f32⟩
  | .local _ .vmem, ⟨1, _⟩ => ⟨S1x128x6144, .f32⟩
  | .local _ .vmem, ⟨2, _⟩ => ⟨S1x128x1, .f32⟩
  | .local _ .vmem, ⟨3, _⟩ => ⟨S1x128x1, .f32⟩
  | .local _ .vmem, ⟨4, _⟩ => ⟨S1x128x6144, .f32⟩
  | .local _ .vmem, ⟨5, _⟩ => ⟨S1x128x6144, .f32⟩
  | .local _ .vmem, ⟨6, _⟩ => ⟨S1x128x1, .f32⟩
  | .local _ .vmem, ⟨7, _⟩ => ⟨S1x128x1, .f32⟩
  | .local _ .vmem, ⟨8, _⟩ => ⟨S1x128x6144, .f32⟩
  | .local _ .vmem, ⟨9, _⟩ => ⟨S1x128x6144, .f32⟩
  | _, _ => ⟨S8x128x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v5 : BitVec 1 := Scalar.cmpi .slt arg1 c2_i32
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c2_i32_4 : BitVec 32 := 2#32
  let v8 : BitVec 1 := Scalar.cmpi .eq arg1 c2_i32_4
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x6144 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x128x16x32x32_S8x128x16384 : S8x128x16x32x32.ShapeCasts S8x128x16384
  inb_S1x128x1_S1x128x1_0_0_0 : ∀ a, (![0, 0, 0] : Fin 3 → Nat) a + S1x128x1.size a ≤ S1x128x1.size a
  h_S1x128x1 : 0 < S1x128x1.numel
  inb_S1x128x6144_S1x128x6144_0_0_0 : ∀ a, (![0, 0, 0] : Fin 3 → Nat) a + S1x128x6144.size a ≤ S1x128x6144.size a
  h_S1x128x6144 : 0 < S1x128x6144.numel
  shapeCasts_S1x128x6144_S128x6144 : S1x128x6144.ShapeCasts S128x6144
  shapeCasts_S1x128x1_S128x1 : S1x128x1.ShapeCasts S128x1
  reduces_S128x6144_S128 : S128x6144.Reduces [1] S128
  shapeCasts_S128_S128x1 : S128.ShapeCasts S128x1
  shapeCasts_S128x1_S1x128x1 : S128x1.ShapeCasts S1x128x1
  iota_S128x6144_d1_w32 : S128x6144.Iotas .tc 32 [1]
  shapeCasts_S8x128x1_S8x128 : S8x128x1.ShapeCasts S8x128
  bcast_S_S8x128 : S_.BroadcastsInDim S8x128 (![] : Fin 0 → Fin S8x128.rank)
  transposes_S16x128_S128x16_1_0 : S16x128.Transposes [1, 0] S128x16
  bcast_S_S8x16 : S_.BroadcastsInDim S8x16 (![] : Fin 0 → Fin S8x16.rank)
  transposes_S128x16_S16x128_1_0 : S128x16.Transposes [1, 0] S16x128
  shapeCasts_S8x128_S8x128x1 : S8x128.ShapeCasts S8x128x1
  broadcasts_S128x1_S128x6144 : S128x1.Broadcasts S128x6144
  shapeCasts_S128x6144_S1x128x6144 : S128x6144.ShapeCasts S1x128x6144
  shapeCasts_S8x128x16384_S8x128x16x32x32 : S8x128x16384.ShapeCasts S8x128x16x32x32
  dot_S8x128_S128x16_S8x16_1_0_0_1_n_n_wf : DotDims.WF S8x128 S128x16 S8x16 [1] [0] [0] [1] [] []
  dot_S8x16_S16x128_S8x128_1_0_0_1_n_n_wf : DotDims.WF S8x16 S16x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x6144.size a < S8x128x16384.size a
  hwx0_0 : ∀ i : grid0.Coords, EltTy.bits .f32 = 32 ∨ (Rect.unit (s := S8x128x16384) (fun a => cc0_transform_0 i a * S1x128x6144.size a) (fun a => (Pipeline.Clip.of (cc0_transform_0 i a) (S1x128x6144.size a) (S8x128x16384.size a)).extent (S1x128x6144.size a)) fun a => Pipeline.Clip.inb (Pipeline.Clip.ok_of (hstart0_0 i a))).WholeWords (EltTy.packing .f32)
  hwxs0_0 : ∀ i : grid0.Coords, EltTy.bits .f32 = 32 ∨ (Rect.unit (s := S1x128x6144) (fun _ => 0) (fun a => (Pipeline.Clip.of (cc0_transform_0 i a) (S1x128x6144.size a) (S8x128x16384.size a)).extent (S1x128x6144.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x128x1.size a
  hwx0_1 : ∀ i : grid0.Coords, EltTy.bits .f32 = 32 ∨ (Rect.block (s := S8x128x1) S1x128x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1x128x6144.size a < S8x128x16384.size a
  hwx1_0 : ∀ i : grid1.Coords, EltTy.bits .f32 = 32 ∨ (Rect.unit (s := S8x128x16384) (fun a => cc1_transform_0 i a * S1x128x6144.size a) (fun a => (Pipeline.Clip.of (cc1_transform_0 i a) (S1x128x6144.size a) (S8x128x16384.size a)).extent (S1x128x6144.size a)) fun a => Pipeline.Clip.inb (Pipeline.Clip.ok_of (hstart1_0 i a))).WholeWords (EltTy.packing .f32)
  hwxs1_0 : ∀ i : grid1.Coords, EltTy.bits .f32 = 32 ∨ (Rect.unit (s := S1x128x6144) (fun _ => 0) (fun a => (Pipeline.Clip.of (cc1_transform_0 i a) (S1x128x6144.size a) (S8x128x16384.size a)).extent (S1x128x6144.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S8x128x1.size a
  hwx1_1 : ∀ i : grid1.Coords, EltTy.bits .f32 = 32 ∨ (Rect.block (s := S8x128x1) S1x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x128x6144.size a < S8x128x16384.size a
  hwx1_2 : ∀ i : grid1.Coords, EltTy.bits .f32 = 32 ∨ (Rect.unit (s := S8x128x16384) (fun a => cc1_transform_2 i a * S1x128x6144.size a) (fun a => (Pipeline.Clip.of (cc1_transform_2 i a) (S1x128x6144.size a) (S8x128x16384.size a)).extent (S1x128x6144.size a)) fun a => Pipeline.Clip.inb (Pipeline.Clip.ok_of (hstart1_2 i a))).WholeWords (EltTy.packing .f32)
  hwxs1_2 : ∀ i : grid1.Coords, EltTy.bits .f32 = 32 ∨ (Rect.unit (s := S1x128x6144) (fun _ => 0) (fun a => (Pipeline.Clip.of (cc1_transform_2 i a) (S1x128x6144.size a) (S8x128x16384.size a)).extent (S1x128x6144.size a)) fun a => (Nat.zero_add _).trans_le (Pipeline.Clip.extent_le (Pipeline.Clip.ok_of (hstart1_2 i a)))).WholeWords (EltTy.packing .f32)

variable [Facts₀]

def dot_S8x128_S128x16_S8x16_1_0_0_1_n_n : DotDims S8x128 S128x16 S8x16 where
  lhsContracting := [1]
  rhsContracting := [0]
  lhsNonContracting := [0]
  rhsNonContracting := [1]
  lhsBatch := []
  rhsBatch := []
  wf := dot_S8x128_S128x16_S8x16_1_0_0_1_n_n_wf
def dot_S8x16_S16x128_S8x128_1_0_0_1_n_n : DotDims S8x16 S16x128 S8x128 where
  lhsContracting := [1]
  rhsContracting := [0]
  lhsNonContracting := [0]
  rhsNonContracting := [1]
  lhsBatch := []
  rhsBatch := []
  wf := dot_S8x16_S16x128_S8x128_1_0_0_1_n_n_wf

abbrev win0_0 : Pipeline.Window sig grid0 :=
  Pipeline.Window.ofSpecClip (Memref.whole main_v0) S1x128x6144.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1x128x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) && !(k0_cond3 i == 1#1) | ⟨_ + 2, h⟩ => absurd h (Nat.not_lt.2 (Nat.le_add_left _ _))

abbrev win1_0 : Pipeline.Window sig grid1 :=
  Pipeline.Window.ofSpecClip (Memref.whole main_v0) S1x128x6144.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v17) S1x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v18) S1x128x6144.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KData.lean ====
/-
  What the one-pass kernel's buffers hold, point by point, named as functions of the arrays the region is entered with.

  The grid runs over batch elements `n` (outer, 8) and position tiles `s` (inner, 8 tiles of 2048 positions), point
  `t = 8·n + s`.  At every point the body copies the staged tile of `x` into columns `2048·s ‥ 2048·s + 2047` of a slab
  it keeps across points, and adds the tile's row sums to a column of 128 running sums that it zeroes when `s = 0`.  At
  `s = 7` the slab holds the whole batch element and the running sums its channel totals; the body then computes the
  gates from the totals and the two weight blocks, and stores the slab scaled by them as the output block.
-/
import proofs.«168272_g2000702401841808_pallasbulk_415_2_alg».proof.Proof.Gen.KernelIdeal.Frame
import proofs.«168272_g2000702401841808_pallasbulk_415_2_alg».proof.Proof.Gen.KernelIdeal.Skeleton
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

variable (m : (ℓ : Loc nD τ sig) → Buf (Elt F) ℓ)

/-- The volume as the region finds it: batch × channel × position. -/
abbrev xarr (c : Dev nD) : Vec F S8x128x16384 .f32 := Gen.V m c main_v0

/-- The tile of `x` staged at point `t`: one batch element, all channels, 2048 positions. -/
abbrev xtile (c : Dev nD) (t : Fin cfg0.N) : Vec F S1x128x2048 .f32 := Gen.iblk m c 0 t
/-- The first weight block (channel × hidden, already transposed by the host) as staged at point `t`. -/
abbrev w1blk (c : Dev nD) (t : Fin cfg0.N) : Vec F S128x16 .f32 := Gen.iblk m c 1 t
/-- The second weight block (channel × hidden) as staged at point `t`. -/
abbrev w2blk (c : Dev nD) (t : Fin cfg0.N) : Vec F S128x16 .f32 := Gen.iblk m c 2 t

/-- The running sums after point `n`: the tile's row sums added to zero at the first tile of a batch element, and to
    what the point before left otherwise. -/
def accAt (c : Dev nD) : (n : ℕ) → n < cfg0.N → Vec F S128x1 .f32
  | 0, h => k0_pay4 (xtile m c ⟨0, h⟩) k0_pay1
  | n + 1, h =>
    k0_pay4 (xtile m c ⟨n + 1, h⟩) (if (n + 1) % 8 = 0 then k0_pay1 else accAt c n (Nat.lt_of_succ_lt h))

theorem accAt_zero (c : Dev nD) (h : 0 < cfg0.N) : accAt m c 0 h = k0_pay4 (xtile m c ⟨0, h⟩) k0_pay1 := rfl

theorem accAt_succ (c : Dev nD) (n : ℕ) (h : n + 1 < cfg0.N) :
    accAt m c (n + 1) h
      = k0_pay4 (xtile m c ⟨n + 1, h⟩) (if (n + 1) % 8 = 0 then k0_pay1 else accAt m c n (Nat.lt_of_succ_lt h)) := rfl

/-- The batch element point `t` works on, whole: channel × position, read off the volume. -/
def slabOf (c : Dev nD) (t : Fin cfg0.N) : Vec F S128x16384 .f32 :=
  fun j => xarr m c (ix3 (⟨t.val / 8, by have := t.isLt; have h : cfg0.N = 64 := N_0; omega⟩ : Fin 8) (⟨(j 0).val, (j 0).isLt⟩ : Fin 128) (⟨(j 1).val, (j 1).isLt⟩ : Fin 16384))

/-- What the body stores as the output block at a last tile `t` (`t % 8 = 7`): the slab scaled by the gates computed
    from the running sums and the weight blocks. -/
def outBlk (c : Dev nD) (t : Fin cfg0.N) : Vec F S1x128x16384 .f32 :=
  k0_pay5 (accAt m c t.val t.isLt) (w1blk m c t) (w2blk m c t) (slabOf m c t)

end Cert.KernelIdeal.Hand

end
-- ==== Proof.KBlocks.lean ====
/-
  Where the one-pass kernel's staged blocks sit in the arrays the region is entered with, and what those arrays are in
  terms of the program's arguments.

  At point `t = 8·n + s` the staged tile of the volume is batch element `n`, all channels, positions
  `2048·s ‥ 2048·s + 2047`; both weight blocks are their whole arrays at every point.  Before the region the host
  flattens the volume's three spatial axes and transposes the first weight matrix; the second reaches it unchanged.
-/
import proofs.«168272_g2000702401841808_pallasbulk_415_2_alg».proof.Proof.KData
import Idealize.ShloMosaic.Lib.ValueIdx
import Idealize.ShloMosaic.Lib.ValueLayout
import Idealize.ShloMosaic.Lib.StableHlo.Run
import Idealize.ShloMosaic.Lib.Tactic

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

variable (m : (ℓ : Loc nD τ sig) → Buf (Elt F) ℓ)

/-- Where each window's block sits at point `t = 8·n + s`: the tile of the volume is batch element `n`, all channels,
    position tile `s`; both weight blocks are their whole arrays; the output block is batch element `n`, whole. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- An entry of the tile staged at point `t` is the volume's entry of batch element `t / 8`, the same channel, and
    position `2048·(t % 8)` further on. -/
theorem xtile_apply_of (c : Dev nD) (t : Fin cfg0.N) (x : S1x128x2048.Idx) (k : S8x128x16384.Idx)
    (hk0 : (k 0).val = t.val / 8) (hk1 : (k 1).val = (x 1).val) (hk2 : (k 2).val = 2048 * (t.val % 8) + (x 2).val) :
    xtile m c t x = xarr m c k := by
  obtain ⟨e0, e1, e2, -⟩ := idx_facts t
  have h0 : (x 0).val < 1 := (x 0).isLt
  show Gen.iblk m c 0 t x = Gen.V m c main_v0 k
  unfold Gen.iblk
  rw [View.read_apply]
  show Gen.V m c main_v0 _ = Gen.V m c main_v0 k
  congr 1
  funext a
  apply Fin.ext
  match a with
  | ⟨0, _⟩ => show win0_0.index t (0 : Fin 3) * 1 + 1 * (x 0).val = (k 0).val; omega
  | ⟨1, _⟩ => show win0_0.index t (1 : Fin 3) * 128 + 1 * (x 1).val = (k 1).val; omega
  | ⟨2, _⟩ => show win0_0.index t (2 : Fin 3) * 2048 + 1 * (x 2).val = (k 2).val; omega

/-- The same at coordinates: tile entry `(r, l)` is the volume's entry `(t / 8, r, 2048·(t % 8) + l)`. -/
theorem xtile_apply (c : Dev nD) (t : Fin cfg0.N) (b : Fin 8) (hb : b.val = t.val / 8) (j : Fin 8) (hj : j.val = t.val % 8)
    (u : Fin 1) (r : Fin 128) (l : Fin 2048) :
    xtile m c t (ix3 u r l) = xarr m c (ix3 b r (⟨j.val * 2048 + l.val, by have := j.isLt; have := l.isLt; omega⟩ : Fin 16384)) :=
  xtile_apply_of m c t _ _ hb rfl (by show j.val * 2048 + l.val = 2048 * (t.val % 8) + l.val; omega)

/-- The first weight block staged at any point is the whole transposed first weight matrix. -/
theorem w1blk_eq (c : Dev nD) (t : Fin cfg0.N) : w1blk m c t = (Gen.V m c main_v1 : Vec F S128x16 .f32) := by
  obtain ⟨-, -, -, e0, e1, -⟩ := idx_facts t
  funext x
  show Gen.iblk m c 1 t x = Gen.V m c main_v1 x
  unfold Gen.iblk
  rw [View.read_apply]
  show Gen.V m c main_v1 _ = Gen.V m c main_v1 x
  congr 1
  funext a
  apply Fin.ext
  match a with
  | ⟨0, _⟩ => show win0_1.index t (0 : Fin 2) * 128 + 1 * (x 0).val = (x 0).val; omega
  | ⟨1, _⟩ => show win0_1.index t (1 : Fin 2) * 16 + 1 * (x 1).val = (x 1).val; omega

/-- The second weight block staged at any point is the whole second weight matrix. -/
theorem w2blk_eq (c : Dev nD) (t : Fin cfg0.N) : w2blk m c t = (Gen.V m c main_arg2 : Vec F S128x16 .f32) := by
  obtain ⟨-, -, -, -, -, e0, e1, -⟩ := idx_facts t
  funext x
  show Gen.iblk m c 2 t x = Gen.V m c main_arg2 x
  unfold Gen.iblk
  rw [View.read_apply]
  show Gen.V m c main_arg2 _ = Gen.V m c main_arg2 x
  congr 1
  funext a
  apply Fin.ext
  match a with
  | ⟨0, _⟩ => show win0_2.index t (0 : Fin 2) * 128 + 1 * (x 0).val = (x 0).val; omega
  | ⟨1, _⟩ => show win0_2.index t (1 : Fin 2) * 16 + 1 * (x 1).val = (x 1).val; omega

/-- The host transposes the first weight matrix before the region: the region finds it channel × hidden. -/
theorem V_main_v1_eq (c : Dev nD) :
    (Gen.V m c main_v1 : Vec F S128x16 .f32)
      = transpose S128x16 [1, 0] (m ((c.tc : Thread nD τ).loc main_arg1) : Vec F S16x128 .f32) transposes_S16x128_S128x16_1_0 := by
  show StableHlo.after hostOps0 (fun b => m (c, b)) (Proc.devRef .tc main_v1) = _
  after_results

/-- Read at an entry: channel `ch`, hidden unit `k` of what the region finds is entry `(k, ch)` of the argument. -/
theorem V_main_v1_apply (c : Dev nD) (ch : Fin 128) (k : Fin 16) :
    (Gen.V m c main_v1 : Vec F S128x16 .f32) (ix2 ch k) = (m ((c.tc : Thread nD τ).loc main_arg1) : Vec F S16x128 .f32) (ix2 k ch) := by
  rw [V_main_v1_eq]
  exact transpose_ix2_apply _ _ ch k

/-- The host flattens the three spatial axes of the volume before the region. -/
theorem xarr_eq (c : Dev nD) :
    xarr m c = shapeCast S8x128x16384 (m ((c.tc : Thread nD τ).loc main_arg0) : Vec F S8x128x16x32x32 .f32) shapeCasts_S8x128x16x32x32_S8x128x16384 := by
  show StableHlo.after hostOps0 (fun b => m (c, b)) (Proc.devRef .tc main_v0) = _
  after_results
  rfl

/-- The second weight matrix reaches the region as launched. -/
theorem V_main_arg2_eq (c : Dev nD) :
    (Gen.V m c main_arg2 : Vec F S128x16 .f32) = (m ((c.tc : Thread nD τ).loc main_arg2) : Vec F S128x16 .f32) :=
  Gen.V_main_arg2 m c

end Cert.KernelIdeal.Hand

end
-- ==== Proof.KTile.lean ====
/-
  The staged tile of the volume and the slab slice it is copied to, at coordinates. At point `t = 8·n + s`, entry
  `(r, l)` of the tile is the volume's entry `(n, r, 2048·s + l)`, and the slice of the slab the body reads and
  writes begins at row `0`, column `2048·s`.
-/
import proofs.«168272_g2000702401841808_pallasbulk_415_2_alg».proof.Proof.KBlocks

noncomputable section

namespace Cert.KernelIdeal.Hand.Body

open Idealize.ShloMosaic Idealize.ShloMosaic.TcCoe Idealize.ShloMosaic.ValueIdx Idealize.SL.Sem
open Cert.KernelIdeal Cert.KernelIdeal.Gen Cert.KernelIdeal.Hand

variable {F : FTy → Type} [FloatOps F]

variable (m : (ℓ : Loc nD τ sig) → Buf (Elt F) ℓ)

/-- Entry `(r, l)` of the tile staged at point `t` is the volume's entry of batch element `t / 8`, channel `r`,
    position `2048·(t % 8) + l`. -/
theorem xtile_apply (c : Dev nD) (t : Fin cfg0.N) (r : Fin 128) (l : Fin 2048) :
    xtile m c t (ix3 (0 : Fin 1) r l)
      = xarr m c (ix3 (⟨t.val / 8, by have := t.isLt; have h : cfg0.N = 64 := N_0; omega⟩ : Fin 8) r
          (⟨2048 * (t.val % 8) + l.val, by have := l.isLt; omega⟩ : Fin 16384)) :=
  xtile_apply_of m c t _ _ rfl rfl rfl

/-- The inner coordinate of point `t`, the position tile, is `t % 8`. -/
theorem tile_of_point : ∀ t : Fin grid0.N, ((grid0.coords t) 1).val = t.val % 8 := by decide +kernel

/-- The slab slice's offsets at point `t`, as the kernel computes them: row `0`, column `2048·(t % 8)`. -/
theorem off_at (t : Fin cfg0.N) : k0_off1 (grid0.coords t) = ![0, 2048 * (t.val % 8)] := by
  rw [k0_off1_eq, tile_of_point t]

end Cert.KernelIdeal.Hand.Body

end
-- ==== Proof.KBase.lean ====
/-
  The arithmetic of the one-pass kernel's grid points, free of any program run.

  A point `t = 8·n + s` works on batch element `n = t / 8` and position tile `s = t % 8`.  Here: the two
  conditionals' tests in closed form (`s = 0`, `s = 7`) and where each window is idle; the slab with one 128 × 2048
  slice replaced (`slabAt`), read inside and outside the slice; what the slice store stores (the staged tile with
  its unit batch axis dropped); the fact carried about the slab from point to point (`SlabOk`: after point `t`
  every column below `2048·(s + 1)` holds the volume's entry of batch element `n`), which the body's slice store
  re-establishes — the new slice is the tile, and a tile's entry at column `l` is the volume's at column
  `2048·s + l` — and which at `s = 7` says the slab IS the batch element; and the running sums' recursion read at
  a point.
-/
import proofs.«168272_g2000702401841808_pallasbulk_415_2_alg».proof.Proof.KTile
import Idealize.ShloMosaic.Lib.WritesUnit
import Idealize.ShloMosaic.Lib.ValueLayout

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace Body

/-- The first conditional's test, from the tile coordinate: `s = 0`. -/
abbrev condFirst (i : grid0.Coords) : Prop := (Scalar.cmpi .ne (Scalar.extui (Scalar.cmpi .eq (BitVec.ofNat 32 (i 1).val) 0#32)) 0#32) = 1#1
/-- The second conditional's test: `s = 7`. -/
abbrev condLast (i : grid0.Coords) : Prop := k0_cond2 i = 1#1

/-- The first test holds at the points with `s = 0`: decided over the 64 points. -/
theorem hcondFirst : ∀ t : Fin cfg0.N, condFirst (grid0.coords t) ↔ t.val % 8 = 0 :=
  (by decide +kernel : ∀ t : Fin grid0.N, condFirst (grid0.coords t) ↔ t.val % 8 = 0)
/-- The second at the points with `s = 7`. -/
theorem hcondLast : ∀ t : Fin cfg0.N, condLast (grid0.coords t) ↔ t.val % 8 = 7 :=
  (by decide +kernel : ∀ t : Fin grid0.N, condLast (grid0.coords t) ↔ t.val % 8 = 7)

/-- The three input windows are never idle; the output window is idle exactly off the points with `s = 7`. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = false ↔ t.val % 8 = 7 :=
  (by decide +kernel : ∀ t : Fin grid0.N, idle0 3 (grid0.coords t) = false ↔ t.val % 8 = 7)

/-- A slab whose columns `off 1 ‥ off 1 + 2047` (all 128 rows when `off 0 = 0`) have been replaced by the
    128 × 2048 array `w`: inside the rectangle `w` at the index minus the offsets, elsewhere what the slab held. -/
def slabAt (off : Fin 2 → ℕ) (ds : Vec F S128x16384 .f32) (w : Vec F S128x2048 .f32) : Vec F S128x16384 .f32 :=
  fun y => if h : ∀ a, off a ≤ (y a).val ∧ (y a).val < off a + S128x2048.size a then
      w (Rect.unitLocal (s := S128x16384) (off := off) (size := S128x2048.size) y h)
    else ds y

/-- Inside the slice of tile `s`: column `2048·s + l` holds `w` at column `l`. -/
theorem slabAt_in (s : ℕ) (ds : Vec F S128x16384 .f32) (w : Vec F S128x2048 .f32) (r : Fin 128) (col : Fin 16384) (l : Fin 2048)
    (h : col.val = 2048 * s + l.val) : slabAt ![0, 2048 * s] ds w (ix2 r col) = w (ix2 r l) := by
  unfold slabAt
  have hall : ∀ a : Fin 2, (![0, 2048 * s] : Fin 2 → ℕ) a ≤ ((ix2 r col : S128x16384.Idx) a).val
      ∧ ((ix2 r col : S128x16384.Idx) a).val < (![0, 2048 * s] : Fin 2 → ℕ) a + S128x2048.size a := by
    intro a; fin_cases a
    · exact ⟨Nat.zero_le _, by show r.val < 0 + 128; have := r.isLt; omega⟩
    · exact ⟨by show 2048 * s ≤ col.val; omega, by show col.val < 2048 * s + 2048; have := l.isLt; omega⟩
  rw [dif_pos hall]
  refine congrArg w (funext fun a => ?_)
  fin_cases a
  · exact Fin.ext (by show r.val - 0 = r.val; omega)
  · exact Fin.ext (by show col.val - 2048 * s = l.val; omega)

/-- Outside it the slab is what it was. -/
theorem slabAt_out (s : ℕ) (ds : Vec F S128x16384 .f32) (w : Vec F S128x2048 .f32) (r : Fin 128) (col : Fin 16384)
    (h : col.val < 2048 * s ∨ 2048 * s + 2048 ≤ col.val) : slabAt ![0, 2048 * s] ds w (ix2 r col) = ds (ix2 r col) := by
  unfold slabAt
  rw [dif_neg]
  intro hall
  have h1 : 2048 * s ≤ col.val ∧ col.val < 2048 * s + 2048 := hall 1
  omega

/-- What the slice store stores: the staged tile with its unit batch axis dropped. -/
theorem pay3_apply (x0 : Vec F S1x128x2048 .f32) (r : Fin 128) (l : Fin 2048) : k0_pay3 x0 (ix2 r l) = x0 (ix3 (0 : Fin 1) r l) := by
  unfold k0_pay3 k0_pay2
  dsimp only
  rw [shapeCast_self]
  exact shapeCast_1ab_ab_apply x0 _ r l

variable (m : (ℓ : Loc nD τ sig) → Buf (Elt F) ℓ)

/-- The fact carried about the slab after point `n`: every column below `2048·(n % 8 + 1)` holds the volume's
    entry of batch element `n / 8`. -/
def SlabOk (c : Dev nD) (n : ℕ) (hn : n < cfg0.N) (d : Vec F S128x16384 .f32) : Prop :=
  ∀ (r : Fin 128) (col : Fin 16384), col.val < 2048 * (n % 8 + 1) →
    d (ix2 r col) = xarr m c (ix3 (⟨n / 8, by have h : cfg0.N = 64 := N_0; omega⟩ : Fin 8) r col)

/-- The body's slice store re-establishes it: the new slice holds the tile, which is the volume's block; the
    columns before it are the earlier tiles of the same batch element (none when `s = 0`). -/
theorem slabOk_step (c : Dev nD) (t : Fin cfg0.N) (ds : Vec F S128x16384 .f32)
    (hprev : t.val % 8 ≠ 0 → SlabOk m c (t.val - 1) (Nat.lt_of_le_of_lt (Nat.sub_le _ _) t.isLt) ds) :
    SlabOk m c t.val t.isLt (slabAt (k0_off1 (grid0.coords t)) ds (k0_pay3 (xtile m c t))) := by
  intro r col hcol
  rw [off_at t]
  by_cases hin : 2048 * (t.val % 8) ≤ col.val
  · have hl : col.val - 2048 * (t.val % 8) < 2048 := by omega
    rw [slabAt_in (t.val % 8) ds _ r col ⟨col.val - 2048 * (t.val % 8), hl⟩ (by show col.val = 2048 * (t.val % 8) + (col.val - 2048 * (t.val % 8)); omega),
      pay3_apply, xtile_apply m c t r ⟨_, hl⟩]
    refine congrArg (xarr m c) (congrArg (ix3 _ r) (Fin.ext ?_))
    show 2048 * (t.val % 8) + (col.val - 2048 * (t.val % 8)) = col.val
    omega
  · have h0 : t.val % 8 ≠ 0 := by omega
    rw [slabAt_out (t.val % 8) ds _ r col (Or.inl (by omega))]
    have hp := hprev h0 r col (by
      have e : (t.val - 1) % 8 + 1 = t.val % 8 := by omega
      rw [e]; omega)
    rw [hp]
    refine congrArg (xarr m c) (congrArg (fun b => ix3 b r col) (Fin.ext ?_))
    show (t.val - 1) / 8 = t.val / 8
    omega

/-- At `s = 7` every column is below `2048·8`: the slab is the whole batch element. -/
theorem slabOk_full (c : Dev nD) (t : Fin cfg0.N) (h7 : t.val % 8 = 7) (d : Vec F S128x16384 .f32)
    (h : SlabOk m c t.val t.isLt d) : d = slabOf m c t := by
  funext j
  calc d j = d (ix2 (j 0) (j 1)) := congrArg d (eq_ix2 j)
    _ = xarr m c (ix3 _ (j 0) (j 1)) := h (j 0) (j 1) (by have := (j 1).isLt; rw [h7]; exact this)
    _ = slabOf m c t j := rfl

/-- The running sums at a point with `s = 0`: the tile's row sums added to zero. -/
theorem accAt_first (c : Dev nD) (t : Fin cfg0.N) (h0 : t.val % 8 = 0) :
    accAt m c t.val t.isLt = k0_pay4 (xtile m c t) (k0_pay1 (F := F)) := by
  obtain ⟨n, hn⟩ := t
  cases n with
  | zero => rfl
  | succ n => exact (accAt_succ m c n hn).trans (by rw [if_pos h0])

/-- At any other point: added to what the point before left. -/
theorem accAt_next (c : Dev nD) (t : Fin cfg0.N) (h0 : ¬t.val % 8 = 0) :
    accAt m c t.val t.isLt = k0_pay4 (xtile m c t) (accAt m c (t.val - 1) (Nat.lt_of_le_of_lt (Nat.sub_le _ _) t.isLt)) := by
  obtain ⟨n, hn⟩ := t
  cases n with
  | zero => exact absurd (Nat.zero_mod _) h0
  | succ n => exact (accAt_succ m c n hn).trans (by rw [if_neg h0]; rfl)

/-- At a last tile: the slab the body scales is the batch element and the sums it gates with are the point's, so
    what it stores is the output block the proof data name. -/
theorem outBlk_eq (c : Dev nD) (t : Fin cfg0.N) (h0 : ¬t.val % 8 = 0) (h7 : t.val % 8 = 7) (ds : Vec F S128x16384 .f32)
    (hprev : SlabOk m c (t.val - 1) (Nat.lt_of_le_of_lt (Nat.sub_le _ _) t.isLt) ds) :
    k0_pay5 (k0_pay4 (xtile m c t) (accAt m c (t.val - 1) (Nat.lt_of_le_of_lt (Nat.sub_le _ _) t.isLt))) (w1blk m c t) (w2blk m c t)
        (slabAt (k0_off1 (grid0.coords t)) ds (k0_pay3 (xtile m c t))) = outBlk m c t := by
  unfold outBlk
  rw [accAt_next m c t h0, slabOk_full m c t h7 _ (slabOk_step m c t ds (fun _ => hprev))]

end Body

end Cert.KernelIdeal.Hand

end
-- ==== Proof.KRun.lean ====
/-
  The one-pass kernel's body, run once in each of the three cases of its two conditionals on the tile coordinate
  `s`: `s = 0` (the running sums are zeroed first), `0 < s < 7`, and `s = 7` (the gates are computed and the scaled
  slab is stored as the output block).  Each run is stated on arbitrary whole memrefs holding NAMED contents, and
  names what every buffer the body stores into holds afterwards:

    the running sums   the tile's row sums added to zero (`s = 0`) or to what they held;
    the slab           what it held, with columns `2048·s ‥ 2048·s + 2047` replaced by the tile (`slabAt`);
    the output block   (`s = 7` only) the slab just described, scaled by the gates of the new running sums.

  At `s = 7` the body loads the whole slab after storing its own slice in the same run, so the value it scales is
  the slab WITH the slice replaced; reading a buffer back after one slice store is an `if` on the column.
-/
import proofs.«168272_g2000702401841808_pallasbulk_415_2_alg».proof.Proof.KBase

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace Body

/-- Reading the slab back after the one slice store, through any whole memref of its shape: newest store wins
    inside its rectangle, the earlier contents show elsewhere. -/
theorem slab_read (i : grid0.Coords) (arg6 : Memref sig .tc .vmem S128x16384 .f32) (harg6 : arg6.IsWhole)
    (ds : Vec F S128x16384 .f32) (w : Vec F S128x2048 .f32) :
    arg6.view.read (Elt F) (arg6.view.writes (Elt F) (harg6.unread ds)
      [⟨Rect.unit (s := S128x16384) (k0_off1 i) S128x2048.size (k0_off1_inb i), w⟩]) = slabAt (k0_off1 i) ds w := by
  funext y
  rw [View.read_writes_cons_unit arg6.view (harg6.unread ds) (k0_off1_inb i) w [] y rfl]
  unfold slabAt
  simp only [View.writes_nil, harg6.read_unread]

/-- A store through the whole-shape rectangle at zero offsets, made last, reads back as its payload whatever was
    stored before it. -/
theorem read_writes_cons_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at `s = 0`: the running sums become the tile's row sums added to zero, the slab takes the tile in its
    slice; the weight blocks and the output block are not touched. -/
theorem runA (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : condFirst i) (hc1 : ¬condLast i)
    (x0 : Vec F S1x128x2048 .f32) (ds : Vec F S128x16384 .f32) (xs1 : Vec F S128x1 .f32)
    (E : Set ℕ) (K : PUnit → sProp 𝕄) :
        iprop(owns (c : Thread nD τ) arg2 fullShare x0 ∗ owns (c : Thread nD τ) arg6 fullShare ds ∗ owns (c : Thread nD τ) arg7 fullShare xs1
            ∗ (iprop(owns (c : Thread nD τ) arg2 fullShare x0
                ∗ owns (c : Thread nD τ) arg6 fullShare (slabAt (k0_off1 i) ds (k0_pay3 x0))
                ∗ owns (c : Thread nD τ) arg7 fullShare (k0_pay4 x0 (k0_pay1 (F := F)))) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, View.ld_unit_zero (S := S1x128x2048) hz3, View.readCov_unit_zero (S := S128x1) _ hz2]
  exact read_writes_cons_unit_zero (S := S128x1) _ _ hz2 _ _ _

set_option maxHeartbeats 1000000 in
/-- The body at `0 < s < 7`: the running sums gain the tile's row sums, the slab takes the tile in its slice. -/
theorem runB (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : ¬condFirst i) (hc1 : ¬condLast i)
    (x0 : Vec F S1x128x2048 .f32) (ds : Vec F S128x16384 .f32) (xs1 : Vec F S128x1 .f32)
    (E : Set ℕ) (K : PUnit → sProp 𝕄) :
        iprop(owns (c : Thread nD τ) arg2 fullShare x0 ∗ owns (c : Thread nD τ) arg6 fullShare ds ∗ owns (c : Thread nD τ) arg7 fullShare xs1
            ∗ (iprop(owns (c : Thread nD τ) arg2 fullShare x0
                ∗ owns (c : Thread nD τ) arg6 fullShare (slabAt (k0_off1 i) ds (k0_pay3 x0))
                ∗ owns (c : Thread nD τ) arg7 fullShare (k0_pay4 x0 xs1)) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, harg7.read_unread, View.ld_unit_zero (S := S1x128x2048) hz3, View.ld_unit_zero (S := S128x1) hz2]
  exact read_writes_cons_unit_zero (S := S128x1) _ _ hz2 _ _ _

set_option maxHeartbeats 1000000 in
/-- The body at `s = 7`: as before, and the output block becomes the slab — the one the slice store has just
    completed — scaled by the gates computed from the new running sums and the two weight blocks. -/
theorem runC (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : ¬condFirst i) (hc1 : condLast i)
    (x0 : Vec F S1x128x2048 .f32) (x1 : Vec F S128x16 .f32) (x2 : Vec F S128x16 .f32) (d3 : Vec F S1x128x16384 .f32) (ds : Vec F S128x16384 .f32) (xs1 : Vec F S128x1 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds ∗ owns (c : Thread nD τ) arg7 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare (k0_pay5 (k0_pay4 x0 xs1) x1 x2 (slabAt (k0_off1 i) ds (k0_pay3 x0)))
                ∗ owns (c : Thread nD τ) arg6 fullShare (slabAt (k0_off1 i) ds (k0_pay3 x0)) ∗ owns (c : Thread nD τ) arg7 fullShare (k0_pay4 x0 xs1)) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    simp only [View.readAt_eq_ld, harg2.read_unread, harg3.read_unread, harg4.read_unread, harg7.read_unread,
      View.ld_unit_zero (S := S1x128x2048) hz3, View.ld_unit_zero (S := S128x1) hz2, View.ld_unit_zero (S := S128x16) hz2,
      View.ld_unit_zero (S := S128x16384) hz2, View.readCov_unit_zero (S := S128x1) _ hz2]
    exact (read_writes_cons_unit_zero (S := S1x128x16384) _ _ hz3 _ _ _).trans
      (congrArg (k0_pay5 (k0_pay4 x0 xs1) x1 x2) (slab_read i arg6 harg6 ds (k0_pay3 x0)))
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, harg7.read_unread, View.ld_unit_zero (S := S1x128x2048) hz3, View.ld_unit_zero (S := S128x1) hz2]
  exact read_writes_cons_unit_zero (S := S128x1) _ _ hz2 _ _ _

end Body

end Cert.KernelIdeal.Hand

end
-- ==== Proof.KBody.lean ====
/-
  The frame of the one-pass kernel program with every output named.

  The proof data: each windowed array as the region finds it; after the body at a point the three input windows'
  buffers still at their blocks, and the output window's buffer — stored only at a last tile `s = 7` — at the batch
  element scaled by its gates (`outBlk`).  The invariant between points owns the two scratch buffers the kernel
  carries: the running sums at their value after the point before (`accAt`), and the slab at SOME contents of which
  one pure fact is kept — every column the tiles so far have filled holds the volume's entry (`Body.SlabOk`).
  The body's slice store re-establishes that fact, and at `s = 7` it says the slab the body has just loaded whole is
  the batch element, so that what it stores is `outBlk`.  The body obligation is the three case runs applied at a
  generic point; the launch is the library's, @main continuing after the region with one host reshape.
-/
import proofs.«168272_g2000702401841808_pallasbulk_415_2_alg».proof.Proof.KRun

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Body

/-- Each window's current staging memref at point `t`, as the pipeline passes it to the body, and its wholeness. -/
abbrev ms0 (t : Fin cfg0.N) : Memref sig .tc .vmem S1x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x16384 .f32 := win0_3.stage (cfg0.slots t 3)
abbrev hs3 (t : Fin cfg0.N) : (ms3 t).IsWhole := hstage0_3 ((cfg0.slots t 3).cast nbuf0_3)
/-- The two scratch operands: whole scoped buffers of the kernel's own — the slab and the running sums. -/
abbrev scM0 : Memref sig .tc .vmem S128x16384 .f32 := Memref.whole cc0_scratch0
abbrev scM1 : Memref sig .tc .vmem S128x1 .f32 := Memref.whole cc0_scratch1

/-- What the launch hands the region beside the windows: the two scratch buffers at some contents each, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: before the first point what the launch hands over; after point `n` the slab
    at some contents that satisfy the carried fact, the running sums at their value after that point, and the
    generator register at some state. -/
def PhiS (c : Dev nD) : (n : ℕ) → n ≤ cfg0.N → sProp 𝕄
  | 0, _ => Pipeline.ΦA spec0 c
  | n + 1, hn => iprop(iprop((∃ d, ⌜SlabOk m c n hn d⌝ ∗ owns (c : Thread nD τ) scM0 fullShare d) ∗ owns (c : Thread nD τ) scM1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜SlabOk m c n hn d⌝ ∗ owns (c : Thread nD τ) scM0 fullShare d) ∗ owns (c : Thread nD τ) scM1 fullShare (accAt m c n hn)) ∗ (∃ r, prngReg c r)) := rfl

theorem PhiS_pos (c : Dev nD) (n : ℕ) (h : n ≤ cfg0.N) (hz : n ≠ 0) :
    PhiS m c n h = iprop(iprop((∃ d, ⌜SlabOk m c (n - 1) (by omega) d⌝ ∗ owns (c : Thread nD τ) scM0 fullShare d) ∗ owns (c : Thread nD τ) scM1 fullShare (accAt m c (n - 1) (by omega))) ∗ (∃ r, prngReg c r)) := by
  cases n with
  | zero => exact absurd rfl hz
  | succ n => rfl

/-- At any position the invariant gives back what the launch handed over: the named contents are forgotten. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨⟨%d, -, HS0⟩, HS1⟩, Hg⟩
    isplitl [HS0 HS1]
    · isplitl [HS0]
      · iexists _; iexact HS0
      iexists _; iexact HS1
    iexact Hg

/-- The same with the launch's share spelled out: both scratch buffers at some contents, the register at some state. -/
theorem PhiS_open (c : Dev nD) (n : ℕ) (h : n ≤ cfg0.N) :
    PhiS m c n h ⊢ iprop(iprop((∃ d, owns (c : Thread nD τ) scM0 fullShare d) ∗ (∃ d, owns (c : Thread nD τ) scM1 fullShare d)) ∗ (∃ r, prngReg c r)) := by
  rw [← PhiA_eq]; exact PhiS_out m c n h

end Body

open Body

/-- The proof data of the one pipeline on core `c`: the arrays as the region finds them; after the body at point `t`
    each input's buffer at its block and the output's at the scaled batch element; the invariant `PhiS`; nothing
    owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => outBlk m c t
  Φ t := PhiS m c t.val (Nat.le_of_lt_succ t.isLt)
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = outBlk m c t := by dsimp only [dats]

namespace Body

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not. -/
theorem before0_0 (c : Dev nD) (t : Fin cfg0.N) (d) : (dats m 0 c).before 0 t d = Gen.iblk m c 0 t :=
  before0_0_of m (dats m 0 c) (A_eq m c 0) (after0_0 m c) t d
theorem before0_1 (c : Dev nD) (t : Fin cfg0.N) (d) : (dats m 0 c).before 1 t d = Gen.iblk m c 1 t :=
  before0_1_of m (dats m 0 c) (A_eq m c 1) (after0_1 m c) t d
theorem before0_2 (c : Dev nD) (t : Fin cfg0.N) (d) : (dats m 0 c).before 2 t d = Gen.iblk m c 2 t :=
  before0_2_of m (dats m 0 c) (A_eq m c 2) (after0_2 m c) t d

/-- What the obligation asks of each window's buffer after the body: an input's (never idle) at its block; the
    output's, off a last tile (idle, not written back), as the body found it; at a last tile at the scaled batch element. -/
theorem leaves0 (c : Dev nD) (t : Fin cfg0.N) : (dats m 0 c).leavesExact 0 t = owns (c : Thread nD τ) (ms0 t) fullShare (Gen.iblk m c 0 t) := by
  unfold Dat.leavesExact; rw [live0 t, after0_0]
theorem leaves1 (c : Dev nD) (t : Fin cfg0.N) : (dats m 0 c).leavesExact 1 t = owns (c : Thread nD τ) (ms1 t) fullShare (Gen.iblk m c 1 t) := by
  unfold Dat.leavesExact; rw [live1 t, after0_1]
theorem leaves2 (c : Dev nD) (t : Fin cfg0.N) : (dats m 0 c).leavesExact 2 t = owns (c : Thread nD τ) (ms2 t) fullShare (Gen.iblk m c 2 t) := by
  unfold Dat.leavesExact; rw [live2 t, after0_2]
theorem leaves3_idle (c : Dev nD) (t : Fin cfg0.N) (h1 : ¬t.val % 8 = 7) :
    (dats m 0 c).leavesExact 3 t = iprop(∃ d, owns (c : Thread nD τ) (ms3 t) fullShare ((dats m 0 c).before 3 t d)) :=
  (dats m 0 c).leavesExact_idle 3 t
    (by cases h : cfg0.idle 3 (grid0.coords t) with
      | true => rfl
      | false => exact absurd ((idle3_iff t).mp h) h1)
    (by cases h : (cfg0.win 3).flush t with
      | false => rfl
      | true => exact absurd ((flush0_3 t).mp h) h1)
theorem leaves3_live (c : Dev nD) (t : Fin cfg0.N) (h1 : t.val % 8 = 7) :
    (dats m 0 c).leavesExact 3 t = owns (c : Thread nD τ) (ms3 t) fullShare (outBlk m c t) := by
  unfold Dat.leavesExact; rw [(idle3_iff t).mpr h1, after0_3]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point.  The inputs' memrefs hold their blocks; the tile coordinate decides the case.  The
    invariant hands the body the slab with the fact about the tiles before this one (none is needed at `s = 0`) and
    the running sums as the point before left them, and takes them back with the fact re-established and the sums
    advanced; at `s = 7` the fact makes the stored block the scaled batch element. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc]
  have hN : t.val < 64 := lt_of_lt_of_eq t.isLt (show cfg0.N = 64 from N_0)
  by_cases h0 : t.val % 8 = 0
  · have h1 : ¬t.val % 8 = 7 := by omega
    rw [leaves3_idle m c t h1, accAt_first m c t h0]
    iintro ⟨HP, Ho, ⟨%d0, H0⟩, ⟨%d1, H1⟩, ⟨%d2, H2⟩, ⟨%d3, H3⟩⟩
    ihave ⟨⟨⟨%ds, HS0⟩, ⟨%xs, HS1⟩⟩, Hg⟩ := (PhiS_open m c t.val _) $$ HP
    iapply (runA c (grid0.coords t) _ _ _ _ _ _ _ _ _ _ _ _ ((hcondFirst t).mpr h0) (fun h => h1 ((hcondLast t).mp h)) (Gen.iblk m c 0 t) ds xs Set.univ _)
    isplitl [H0]; · iexact H0
    isplitl [HS0]; · iexact HS0
    isplitl [HS1]; · iexact HS1
    iintro ⟨H0, HS0, HS1⟩
    isplitl [HS0 HS1 Hg]
    · isplitl [HS0 HS1]
      · isplitl [HS0]
        · iexists _; isplitr
          · ipureintro; exact slabOk_step m c t ds (fun hne => absurd h0 hne)
          iexact HS0
        iexact HS1
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [accAt_next m c t h0, PhiS_pos m c _ _ hz]
    by_cases h1 : t.val % 8 = 7
    · rw [leaves3_live m c t h1]
      iintro ⟨⟨⟨⟨%ds, %hds, HS0⟩, HS1⟩, Hg⟩, Ho, ⟨%d0, H0⟩, ⟨%d1, H1⟩, ⟨%d2, H2⟩, ⟨%d3, H3⟩⟩
      rw [← outBlk_eq m c t h0 h1 ds hds]
      iapply (runC c (grid0.coords t) _ _ _ _ _ _ _ _ _ _ _ _ (fun h => h0 ((hcondFirst t).mp h)) ((hcondLast t).mpr h1) (Gen.iblk m c 0 t) (Gen.iblk m c 1 t) (Gen.iblk m c 2 t) _ ds _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexists _; isplitr
            · ipureintro; exact slabOk_step m c t ds (fun _ => hds)
            iexact HS0
          iexact HS1
        iexact Hg
      isplitl [Ho]; · iexact Ho
      isplitl [H0]; · iexact H0
      isplitl [H1]; · iexact H1
      isplitl [H2]; · iexact H2
      iexact H3
    · rw [leaves3_idle m c t h1]
      iintro ⟨⟨⟨⟨%ds, %hds, HS0⟩, HS1⟩, Hg⟩, Ho, ⟨%d0, H0⟩, ⟨%d1, H1⟩, ⟨%d2, H2⟩, ⟨%d3, H3⟩⟩
      iapply (runB c (grid0.coords t) _ _ _ _ _ _ _ _ _ _ _ _ (fun h => h0 ((hcondFirst t).mp h)) (fun h => h1 ((hcondLast t).mp h)) (Gen.iblk m c 0 t) ds _ Set.univ _)
      isplitl [H0]; · iexact H0
      isplitl [HS0]; · iexact HS0
      isplitl [HS1]; · iexact HS1
      iintro ⟨H0, HS0, HS1⟩
      isplitl [HS0 HS1 Hg]
      · isplitl [HS0 HS1]
        · isplitl [HS0]
          · iexists _; isplitr
            · ipureintro; exact slabOk_step m c t ds (fun _ => hds)
            iexact HS0
          iexact HS1
        iexact Hg
      isplitl [Ho]; · iexact Ho
      isplitl [H0]; · iexact H0
      isplitl [H1]; · iexact H1
      isplitl [H2]; · iexact H2
      iexists _; iexact H3

end Body

/-- The library's body obligation, at every point. -/
theorem body_obligation (c : Dev nD) : BodyObligation (dats (F := F) m 0 c) (defs₀ (F := F)) Variants.none () Set.univ := fun t => by
  rw [bigSep_W0, bigSep_W0]
  exact sound_body m c t

namespace Body

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

end Body

set_option backward.isDefEq.respectTransparency.types false in
/-- At the compiled mesh, for any values, from any memory with zero counters: every weakly fair execution of @main on
    the TensorCores terminates, and every final state has every array of the pipeline at what the proof data say —
    the inputs as the region found them, the output overwritten block by block by the scaled batch elements — and
    every other unscoped buffer at what the host line after the region leaves. -/
theorem run_main : θ_run defs (onTc (τ := τ) (main (F := F))) (s₀ m ρ) (Pipeline.FramePost cfgs (dats m) 0 (Pipeline.afterTail₀ cfgs (dats m) 0 (Gen.V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps)
    (hmain := hmain m Variants.none) (hA := A_eq m) (hin := hin m) (hout := hout m)

/-- The frame: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (A_eq m) (run_main m ρ)

end Cert.KernelIdeal.Hand

end
-- ==== Proof.KDataBits.lean ====
/-
  What the one-pass kernel's buffers hold, point by point, named as functions of the arrays the region is entered with.

  The grid runs over batch elements `n` (outer, 8) and position tiles `s` (inner, 8 tiles of 2048 positions), point
  `t = 8·n + s`.  At every point the body copies the staged tile of `x` into columns `2048·s ‥ 2048·s + 2047` of a slab
  it keeps across points, and adds the tile's row sums to a column of 128 running sums that it zeroes when `s = 0`.  At
  `s = 7` the slab holds the whole batch element and the running sums its channel totals; the body then computes the
  gates from the totals and the two weight blocks, and stores the slab scaled by them as the output block.
-/
import proofs.«168272_g2000702401841808_pallasbulk_415_2_alg».proof.Proof.Gen.Kernel.Frame
import proofs.«168272_g2000702401841808_pallasbulk_415_2_alg».proof.Proof.Gen.Kernel.Skeleton
import Idealize.ShloMosaic.Lib.ValueIdx

noncomputable section

namespace Cert.Kernel.Hand

open Idealize.ShloMosaic Idealize.ShloMosaic.TcCoe Idealize.ShloMosaic.ValueIdx Idealize.SL.Sem
open Cert.Kernel Cert.Kernel.Gen

variable {F : FTy → Type} [FloatOps F]

variable (m : (ℓ : Loc nD τ sig) → Buf (Elt F) ℓ)

/-- The volume as the region finds it: batch × channel × position. -/
abbrev xarr (c : Dev nD) : Vec F S8x128x16384 .f32 := Gen.V m c main_v0

/-- The tile of `x` staged at point `t`: one batch element, all channels, 2048 positions. -/
abbrev xtile (c : Dev nD) (t : Fin cfg0.N) : Vec F S1x128x2048 .f32 := Gen.iblk m c 0 t
/-- The first weight block (channel × hidden, already transposed by the host) as staged at point `t`. -/
abbrev w1blk (c : Dev nD) (t : Fin cfg0.N) : Vec F S128x16 .f32 := Gen.iblk m c 1 t
/-- The second weight block (channel × hidden) as staged at point `t`. -/
abbrev w2blk (c : Dev nD) (t : Fin cfg0.N) : Vec F S128x16 .f32 := Gen.iblk m c 2 t

/-- The running sums after point `n`: the tile's row sums added to zero at the first tile of a batch element, and to
    what the point before left otherwise. -/
def accAt (c : Dev nD) : (n : ℕ) → n < cfg0.N → Vec F S128x1 .f32
  | 0, h => k0_pay4 (xtile m c ⟨0, h⟩) k0_pay1
  | n + 1, h =>
    k0_pay4 (xtile m c ⟨n + 1, h⟩) (if (n + 1) % 8 = 0 then k0_pay1 else accAt c n (Nat.lt_of_succ_lt h))

theorem accAt_zero (c : Dev nD) (h : 0 < cfg0.N) : accAt m c 0 h = k0_pay4 (xtile m c ⟨0, h⟩) k0_pay1 := rfl

theorem accAt_succ (c : Dev nD) (n : ℕ) (h : n + 1 < cfg0.N) :
    accAt m c (n + 1) h
      = k0_pay4 (xtile m c ⟨n + 1, h⟩) (if (n + 1) % 8 = 0 then k0_pay1 else accAt m c n (Nat.lt_of_succ_lt h)) := rfl

/-- The batch element point `t` works on, whole: channel × position, read off the volume. -/
def slabOf (c : Dev nD) (t : Fin cfg0.N) : Vec F S128x16384 .f32 :=
  fun j => xarr m c (ix3 (⟨t.val / 8, by have := t.isLt; have h : cfg0.N = 64 := N_0; omega⟩ : Fin 8) (⟨(j 0).val, (j 0).isLt⟩ : Fin 128) (⟨(j 1).val, (j 1).isLt⟩ : Fin 16384))

/-- What the body stores as the output block at a last tile `t` (`t % 8 = 7`): the slab scaled by the gates computed
    from the running sums and the weight blocks. -/
def outBlk (c : Dev nD) (t : Fin cfg0.N) : Vec F S1x128x16384 .f32 :=
  k0_pay5 (accAt m c t.val t.isLt) (w1blk m c t) (w2blk m c t) (slabOf m c t)

end Cert.Kernel.Hand

end
-- ==== Proof.KBlocksBits.lean ====
/-
  Where the one-pass kernel's staged blocks sit in the arrays the region is entered with, and what those arrays are in
  terms of the program's arguments.

  At point `t = 8·n + s` the staged tile of the volume is batch element `n`, all channels, positions
  `2048·s ‥ 2048·s + 2047`; both weight blocks are their whole arrays at every point.  Before the region the host
  flattens the volume's three spatial axes and transposes the first weight matrix; the second reaches it unchanged.
-/
import proofs.«168272_g2000702401841808_pallasbulk_415_2_alg».proof.Proof.KDataBits
import Idealize.ShloMosaic.Lib.ValueIdx
import Idealize.ShloMosaic.Lib.ValueLayout
import Idealize.ShloMosaic.Lib.StableHlo.Run
import Idealize.ShloMosaic.Lib.Tactic

noncomputable section

namespace Cert.Kernel.Hand

open Idealize.ShloMosaic Idealize.ShloMosaic.TcCoe Idealize.ShloMosaic.ValueIdx Idealize.SL.Sem
open Cert.Kernel Cert.Kernel.Gen

variable {F : FTy → Type} [FloatOps F]

variable (m : (ℓ : Loc nD τ sig) → Buf (Elt F) ℓ)

/-- Where each window's block sits at point `t = 8·n + s`: the tile of the volume is batch element `n`, all channels,
    position tile `s`; both weight blocks are their whole arrays; the output block is batch element `n`, whole. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- An entry of the tile staged at point `t` is the volume's entry of batch element `t / 8`, the same channel, and
    position `2048·(t % 8)` further on. -/
theorem xtile_apply_of (c : Dev nD) (t : Fin cfg0.N) (x : S1x128x2048.Idx) (k : S8x128x16384.Idx)
    (hk0 : (k 0).val = t.val / 8) (hk1 : (k 1).val = (x 1).val) (hk2 : (k 2).val = 2048 * (t.val % 8) + (x 2).val) :
    xtile m c t x = xarr m c k := by
  obtain ⟨e0, e1, e2, -⟩ := idx_facts t
  have h0 : (x 0).val < 1 := (x 0).isLt
  show Gen.iblk m c 0 t x = Gen.V m c main_v0 k
  unfold Gen.iblk
  rw [View.read_apply]
  show Gen.V m c main_v0 _ = Gen.V m c main_v0 k
  congr 1
  funext a
  apply Fin.ext
  match a with
  | ⟨0, _⟩ => show win0_0.index t (0 : Fin 3) * 1 + 1 * (x 0).val = (k 0).val; omega
  | ⟨1, _⟩ => show win0_0.index t (1 : Fin 3) * 128 + 1 * (x 1).val = (k 1).val; omega
  | ⟨2, _⟩ => show win0_0.index t (2 : Fin 3) * 2048 + 1 * (x 2).val = (k 2).val; omega

/-- The same at coordinates: tile entry `(r, l)` is the volume's entry `(t / 8, r, 2048·(t % 8) + l)`. -/
theorem xtile_apply (c : Dev nD) (t : Fin cfg0.N) (b : Fin 8) (hb : b.val = t.val / 8) (j : Fin 8) (hj : j.val = t.val % 8)
    (u : Fin 1) (r : Fin 128) (l : Fin 2048) :
    xtile m c t (ix3 u r l) = xarr m c (ix3 b r (⟨j.val * 2048 + l.val, by have := j.isLt; have := l.isLt; omega⟩ : Fin 16384)) :=
  xtile_apply_of m c t _ _ hb rfl (by show j.val * 2048 + l.val = 2048 * (t.val % 8) + l.val; omega)

/-- The first weight block staged at any point is the whole transposed first weight matrix. -/
theorem w1blk_eq (c : Dev nD) (t : Fin cfg0.N) : w1blk m c t = (Gen.V m c main_v1 : Vec F S128x16 .f32) := by
  obtain ⟨-, -, -, e0, e1, -⟩ := idx_facts t
  funext x
  show Gen.iblk m c 1 t x = Gen.V m c main_v1 x
  unfold Gen.iblk
  rw [View.read_apply]
  show Gen.V m c main_v1 _ = Gen.V m c main_v1 x
  congr 1
  funext a
  apply Fin.ext
  match a with
  | ⟨0, _⟩ => show win0_1.index t (0 : Fin 2) * 128 + 1 * (x 0).val = (x 0).val; omega
  | ⟨1, _⟩ => show win0_1.index t (1 : Fin 2) * 16 + 1 * (x 1).val = (x 1).val; omega

/-- The second weight block staged at any point is the whole second weight matrix. -/
theorem w2blk_eq (c : Dev nD) (t : Fin cfg0.N) : w2blk m c t = (Gen.V m c main_arg2 : Vec F S128x16 .f32) := by
  obtain ⟨-, -, -, -, -, e0, e1, -⟩ := idx_facts t
  funext x
  show Gen.iblk m c 2 t x = Gen.V m c main_arg2 x
  unfold Gen.iblk
  rw [View.read_apply]
  show Gen.V m c main_arg2 _ = Gen.V m c main_arg2 x
  congr 1
  funext a
  apply Fin.ext
  match a with
  | ⟨0, _⟩ => show win0_2.index t (0 : Fin 2) * 128 + 1 * (x 0).val = (x 0).val; omega
  | ⟨1, _⟩ => show win0_2.index t (1 : Fin 2) * 16 + 1 * (x 1).val = (x 1).val; omega

/-- The host transposes the first weight matrix before the region: the region finds it channel × hidden. -/
theorem V_main_v1_eq (c : Dev nD) :
    (Gen.V m c main_v1 : Vec F S128x16 .f32)
      = transpose S128x16 [1, 0] (m ((c.tc : Thread nD τ).loc main_arg1) : Vec F S16x128 .f32) transposes_S16x128_S128x16_1_0 := by
  show StableHlo.after hostOps0 (fun b => m (c, b)) (Proc.devRef .tc main_v1) = _
  after_results

/-- Read at an entry: channel `ch`, hidden unit `k` of what the region finds is entry `(k, ch)` of the argument. -/
theorem V_main_v1_apply (c : Dev nD) (ch : Fin 128) (k : Fin 16) :
    (Gen.V m c main_v1 : Vec F S128x16 .f32) (ix2 ch k) = (m ((c.tc : Thread nD τ).loc main_arg1) : Vec F S16x128 .f32) (ix2 k ch) := by
  rw [V_main_v1_eq]
  exact transpose_ix2_apply _ _ ch k

/-- The host flattens the three spatial axes of the volume before the region. -/
theorem xarr_eq (c : Dev nD) :
    xarr m c = shapeCast S8x128x16384 (m ((c.tc : Thread nD τ).loc main_arg0) : Vec F S8x128x16x32x32 .f32) shapeCasts_S8x128x16x32x32_S8x128x16384 := by
  show StableHlo.after hostOps0 (fun b => m (c, b)) (Proc.devRef .tc main_v0) = _
  after_results
  rfl

/-- The second weight matrix reaches the region as launched. -/
theorem V_main_arg2_eq (c : Dev nD) :
    (Gen.V m c main_arg2 : Vec F S128x16 .f32) = (m ((c.tc : Thread nD τ).loc main_arg2) : Vec F S128x16 .f32) :=
  Gen.V_main_arg2 m c

end Cert.Kernel.Hand

end
-- ==== Proof.KTileBits.lean ====
/-
  The staged tile of the volume and the slab slice it is copied to, at coordinates. At point `t = 8·n + s`, entry
  `(r, l)` of the tile is the volume's entry `(n, r, 2048·s + l)`, and the slice of the slab the body reads and
  writes begins at row `0`, column `2048·s`.
-/
import proofs.«168272_g2000702401841808_pallasbulk_415_2_alg».proof.Proof.KBlocksBits

noncomputable section

namespace Cert.Kernel.Hand.Body

open Idealize.ShloMosaic Idealize.ShloMosaic.TcCoe Idealize.ShloMosaic.ValueIdx Idealize.SL.Sem
open Cert.Kernel Cert.Kernel.Gen Cert.Kernel.Hand

variable {F : FTy → Type} [FloatOps F]

variable (m : (ℓ : Loc nD τ sig) → Buf (Elt F) ℓ)

/-- Entry `(r, l)` of the tile staged at point `t` is the volume's entry of batch element `t / 8`, channel `r`,
    position `2048·(t % 8) + l`. -/
theorem xtile_apply (c : Dev nD) (t : Fin cfg0.N) (r : Fin 128) (l : Fin 2048) :
    xtile m c t (ix3 (0 : Fin 1) r l)
      = xarr m c (ix3 (⟨t.val / 8, by have := t.isLt; have h : cfg0.N = 64 := N_0; omega⟩ : Fin 8) r
          (⟨2048 * (t.val % 8) + l.val, by have := l.isLt; omega⟩ : Fin 16384)) :=
  xtile_apply_of m c t _ _ rfl rfl rfl

/-- The inner coordinate of point `t`, the position tile, is `t % 8`. -/
theorem tile_of_point : ∀ t : Fin grid0.N, ((grid0.coords t) 1).val = t.val % 8 := by decide +kernel

/-- The slab slice's offsets at point `t`, as the kernel computes them: row `0`, column `2048·(t % 8)`. -/
theorem off_at (t : Fin cfg0.N) : k0_off1 (grid0.coords t) = ![0, 2048 * (t.val % 8)] := by
  rw [k0_off1_eq, tile_of_point t]

end Cert.Kernel.Hand.Body

end
-- ==== Proof.KBaseBits.lean ====
/-
  The arithmetic of the one-pass kernel's grid points, free of any program run.

  A point `t = 8·n + s` works on batch element `n = t / 8` and position tile `s = t % 8`.  Here: the two
  conditionals' tests in closed form (`s = 0`, `s = 7`) and where each window is idle; the slab with one 128 × 2048
  slice replaced (`slabAt`), read inside and outside the slice; what the slice store stores (the staged tile with
  its unit batch axis dropped); the fact carried about the slab from point to point (`SlabOk`: after point `t`
  every column below `2048·(s + 1)` holds the volume's entry of batch element `n`), which the body's slice store
  re-establishes — the new slice is the tile, and a tile's entry at column `l` is the volume's at column
  `2048·s + l` — and which at `s = 7` says the slab IS the batch element; and the running sums' recursion read at
  a point.
-/
import proofs.«168272_g2000702401841808_pallasbulk_415_2_alg».proof.Proof.KTileBits
import Idealize.ShloMosaic.Lib.WritesUnit
import Idealize.ShloMosaic.Lib.ValueLayout

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace Body

/-- The first conditional's test, from the tile coordinate: `s = 0`. -/
abbrev condFirst (i : grid0.Coords) : Prop := (Scalar.cmpi .ne (Scalar.extui (Scalar.cmpi .eq (BitVec.ofNat 32 (i 1).val) 0#32)) 0#32) = 1#1
/-- The second conditional's test: `s = 7`. -/
abbrev condLast (i : grid0.Coords) : Prop := k0_cond2 i = 1#1

/-- The first test holds at the points with `s = 0`: decided over the 64 points. -/
theorem hcondFirst : ∀ t : Fin cfg0.N, condFirst (grid0.coords t) ↔ t.val % 8 = 0 :=
  (by decide +kernel : ∀ t : Fin grid0.N, condFirst (grid0.coords t) ↔ t.val % 8 = 0)
/-- The second at the points with `s = 7`. -/
theorem hcondLast : ∀ t : Fin cfg0.N, condLast (grid0.coords t) ↔ t.val % 8 = 7 :=
  (by decide +kernel : ∀ t : Fin grid0.N, condLast (grid0.coords t) ↔ t.val % 8 = 7)

/-- The three input windows are never idle; the output window is idle exactly off the points with `s = 7`. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = false ↔ t.val % 8 = 7 :=
  (by decide +kernel : ∀ t : Fin grid0.N, idle0 3 (grid0.coords t) = false ↔ t.val % 8 = 7)

/-- A slab whose columns `off 1 ‥ off 1 + 2047` (all 128 rows when `off 0 = 0`) have been replaced by the
    128 × 2048 array `w`: inside the rectangle `w` at the index minus the offsets, elsewhere what the slab held. -/
def slabAt (off : Fin 2 → ℕ) (ds : Vec F S128x16384 .f32) (w : Vec F S128x2048 .f32) : Vec F S128x16384 .f32 :=
  fun y => if h : ∀ a, off a ≤ (y a).val ∧ (y a).val < off a + S128x2048.size a then
      w (Rect.unitLocal (s := S128x16384) (off := off) (size := S128x2048.size) y h)
    else ds y

/-- Inside the slice of tile `s`: column `2048·s + l` holds `w` at column `l`. -/
theorem slabAt_in (s : ℕ) (ds : Vec F S128x16384 .f32) (w : Vec F S128x2048 .f32) (r : Fin 128) (col : Fin 16384) (l : Fin 2048)
    (h : col.val = 2048 * s + l.val) : slabAt ![0, 2048 * s] ds w (ix2 r col) = w (ix2 r l) := by
  unfold slabAt
  have hall : ∀ a : Fin 2, (![0, 2048 * s] : Fin 2 → ℕ) a ≤ ((ix2 r col : S128x16384.Idx) a).val
      ∧ ((ix2 r col : S128x16384.Idx) a).val < (![0, 2048 * s] : Fin 2 → ℕ) a + S128x2048.size a := by
    intro a; fin_cases a
    · exact ⟨Nat.zero_le _, by show r.val < 0 + 128; have := r.isLt; omega⟩
    · exact ⟨by show 2048 * s ≤ col.val; omega, by show col.val < 2048 * s + 2048; have := l.isLt; omega⟩
  rw [dif_pos hall]
  refine congrArg w (funext fun a => ?_)
  fin_cases a
  · exact Fin.ext (by show r.val - 0 = r.val; omega)
  · exact Fin.ext (by show col.val - 2048 * s = l.val; omega)

/-- Outside it the slab is what it was. -/
theorem slabAt_out (s : ℕ) (ds : Vec F S128x16384 .f32) (w : Vec F S128x2048 .f32) (r : Fin 128) (col : Fin 16384)
    (h : col.val < 2048 * s ∨ 2048 * s + 2048 ≤ col.val) : slabAt ![0, 2048 * s] ds w (ix2 r col) = ds (ix2 r col) := by
  unfold slabAt
  rw [dif_neg]
  intro hall
  have h1 : 2048 * s ≤ col.val ∧ col.val < 2048 * s + 2048 := hall 1
  omega

/-- What the slice store stores: the staged tile with its unit batch axis dropped. -/
theorem pay3_apply (x0 : Vec F S1x128x2048 .f32) (r : Fin 128) (l : Fin 2048) : k0_pay3 x0 (ix2 r l) = x0 (ix3 (0 : Fin 1) r l) := by
  unfold k0_pay3 k0_pay2
  dsimp only
  rw [shapeCast_self]
  exact shapeCast_1ab_ab_apply x0 _ r l

variable (m : (ℓ : Loc nD τ sig) → Buf (Elt F) ℓ)

/-- The fact carried about the slab after point `n`: every column below `2048·(n % 8 + 1)` holds the volume's
    entry of batch element `n / 8`. -/
def SlabOk (c : Dev nD) (n : ℕ) (hn : n < cfg0.N) (d : Vec F S128x16384 .f32) : Prop :=
  ∀ (r : Fin 128) (col : Fin 16384), col.val < 2048 * (n % 8 + 1) →
    d (ix2 r col) = xarr m c (ix3 (⟨n / 8, by have h : cfg0.N = 64 := N_0; omega⟩ : Fin 8) r col)

/-- The body's slice store re-establishes it: the new slice holds the tile, which is the volume's block; the
    columns before it are the earlier tiles of the same batch element (none when `s = 0`). -/
theorem slabOk_step (c : Dev nD) (t : Fin cfg0.N) (ds : Vec F S128x16384 .f32)
    (hprev : t.val % 8 ≠ 0 → SlabOk m c (t.val - 1) (Nat.lt_of_le_of_lt (Nat.sub_le _ _) t.isLt) ds) :
    SlabOk m c t.val t.isLt (slabAt (k0_off1 (grid0.coords t)) ds (k0_pay3 (xtile m c t))) := by
  intro r col hcol
  rw [off_at t]
  by_cases hin : 2048 * (t.val % 8) ≤ col.val
  · have hl : col.val - 2048 * (t.val % 8) < 2048 := by omega
    rw [slabAt_in (t.val % 8) ds _ r col ⟨col.val - 2048 * (t.val % 8), hl⟩ (by show col.val = 2048 * (t.val % 8) + (col.val - 2048 * (t.val % 8)); omega),
      pay3_apply, xtile_apply m c t r ⟨_, hl⟩]
    refine congrArg (xarr m c) (congrArg (ix3 _ r) (Fin.ext ?_))
    show 2048 * (t.val % 8) + (col.val - 2048 * (t.val % 8)) = col.val
    omega
  · have h0 : t.val % 8 ≠ 0 := by omega
    rw [slabAt_out (t.val % 8) ds _ r col (Or.inl (by omega))]
    have hp := hprev h0 r col (by
      have e : (t.val - 1) % 8 + 1 = t.val % 8 := by omega
      rw [e]; omega)
    rw [hp]
    refine congrArg (xarr m c) (congrArg (fun b => ix3 b r col) (Fin.ext ?_))
    show (t.val - 1) / 8 = t.val / 8
    omega

/-- At `s = 7` every column is below `2048·8`: the slab is the whole batch element. -/
theorem slabOk_full (c : Dev nD) (t : Fin cfg0.N) (h7 : t.val % 8 = 7) (d : Vec F S128x16384 .f32)
    (h : SlabOk m c t.val t.isLt d) : d = slabOf m c t := by
  funext j
  calc d j = d (ix2 (j 0) (j 1)) := congrArg d (eq_ix2 j)
    _ = xarr m c (ix3 _ (j 0) (j 1)) := h (j 0) (j 1) (by have := (j 1).isLt; rw [h7]; exact this)
    _ = slabOf m c t j := rfl

/-- The running sums at a point with `s = 0`: the tile's row sums added to zero. -/
theorem accAt_first (c : Dev nD) (t : Fin cfg0.N) (h0 : t.val % 8 = 0) :
    accAt m c t.val t.isLt = k0_pay4 (xtile m c t) (k0_pay1 (F := F)) := by
  obtain ⟨n, hn⟩ := t
  cases n with
  | zero => rfl
  | succ n => exact (accAt_succ m c n hn).trans (by rw [if_pos h0])

/-- At any other point: added to what the point before left. -/
theorem accAt_next (c : Dev nD) (t : Fin cfg0.N) (h0 : ¬t.val % 8 = 0) :
    accAt m c t.val t.isLt = k0_pay4 (xtile m c t) (accAt m c (t.val - 1) (Nat.lt_of_le_of_lt (Nat.sub_le _ _) t.isLt)) := by
  obtain ⟨n, hn⟩ := t
  cases n with
  | zero => exact absurd (Nat.zero_mod _) h0
  | succ n => exact (accAt_succ m c n hn).trans (by rw [if_neg h0]; rfl)

/-- At a last tile: the slab the body scales is the batch element and the sums it gates with are the point's, so
    what it stores is the output block the proof data name. -/
theorem outBlk_eq (c : Dev nD) (t : Fin cfg0.N) (h0 : ¬t.val % 8 = 0) (h7 : t.val % 8 = 7) (ds : Vec F S128x16384 .f32)
    (hprev : SlabOk m c (t.val - 1) (Nat.lt_of_le_of_lt (Nat.sub_le _ _) t.isLt) ds) :
    k0_pay5 (k0_pay4 (xtile m c t) (accAt m c (t.val - 1) (Nat.lt_of_le_of_lt (Nat.sub_le _ _) t.isLt))) (w1blk m c t) (w2blk m c t)
        (slabAt (k0_off1 (grid0.coords t)) ds (k0_pay3 (xtile m c t))) = outBlk m c t := by
  unfold outBlk
  rw [accAt_next m c t h0, slabOk_full m c t h7 _ (slabOk_step m c t ds (fun _ => hprev))]

end Body

end Cert.Kernel.Hand

end
-- ==== Proof.KRunBits.lean ====
/-
  The one-pass kernel's body, run once in each of the three cases of its two conditionals on the tile coordinate
  `s`: `s = 0` (the running sums are zeroed first), `0 < s < 7`, and `s = 7` (the gates are computed and the scaled
  slab is stored as the output block).  Each run is stated on arbitrary whole memrefs holding NAMED contents, and
  names what every buffer the body stores into holds afterwards:

    the running sums   the tile's row sums added to zero (`s = 0`) or to what they held;
    the slab           what it held, with columns `2048·s ‥ 2048·s + 2047` replaced by the tile (`slabAt`);
    the output block   (`s = 7` only) the slab just described, scaled by the gates of the new running sums.

  At `s = 7` the body loads the whole slab after storing its own slice in the same run, so the value it scales is
  the slab WITH the slice replaced; reading a buffer back after one slice store is an `if` on the column.
-/
import proofs.«168272_g2000702401841808_pallasbulk_415_2_alg».proof.Proof.KBaseBits

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace Body

/-- Reading the slab back after the one slice store, through any whole memref of its shape: newest store wins
    inside its rectangle, the earlier contents show elsewhere. -/
theorem slab_read (i : grid0.Coords) (arg6 : Memref sig .tc .vmem S128x16384 .f32) (harg6 : arg6.IsWhole)
    (ds : Vec F S128x16384 .f32) (w : Vec F S128x2048 .f32) :
    arg6.view.read (Elt F) (arg6.view.writes (Elt F) (harg6.unread ds)
      [⟨Rect.unit (s := S128x16384) (k0_off1 i) S128x2048.size (k0_off1_inb i), w⟩]) = slabAt (k0_off1 i) ds w := by
  funext y
  rw [View.read_writes_cons_unit arg6.view (harg6.unread ds) (k0_off1_inb i) w [] y rfl]
  unfold slabAt
  simp only [View.writes_nil, harg6.read_unread]

/-- A store through the whole-shape rectangle at zero offsets, made last, reads back as its payload whatever was
    stored before it. -/
theorem read_writes_cons_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rwa [Rect.emb_whole_apply] at e

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The body at `s = 0`: the running sums become the tile's row sums added to zero, the slab takes the tile in its
    slice; the weight blocks and the output block are not touched. -/
theorem runA (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : condFirst i) (hc1 : ¬condLast i)
    (x0 : Vec F S1x128x2048 .f32) (ds : Vec F S128x16384 .f32) (xs1 : Vec F S128x1 .f32)
    (E : Set ℕ) (K : PUnit → sProp 𝕄) :
        iprop(owns (c : Thread nD τ) arg2 fullShare x0 ∗ owns (c : Thread nD τ) arg6 fullShare ds ∗ owns (c : Thread nD τ) arg7 fullShare xs1
            ∗ (iprop(owns (c : Thread nD τ) arg2 fullShare x0
                ∗ owns (c : Thread nD τ) arg6 fullShare (slabAt (k0_off1 i) ds (k0_pay3 x0))
                ∗ owns (c : Thread nD τ) arg7 fullShare (k0_pay4 x0 (k0_pay1 (F := F)))) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, View.ld_unit_zero (S := S1x128x2048) hz3, View.readCov_unit_zero (S := S128x1) _ hz2]
  exact read_writes_cons_unit_zero (S := S128x1) _ _ hz2 _ _ _

set_option maxHeartbeats 1000000 in
/-- The body at `0 < s < 7`: the running sums gain the tile's row sums, the slab takes the tile in its slice. -/
theorem runB (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : ¬condFirst i) (hc1 : ¬condLast i)
    (x0 : Vec F S1x128x2048 .f32) (ds : Vec F S128x16384 .f32) (xs1 : Vec F S128x1 .f32)
    (E : Set ℕ) (K : PUnit → sProp 𝕄) :
        iprop(owns (c : Thread nD τ) arg2 fullShare x0 ∗ owns (c : Thread nD τ) arg6 fullShare ds ∗ owns (c : Thread nD τ) arg7 fullShare xs1
            ∗ (iprop(owns (c : Thread nD τ) arg2 fullShare x0
                ∗ owns (c : Thread nD τ) arg6 fullShare (slabAt (k0_off1 i) ds (k0_pay3 x0))
                ∗ owns (c : Thread nD τ) arg7 fullShare (k0_pay4 x0 xs1)) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%fs0, %hfs0, HS0⟩, ⟨%fs1, %hfs1, HS1⟩, Hk⟩
  obtain rfl := harg2.eq_unread hf0; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, harg7.read_unread, View.ld_unit_zero (S := S1x128x2048) hz3, View.ld_unit_zero (S := S128x1) hz2]
  exact read_writes_cons_unit_zero (S := S128x1) _ _ hz2 _ _ _

set_option maxHeartbeats 1000000 in
/-- The body at `s = 7`: as before, and the output block becomes the slab — the one the slice store has just
    completed — scaled by the gates computed from the new running sums and the two weight blocks. -/
theorem runC (c : Dev nD) (i : grid0.Coords) (arg2 : Memref sig .tc .vmem S1x128x2048 .f32) (harg2 : arg2.IsWhole) (arg3 : Memref sig .tc .vmem S128x16 .f32) (harg3 : arg3.IsWhole) (arg4 : Memref sig .tc .vmem S128x16 .f32) (harg4 : arg4.IsWhole) (arg5 : Memref sig .tc .vmem S1x128x16384 .f32) (harg5 : arg5.IsWhole) (arg6 : Memref sig .tc .vmem S128x16384 .f32) (harg6 : arg6.IsWhole) (arg7 : Memref sig .tc .vmem S128x1 .f32) (harg7 : arg7.IsWhole) (hc0 : ¬condFirst i) (hc1 : condLast i)
    (x0 : Vec F S1x128x2048 .f32) (x1 : Vec F S128x16 .f32) (x2 : Vec F S128x16 .f32) (d3 : Vec F S1x128x16384 .f32) (ds : Vec F S128x16384 .f32) (xs1 : Vec F S128x1 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare ds ∗ owns (c : Thread nD τ) arg7 fullShare xs1
            ∗ (iprop(owns (c : Thread nD τ) arg2 fullShare x0 ∗ owns (c : Thread nD τ) arg3 fullShare x1 ∗ owns (c : Thread nD τ) arg4 fullShare x2
                ∗ owns (c : Thread nD τ) arg5 fullShare (k0_pay5 (k0_pay4 x0 xs1) x1 x2 (slabAt (k0_off1 i) ds (k0_pay3 x0)))
                ∗ owns (c : Thread nD τ) arg6 fullShare (slabAt (k0_off1 i) ds (k0_pay3 x0)) ∗ owns (c : Thread nD τ) arg7 fullShare (k0_pay4 x0 xs1)) -∗ K ⟨⟩))
          ⊢ wp frame (wpE (defs₀ (F := F)) Variants.none c none) E (cc0__se_onepass_kernel i arg2 harg2 arg3 harg3 arg4 harg4 arg5 harg5 arg6 harg6 arg7 harg7) K := by
  simp only [cc0__se_onepass_kernel_eq_skeleton]; unfold cc0__se_onepass_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg6.eq_unread hfs0; obtain rfl := harg7.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    simp only [View.readAt_eq_ld, harg2.read_unread, harg3.read_unread, harg4.read_unread, harg7.read_unread,
      View.ld_unit_zero (S := S1x128x2048) hz3, View.ld_unit_zero (S := S128x1) hz2, View.ld_unit_zero (S := S128x16) hz2,
      View.ld_unit_zero (S := S128x16384) hz2, View.readCov_unit_zero (S := S128x1) _ hz2]
    exact (read_writes_cons_unit_zero (S := S1x128x16384) _ _ hz3 _ _ _).trans
      (congrArg (k0_pay5 (k0_pay4 x0 xs1) x1 x2) (slab_read i arg6 harg6 ds (k0_pay3 x0)))
  isplitl [HS0]
  · iexists _; isplitr; swap; · iexact HS0
    ipureintro
    sl_unfold_run_names
    simp only [View.readAt_eq_ld, harg2.read_unread, View.ld_unit_zero (S := S1x128x2048) hz3]
    exact slab_read i arg6 harg6 ds (k0_pay3 x0)
  iexists _; isplitr; swap; · iexact HS1
  ipureintro
  sl_unfold_run_names
  simp only [View.readAt_eq_ld, harg2.read_unread, harg7.read_unread, View.ld_unit_zero (S := S1x128x2048) hz3, View.ld_unit_zero (S := S128x1) hz2]
  exact read_writes_cons_unit_zero (S := S128x1) _ _ hz2 _ _ _

end Body

end Cert.Kernel.Hand

end
-- ==== Proof.KBodyBits.lean ====
/-
  The frame of the one-pass kernel program with every output named.

  The proof data: each windowed array as the region finds it; after the body at a point the three input windows'
  buffers still at their blocks, and the output window's buffer — stored only at a last tile `s = 7` — at the batch
  element scaled by its gates (`outBlk`).  The invariant between points owns the two scratch buffers the kernel
  carries: the running sums at their value after the point before (`accAt`), and the slab at SOME contents of which
  one pure fact is kept — every column the tiles so far have filled holds the volume's entry (`Body.SlabOk`).
  The body's slice store re-establishes that fact, and at `s = 7` it says the slab the body has just loaded whole is
  the batch element, so that what it stores is `outBlk`.  The body obligation is the three case runs applied at a
  generic point; the launch is the library's, @main continuing after the region with one host reshape.
-/
import proofs.«168272_g2000702401841808_pallasbulk_415_2_alg».proof.Proof.KRunBits

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Body

/-- Each window's current staging memref at point `t`, as the pipeline passes it to the body, and its wholeness. -/
abbrev ms0 (t : Fin cfg0.N) : Memref sig .tc .vmem S1x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x16384 .f32 := win0_3.stage (cfg0.slots t 3)
abbrev hs3 (t : Fin cfg0.N) : (ms3 t).IsWhole := hstage0_3 ((cfg0.slots t 3).cast nbuf0_3)
/-- The two scratch operands: whole scoped buffers of the kernel's own — the slab and the running sums. -/
abbrev scM0 : Memref sig .tc .vmem S128x16384 .f32 := Memref.whole cc0_scratch0
abbrev scM1 : Memref sig .tc .vmem S128x1 .f32 := Memref.whole cc0_scratch1

/-- What the launch hands the region beside the windows: the two scratch buffers at some contents each, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before position `n`: before the first point what the launch hands over; after point `n` the slab
    at some contents that satisfy the carried fact, the running sums at their value after that point, and the
    generator register at some state. -/
def PhiS (c : Dev nD) : (n : ℕ) → n ≤ cfg0.N → sProp 𝕄
  | 0, _ => Pipeline.ΦA spec0 c
  | n + 1, hn => iprop(iprop((∃ d, ⌜SlabOk m c n hn d⌝ ∗ owns (c : Thread nD τ) scM0 fullShare d) ∗ owns (c : Thread nD τ) scM1 fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, ⌜SlabOk m c n hn d⌝ ∗ owns (c : Thread nD τ) scM0 fullShare d) ∗ owns (c : Thread nD τ) scM1 fullShare (accAt m c n hn)) ∗ (∃ r, prngReg c r)) := rfl

theorem PhiS_pos (c : Dev nD) (n : ℕ) (h : n ≤ cfg0.N) (hz : n ≠ 0) :
    PhiS m c n h = iprop(iprop((∃ d, ⌜SlabOk m c (n - 1) (by omega) d⌝ ∗ owns (c : Thread nD τ) scM0 fullShare d) ∗ owns (c : Thread nD τ) scM1 fullShare (accAt m c (n - 1) (by omega))) ∗ (∃ r, prngReg c r)) := by
  cases n with
  | zero => exact absurd rfl hz
  | succ n => rfl

/-- At any position the invariant gives back what the launch handed over: the named contents are forgotten. -/
theorem PhiS_out (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨⟨%d, -, HS0⟩, HS1⟩, Hg⟩
    isplitl [HS0 HS1]
    · isplitl [HS0]
      · iexists _; iexact HS0
      iexists _; iexact HS1
    iexact Hg

/-- The same with the launch's share spelled out: both scratch buffers at some contents, the register at some state. -/
theorem PhiS_open (c : Dev nD) (n : ℕ) (h : n ≤ cfg0.N) :
    PhiS m c n h ⊢ iprop(iprop((∃ d, owns (c : Thread nD τ) scM0 fullShare d) ∗ (∃ d, owns (c : Thread nD τ) scM1 fullShare d)) ∗ (∃ r, prngReg c r)) := by
  rw [← PhiA_eq]; exact PhiS_out m c n h

end Body

open Body

/-- The proof data of the one pipeline on core `c`: the arrays as the region finds them; after the body at point `t`
    each input's buffer at its block and the output's at the scaled batch element; the invariant `PhiS`; nothing
    owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => outBlk m c t
  Φ t := PhiS m c t.val (Nat.le_of_lt_succ t.isLt)
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = outBlk m c t := by dsimp only [dats]

namespace Body

theorem PhiS_castSucc (c : Dev nD) (t : Fin cfg0.N) :
    (dats m 0 c).Φ t.castSucc = PhiS m c t.val (Nat.le_of_lt t.isLt) := by
  dsimp only [dats]; simp only [Fin.coe_castSucc]

/-- Each input's current staging buffer holds its block at every point, fetched there or not. -/
theorem before0_0 (c : Dev nD) (t : Fin cfg0.N) (d) : (dats m 0 c).before 0 t d = Gen.iblk m c 0 t :=
  before0_0_of m (dats m 0 c) (A_eq m c 0) (after0_0 m c) t d
theorem before0_1 (c : Dev nD) (t : Fin cfg0.N) (d) : (dats m 0 c).before 1 t d = Gen.iblk m c 1 t :=
  before0_1_of m (dats m 0 c) (A_eq m c 1) (after0_1 m c) t d
theorem before0_2 (c : Dev nD) (t : Fin cfg0.N) (d) : (dats m 0 c).before 2 t d = Gen.iblk m c 2 t :=
  before0_2_of m (dats m 0 c) (A_eq m c 2) (after0_2 m c) t d

/-- What the obligation asks of each window's buffer after the body: an input's (never idle) at its block; the
    output's, off a last tile (idle, not written back), as the body found it; at a last tile at the scaled batch element. -/
theorem leaves0 (c : Dev nD) (t : Fin cfg0.N) : (dats m 0 c).leavesExact 0 t = owns (c : Thread nD τ) (ms0 t) fullShare (Gen.iblk m c 0 t) := by
  unfold Dat.leavesExact; rw [live0 t, after0_0]
theorem leaves1 (c : Dev nD) (t : Fin cfg0.N) : (dats m 0 c).leavesExact 1 t = owns (c : Thread nD τ) (ms1 t) fullShare (Gen.iblk m c 1 t) := by
  unfold Dat.leavesExact; rw [live1 t, after0_1]
theorem leaves2 (c : Dev nD) (t : Fin cfg0.N) : (dats m 0 c).leavesExact 2 t = owns (c : Thread nD τ) (ms2 t) fullShare (Gen.iblk m c 2 t) := by
  unfold Dat.leavesExact; rw [live2 t, after0_2]
theorem leaves3_idle (c : Dev nD) (t : Fin cfg0.N) (h1 : ¬t.val % 8 = 7) :
    (dats m 0 c).leavesExact 3 t = iprop(∃ d, owns (c : Thread nD τ) (ms3 t) fullShare ((dats m 0 c).before 3 t d)) :=
  (dats m 0 c).leavesExact_idle 3 t
    (by cases h : cfg0.idle 3 (grid0.coords t) with
      | true => rfl
      | false => exact absurd ((idle3_iff t).mp h) h1)
    (by cases h : (cfg0.win 3).flush t with
      | false => rfl
      | true => exact absurd ((flush0_3 t).mp h) h1)
theorem leaves3_live (c : Dev nD) (t : Fin cfg0.N) (h1 : t.val % 8 = 7) :
    (dats m 0 c).leavesExact 3 t = owns (c : Thread nD τ) (ms3 t) fullShare (outBlk m c t) := by
  unfold Dat.leavesExact; rw [(idle3_iff t).mpr h1, after0_3]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point.  The inputs' memrefs hold their blocks; the tile coordinate decides the case.  The
    invariant hands the body the slab with the fact about the tiles before this one (none is needed at `s = 0`) and
    the running sums as the point before left them, and takes them back with the fact re-established and the sums
    advanced; at `s = 7` the fact makes the stored block the scaled batch element. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, PhiS_castSucc]
  have hN : t.val < 64 := lt_of_lt_of_eq t.isLt (show cfg0.N = 64 from N_0)
  by_cases h0 : t.val % 8 = 0
  · have h1 : ¬t.val % 8 = 7 := by omega
    rw [leaves3_idle m c t h1, accAt_first m c t h0]
    iintro ⟨HP, Ho, ⟨%d0, H0⟩, ⟨%d1, H1⟩, ⟨%d2, H2⟩, ⟨%d3, H3⟩⟩
    ihave ⟨⟨⟨%ds, HS0⟩, ⟨%xs, HS1⟩⟩, Hg⟩ := (PhiS_open m c t.val _) $$ HP
    iapply (runA c (grid0.coords t) _ _ _ _ _ _ _ _ _ _ _ _ ((hcondFirst t).mpr h0) (fun h => h1 ((hcondLast t).mp h)) (Gen.iblk m c 0 t) ds xs Set.univ _)
    isplitl [H0]; · iexact H0
    isplitl [HS0]; · iexact HS0
    isplitl [HS1]; · iexact HS1
    iintro ⟨H0, HS0, HS1⟩
    isplitl [HS0 HS1 Hg]
    · isplitl [HS0 HS1]
      · isplitl [HS0]
        · iexists _; isplitr
          · ipureintro; exact slabOk_step m c t ds (fun hne => absurd h0 hne)
          iexact HS0
        iexact HS1
      iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [accAt_next m c t h0, PhiS_pos m c _ _ hz]
    by_cases h1 : t.val % 8 = 7
    · rw [leaves3_live m c t h1]
      iintro ⟨⟨⟨⟨%ds, %hds, HS0⟩, HS1⟩, Hg⟩, Ho, ⟨%d0, H0⟩, ⟨%d1, H1⟩, ⟨%d2, H2⟩, ⟨%d3, H3⟩⟩
      rw [← outBlk_eq m c t h0 h1 ds hds]
      iapply (runC c (grid0.coords t) _ _ _ _ _ _ _ _ _ _ _ _ (fun h => h0 ((hcondFirst t).mp h)) ((hcondLast t).mpr h1) (Gen.iblk m c 0 t) (Gen.iblk m c 1 t) (Gen.iblk m c 2 t) _ ds _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]
          · iexists _; isplitr
            · ipureintro; exact slabOk_step m c t ds (fun _ => hds)
            iexact HS0
          iexact HS1
        iexact Hg
      isplitl [Ho]; · iexact Ho
      isplitl [H0]; · iexact H0
      isplitl [H1]; · iexact H1
      isplitl [H2]; · iexact H2
      iexact H3
    · rw [leaves3_idle m c t h1]
      iintro ⟨⟨⟨⟨%ds, %hds, HS0⟩, HS1⟩, Hg⟩, Ho, ⟨%d0, H0⟩, ⟨%d1, H1⟩, ⟨%d2, H2⟩, ⟨%d3, H3⟩⟩
      iapply (runB c (grid0.coords t) _ _ _ _ _ _ _ _ _ _ _ _ (fun h => h0 ((hcondFirst t).mp h)) (fun h => h1 ((hcondLast t).mp h)) (Gen.iblk m c 0 t) ds _ Set.univ _)
      isplitl [H0]; · iexact H0
      isplitl [HS0]; · iexact HS0
      isplitl [HS1]; · iexact HS1
      iintro ⟨H0, HS0, HS1⟩
      isplitl [HS0 HS1 Hg]
      · isplitl [HS0 HS1]
        · isplitl [HS0]
          · iexists _; isplitr
            · ipureintro; exact slabOk_step m c t ds (fun _ => hds)
            iexact HS0
          iexact HS1
        iexact Hg
      isplitl [Ho]; · iexact Ho
      isplitl [H0]; · iexact H0
      isplitl [H1]; · iexact H1
      isplitl [H2]; · iexact H2
      iexists _; iexact H3

end Body

/-- The library's body obligation, at every point. -/
theorem body_obligation (c : Dev nD) : BodyObligation (dats (F := F) m 0 c) (defs₀ (F := F)) Variants.none () Set.univ := fun t => by
  rw [bigSep_W0, bigSep_W0]
  exact sound_body m c t

namespace Body

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _

end Body

set_option backward.isDefEq.respectTransparency.types false in
/-- At the compiled mesh, for any values, from any memory with zero counters: every weakly fair execution of @main on
    the TensorCores terminates, and every final state has every array of the pipeline at what the proof data say —
    the inputs as the region found them, the output overwritten block by block by the scaled batch elements — and
    every other unscoped buffer at what the host line after the region leaves. -/
theorem run_main : θ_run defs (onTc (τ := τ) (main (F := F))) (s₀ m ρ) (Pipeline.FramePost cfgs (dats m) 0 (Pipeline.afterTail₀ cfgs (dats m) 0 (Gen.V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps)
    (hmain := hmain m Variants.none) (hA := A_eq m) (hin := hin m) (hout := hout m)

/-- The frame: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (A_eq m) (run_main m ρ)

end Cert.Kernel.Hand

end
-- ==== Proof.KPay.lean ====
/-
  The arithmetic of the one-pass kernel's body, read one entry at a time over the extended reals.

  Three values are stored by the body: the zero column a batch element's running sums start from; the running sums
  after a tile, each channel's sum grown by the sum of the tile's 2048 entries of that channel; and, at the last tile,
  the output block, each entry of the slab times its channel's gate — the logistic function of the second layer's row
  against the rectified first layer, itself applied to the running sums scaled by 2⁻¹⁴.  Each is stated for arbitrary
  vectors of the literal shapes, entry by entry, with every sum a sum over a finite index type.
-/
import proofs.«168272_g2000702401841808_pallasbulk_415_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-! ## Layout operations on a column, read at coordinates -/

section Column
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along rows of length `b` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Column

/-! ## The body's arithmetic at one entry -/

/-- The column the first tile of a batch element starts from is zero everywhere. -/
theorem pay1_apply (r : Fin 128) (u : Fin 1) : (k0_pay1 (F := Ideal)) (ix2 r u) = 0 := by
  unfold k0_pay1
  rw [shapeCast_self]
  exact Ideal.ofBits_zero_f32

/-- The source index of a sum along the columns of a matrix: row `r`, column `k`. -/
theorem lift_cols {a b : ℕ} (h : (⟨2, ![a, b]⟩ : Shape).Reduces [1] ⟨1, ![a]⟩) (r : Fin a) (k : Fin b) :
    h.lift (ix1 r) k = ix2 r k := by
  funext c
  match c with
  | ⟨0, _⟩ => rfl
  | ⟨1, _⟩ => rfl

/-- The source index of a sum along the rows of a matrix: row `k`, column `r`. -/
theorem lift_rows {a b : ℕ} (h : (⟨2, ![a, b]⟩ : Shape).Reduces [0] ⟨1, ![b]⟩) (r : Fin b) (k : Fin a) :
    h.lift (ix1 r) k = ix2 k r := by
  funext c
  match c with
  | ⟨0, _⟩ => rfl
  | ⟨1, _⟩ => rfl

/-- One tile's contribution: the running sum of channel `r` grows by the sum of the tile's 2048 entries of that channel. -/
theorem pay4_apply (x0 : Vec Ideal S1x128x2048 .f32) (a : Vec Ideal S128x1 .f32) (r : Fin 128) (u : Fin 1) :
    k0_pay4 x0 a (ix2 r u) = a (ix2 r u) + ∑ l : Fin 2048, x0 (ix3 (0 : Fin 1) r l) := by
  unfold k0_pay4
  rw [shapeCast_self]
  refine (addf_apply _ _ _).trans ?_
  congr 1
  refine (shapeCast_a_a1_apply _ _ r u).trans ?_
  refine (Ideal.multiReduction_add_single _ _ _ _ _ (ix1 r)).trans ?_
  show ∑ l : Fin 2048, k0_pay2 x0 (reduces_S128x2048_S128.lift (ix1 r) l) = _
  refine Finset.sum_congr rfl fun l _ => ?_
  refine (congrArg (k0_pay2 x0) (lift_cols (a := 128) (b := 2048) reduces_S128x2048_S128 r l)).trans ?_
  unfold k0_pay2
  exact shapeCast_1ab_ab_apply _ _ r l

/-- The last tile's output entry: the slab's entry times the gate of its channel, the logistic function of the second
    layer's row against the rectified first layer applied to the scaled running sums. -/
theorem pay5_apply (a : Vec Ideal S128x1 .f32) (w1t w2 : Vec Ideal S128x16 .f32) (slab : Vec Ideal S128x16384 .f32)
    (u : Fin 1) (r : Fin 128) (s : Fin 16384) :
    k0_pay5 a w1t w2 slab (ix3 u r s)
      = slab (ix2 r s) * Ideal.logistic (∑ k : Fin 16, w2 (ix2 r k)
          * max (∑ ch : Fin 128, w1t (ix2 ch k) * (a (ix2 ch (0 : Fin 1)) * Ideal.ofBits .f32 0x38800000#32))
              (Ideal.ofBits .f32 0x00000000#32)) := by
  unfold k0_pay5
  refine (shapeCast_ab_1ab_apply _ _ u r s).trans ?_
  refine (mulf_apply _ _ _).trans ?_
  congr 1
  refine (broadcastTo_a1_ab_apply _ _ r s).trans ?_
  show Ideal.logistic _ = _
  congr 1
  refine (shapeCast_a_a1_apply _ _ r (0 : Fin 1)).trans ?_
  refine (Ideal.multiReduction_add_single _ _ _ _ _ (ix1 r)).trans ?_
  show ∑ k : Fin 16, _ = _
  refine Finset.sum_congr rfl fun k _ => ?_
  refine (congrArg _ (lift_cols (a := 128) (b := 16) reduces_S128x16_S128 r k)).trans ?_
  refine (mulf_apply _ _ _).trans ?_
  congr 1
  refine (broadcastTo_1b_ab_apply _ _ r k).trans ?_
  refine (maximumf_apply _ _ _).trans ?_
  congr 1
  refine (shapeCast_a_1a_apply _ _ (0 : Fin 1) k).trans ?_
  refine (Ideal.multiReduction_add_single _ _ _ _ _ (ix1 k)).trans ?_
  show ∑ ch : Fin 128, _ = _
  refine Finset.sum_congr rfl fun ch _ => ?_
  refine (congrArg _ (lift_rows (a := 128) (b := 16) reduces_S128x16_S16 k ch)).trans ?_
  refine (mulf_apply _ _ _).trans ?_
  congr 1
  · rw [shapeCast_self]
  · refine (broadcastTo_a1_ab_apply _ _ ch k).trans ?_
    rfl

end Cert.KernelIdeal.Hand

end
-- ==== Proof.LibTileSums.lean ====
/-
  Finite sums regrouped by tiles, in any additive commutative monoid (so also on the extended reals, where no
  finiteness is needed): a sum over `N = k·T` indices is the sum over the `k` tiles of the sums over each tile's `T`
  indices; a sum over `a + b` indices is the sum over the first `a` plus the sum over the last `b`; and a sum over a tile
  whose entries at or past position `R` have been replaced by zero is the sum over the first `R` entries.
-/
import Mathlib.Algebra.BigOperators.Fin
import Mathlib.Logic.Equiv.Fin.Basic
import Mathlib.Data.Fintype.BigOperators
import Mathlib.Tactic.Ring

open scoped BigOperators

namespace Cert.LibTileSums

/-- Position `l` of tile `j`, as an index below `k·T`. -/
theorem tile_lt {k T : ℕ} (j : Fin k) (l : Fin T) : j.val * T + l.val < k * T :=
  calc j.val * T + l.val < j.val * T + T := Nat.add_lt_add_left l.isLt _
    _ = (j.val + 1) * T := (Nat.succ_mul _ _).symm
    _ ≤ k * T := Nat.mul_le_mul_right _ j.isLt

/-- A sum over `N = k·T` indices, regrouped: over the tiles, then within each tile. -/
theorem sum_tiles {M : Type*} [AddCommMonoid M] {N : ℕ} (k T : ℕ) (hN : N = k * T) (g : Fin N → M) :
    ∑ s, g s = ∑ j : Fin k, ∑ l : Fin T, g ⟨j.val * T + l.val, hN ▸ tile_lt j l⟩ := by
  subst hN
  rw [← Equiv.sum_comp finProdFinEquiv g, Fintype.sum_prod_type]
  refine Finset.sum_congr rfl fun j _ => Finset.sum_congr rfl fun l _ => congrArg g (Fin.ext ?_)
  show l.val + T * j.val = j.val * T + l.val
  ring

/-- A sum over `N = a + b` indices is the sum over the first `a` plus the sum over the remaining `b`. -/
theorem sum_head_tail {M : Type*} [AddCommMonoid M] {N : ℕ} (a b : ℕ) (hN : N = a + b) (g : Fin N → M) :
    ∑ s, g s = (∑ i : Fin a, g ⟨i.val, hN ▸ Nat.lt_add_right b i.isLt⟩)
      + ∑ i : Fin b, g ⟨a + i.val, hN ▸ Nat.add_lt_add_left i.isLt a⟩ := by
  subst hN
  rw [Fin.sum_univ_add]
  rfl

/-- A sum over a tile of `T` entries of which those at or past position `R ≤ T` are replaced by zero is the sum of
    the first `R` entries. -/
theorem sum_masked {M : Type*} [AddCommMonoid M] (R T : ℕ) (hRT : R ≤ T) (h : Fin T → M) :
    ∑ l : Fin T, (if l.val < R then h l else 0) = ∑ l : Fin R, h ⟨l.val, Nat.lt_of_lt_of_le l.isLt hRT⟩ := by
  obtain ⟨d, rfl⟩ := Nat.exists_eq_add_of_le hRT
  rw [Fin.sum_univ_add]
  have h1 : ∑ i : Fin R, (if (Fin.castAdd d i).val < R then h (Fin.castAdd d i) else 0)
      = ∑ l : Fin R, h ⟨l.val, Nat.lt_of_lt_of_le l.isLt hRT⟩ :=
    Finset.sum_congr rfl fun i _ => by rw [if_pos (by exact i.isLt)]; rfl
  have h2 : ∑ i : Fin d, (if (Fin.natAdd R i).val < R then h (Fin.natAdd R i) else 0) = 0 :=
    Finset.sum_eq_zero fun i _ => by rw [if_neg (by show ¬ R + i.val < R; omega)]
  rw [h1, h2, add_zero]

end Cert.LibTileSums
-- ==== Proof.KSums.lean ====
/-
  The running sums of the one-pass kernel, in closed form.

  The body keeps a column of 128 running sums, one per channel, which it zeroes at the first position tile of a batch
  element and to which every tile adds the sums of its own 2048 entries per channel.  After tile `s` of batch element
  `n` a channel's running sum is therefore the sum of that channel's entries over position tiles `0 … s`, and at the
  last tile the sum over all 16384 = 8·2048 positions: a sum over eight tiles of sums over 2048 positions is the sum
  over the positions, on the extended reals as in any commutative monoid.
-/
import proofs.«168272_g2000702401841808_pallasbulk_415_2_alg».proof.Proof.KPay
import proofs.«168272_g2000702401841808_pallasbulk_415_2_alg».proof.Proof.KBlocks
import proofs.«168272_g2000702401841808_pallasbulk_415_2_alg».proof.Proof.LibTileSums

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The sum of the 2048 entries of position tile `j` of channel `ch` of batch element `b` (zero past the eighth tile). -/
def tileSum (X : Vec Ideal S8x128x16384 .f32) (b : Fin 8) (ch : Fin 128) (j : ℕ) : EReal :=
  if h : j < 8 then ∑ l : Fin 2048, X (ix3 b ch (⟨j * 2048 + l.val, by have := l.isLt; omega⟩ : Fin 16384)) else 0

/-- One point's step: the running sum of channel `ch` grows by the sum of the staged tile's entries of that channel,
    which are position tile `t % 8` of batch element `t / 8` of the volume. -/
theorem tile_step (c : Dev nD) (t : Fin cfg0.N) (b : Fin 8) (hb : b.val = t.val / 8) (a : Vec Ideal S128x1 .f32)
    (ch : Fin 128) (u : Fin 1) :
    k0_pay4 (xtile m c t) a (ix2 ch u) = a (ix2 ch u) + tileSum (xarr m c) b ch (t.val % 8) := by
  refine (pay4_apply (xtile m c t) a ch u).trans ?_
  congr 1
  unfold tileSum
  rw [dif_pos (Nat.mod_lt _ (by norm_num))]
  refine Finset.sum_congr rfl fun l _ => ?_
  exact xtile_apply m c t b hb ⟨t.val % 8, Nat.mod_lt _ (by norm_num)⟩ rfl (0 : Fin 1) ch l

/-- After point `n` the running sum of a channel is the sum of the tiles of its batch element met so far: tiles
    `0 … n % 8` of batch element `n / 8`. By induction on the point: the first tile of a batch element adds to zero,
    every other tile to what the point before left. -/
theorem accAt_partial (c : Dev nD) : ∀ (n : ℕ) (hn : n < cfg0.N) (b : Fin 8), b.val = n / 8 → ∀ (ch : Fin 128) (u : Fin 1),
    accAt m c n hn (ix2 ch u) = ∑ j ∈ Finset.range (n % 8 + 1), tileSum (xarr m c) b ch j
  | 0, hn, b, hb, ch, u => by
    rw [accAt_zero]
    refine (tile_step m c ⟨0, hn⟩ b hb _ ch u).trans ?_
    rw [pay1_apply, zero_add]
    show tileSum (xarr m c) b ch (0 % 8) = ∑ j ∈ Finset.range (0 % 8 + 1), tileSum (xarr m c) b ch j
    rw [Nat.zero_mod, Finset.sum_range_one]
  | n + 1, hn, b, hb, ch, u => by
    rw [accAt_succ]
    refine (tile_step m c ⟨n + 1, hn⟩ b hb _ ch u).trans ?_
    show _ + tileSum (xarr m c) b ch ((n + 1) % 8) = _
    by_cases hr : (n + 1) % 8 = 0
    · rw [if_pos hr, pay1_apply, zero_add, hr, Finset.sum_range_one]
    · rw [if_neg hr, accAt_partial c n (Nat.lt_of_succ_lt hn) b (by omega) ch u]
      have e : (n + 1) % 8 = n % 8 + 1 := by omega
      rw [e, Finset.sum_range_succ _ (n % 8 + 1)]

/-- At the last tile of a batch element the running sum of a channel is the sum over all 16384 positions. -/
theorem accAt_last (c : Dev nD) (t : Fin cfg0.N) (h : t.val % 8 = 7) (b : Fin 8) (hb : b.val = t.val / 8) (ch : Fin 128) (u : Fin 1) :
    accAt m c t.val t.isLt (ix2 ch u) = ∑ s : Fin 16384, xarr m c (ix3 b ch s) := by
  rw [accAt_partial m c t.val t.isLt b hb ch u, h, Finset.sum_range,
    Cert.LibTileSums.sum_tiles 8 2048 rfl fun s : Fin 16384 => xarr m c (ix3 b ch s)]
  refine Finset.sum_congr rfl fun j _ => ?_
  unfold tileSum
  rw [dif_pos j.isLt]

end Cert.KernelIdeal.Hand

end
-- ==== Proof.Spec.lean ====
/-
  The mathematics both programs compute, stated once over the extended reals and independent of either program.

  Squeeze-and-excitation over a batch of 8 volumes of 128 channels and 16384 = 16·32·32 positions each.  For a batch
  element `n` and a channel `c` the channel's MEAN is the sum of its 16384 entries times the exact dyadic 2⁻¹⁴
  (the float word 0x38800000 read at its binary value); the 16 HIDDEN units are the rectified inner products of the
  first weight matrix's rows with the vector of means; the channel's GATE is the logistic function of the inner
  product of the second weight matrix's row `c` with the hidden units; and the result scales every entry of channel
  `c` by that gate.  Sums are sums over finite index types on the extended reals, where addition is commutative and
  associative with no finiteness assumption, so the order in which a program accumulates them does not matter.
-/
import Idealize.ShloMosaic.PureOps.Ideal
import Idealize.ShloMosaic.Lib.ValueIdx

noncomputable section

open scoped BigOperators

namespace Cert.SqEx

open Idealize.ShloMosaic Idealize.ShloMosaic.ValueIdx

/-- The volume flattened to batch × channel × position. -/
abbrev SX : Shape := ⟨3, ![8, 128, 16384]⟩
/-- The first weight matrix: hidden × channel. -/
abbrev SW1 : Shape := ⟨2, ![16, 128]⟩
/-- The second weight matrix: channel × hidden. -/
abbrev SW2 : Shape := ⟨2, ![128, 16]⟩

/-- The reciprocal of the number of positions, 2⁻¹⁴, as the float word both programs carry. -/
abbrev invS : EReal := Ideal.ofBits .f32 0x38800000#32

/-- The mean of channel `c` of batch element `n`: the sum over the 16384 positions, times 2⁻¹⁴. -/
def mean (x : SX.Idx → EReal) (n : Fin 8) (c : Fin 128) : EReal :=
  (∑ s : Fin 16384, x (ix3 n c s)) * invS

/-- Hidden unit `k`: the rectified inner product of row `k` of the first weight matrix with the means. -/
def hidden (x : SX.Idx → EReal) (w1 : SW1.Idx → EReal) (n : Fin 8) (k : Fin 16) : EReal :=
  max (∑ c : Fin 128, w1 (ix2 k c) * mean x n c) (Ideal.ofBits .f32 0x00000000#32)

/-- The gate of channel `c`: the logistic function of row `c` of the second weight matrix against the hidden units. -/
def gate (x : SX.Idx → EReal) (w1 : SW1.Idx → EReal) (w2 : SW2.Idx → EReal) (n : Fin 8) (c : Fin 128) : EReal :=
  Ideal.logistic (∑ k : Fin 16, w2 (ix2 c k) * hidden x w1 n k)

/-- The result: every entry scaled by its channel's gate. -/
def scaled (x : SX.Idx → EReal) (w1 : SW1.Idx → EReal) (w2 : SW2.Idx → EReal) : SX.Idx → EReal :=
  fun j => x j * gate x w1 w2 (j 0) (j 1)

/-- The volume itself: batch × channel × depth × height × width; its positions are depth × height × width in row-major order. -/
abbrev SV : Shape := ⟨5, ![8, 128, 16, 32, 32]⟩

/-- The whole computation on the five-dimensional volume: flatten the three spatial axes, scale, and restore them. -/
def result (x : SV.Idx → EReal) (w1 : SW1.Idx → EReal) (w2 : SW2.Idx → EReal) : SV.Idx → EReal :=
  shapeCast SV (scaled (shapeCast SX x) w1 w2)

theorem scaled_apply (x : SX.Idx → EReal) (w1 : SW1.Idx → EReal) (w2 : SW2.Idx → EReal) (n : Fin 8) (c : Fin 128) (s : Fin 16384) :
    scaled x w1 w2 (ix3 n c s) = x (ix3 n c s) * gate x w1 w2 n c := rfl

end Cert.SqEx

end
-- ==== Proof.KValue.lean ====
/-
  The value the one-pass kernel's result ends with, over the extended reals.

  At the last position tile of batch element `n` the body's slab holds the whole batch element, the running sums its
  channel totals, and the staged weight blocks the second weight matrix and the transposed first; the block it stores is
  therefore batch element `n` of the volume with every entry of channel `c` multiplied by the channel's gate, the logistic
  function of row `c` of the second weight matrix against the rectified products of the first weight matrix with the
  channel means.  That block is written back to batch element `n` of the result array; the eight write-backs, one per
  batch element, cover the array, which thus ends as the scaled volume; and the host's restoring of the three spatial
  axes after the region makes the program's result the five-dimensional volume flattened, scaled and cast back.
-/
import proofs.«168272_g2000702401841808_pallasbulk_415_2_alg».proof.Proof.KSums
import proofs.«168272_g2000702401841808_pallasbulk_415_2_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The first weight matrix as launched: hidden × channel. -/
abbrev w1arg (c : Dev nD) : FVec Ideal S16x128 .f32 := m ((c.tc : Thread nD τ).loc main_arg1)
/-- The second weight matrix as launched: channel × hidden. -/
abbrev w2arg (c : Dev nD) : FVec Ideal S128x16 .f32 := m ((c.tc : Thread nD τ).loc main_arg2)
/-- The volume as launched: batch × channel × depth × height × width. -/
abbrev xarg (c : Dev nD) : FVec Ideal S8x128x16x32x32 .f32 := m ((c.tc : Thread nD τ).loc main_arg0)

/-- The batch element point `t` works on. -/
abbrev batchOf (t : Fin cfg0.N) : Fin 8 := ⟨t.val / 8, by have := t.isLt; have h : cfg0.N = 64 := N_0; omega⟩

/-- THE OUTPUT BLOCK of a last tile is the batch element scaled by its gates: entry `(r, s)` is the volume's entry times
    the gate of channel `r`, the slab being the batch element itself, the running sums its channel totals, and the two
    staged weight blocks the second weight matrix and the transposed first. -/
theorem slabOf_apply (c : Dev nD) (t : Fin cfg0.N) (r : Fin 128) (s : Fin 16384) :
    slabOf m c t (ix2 r s) = xarr m c (ix3 (batchOf t) r s) := by
  show xarr m c _ = xarr m c _
  exact congrArg (xarr m c) (funext fun a => by match a with | ⟨0, _⟩ => rfl | ⟨1, _⟩ => rfl | ⟨2, _⟩ => rfl)

theorem outBlk_eq (c : Dev nD) (t : Fin cfg0.N) (h : t.val % 8 = 7) (r : Fin 128) (s : Fin 16384) :
    outBlk m c t (ix3 (0 : Fin 1) r s)
      = Cert.SqEx.scaled (xarr m c) (w1arg m c) (w2arg m c) (ix3 (batchOf t) r s) := by
  have h2 : ∀ k : Fin 16, w2blk m c t (ix2 r k) = w2arg m c (ix2 r k) := fun k =>
    (congrFun (w2blk_eq m c t) (ix2 r k)).trans (congrFun (V_main_arg2_eq m c) (ix2 r k))
  have h1 : ∀ (ch : Fin 128) (k : Fin 16), w1blk m c t (ix2 ch k) = w1arg m c (ix2 k ch) := fun ch k =>
    (congrFun (w1blk_eq m c t) (ix2 ch k)).trans (V_main_v1_apply m c ch k)
  have hA : ∀ ch : Fin 128, accAt m c t.val t.isLt (ix2 ch (0 : Fin 1)) = ∑ p : Fin 16384, xarr m c (ix3 (batchOf t) ch p) :=
    fun ch => accAt_last m c t h (batchOf t) rfl ch (0 : Fin 1)
  unfold outBlk
  refine (pay5_apply _ _ _ _ (0 : Fin 1) r s).trans ?_
  rw [Cert.SqEx.scaled_apply]
  unfold Cert.SqEx.gate Cert.SqEx.hidden Cert.SqEx.mean
  exact congrArg₂ (· * ·) (slabOf_apply m c t r s) (congrArg Ideal.logistic (Finset.sum_congr rfl fun k _ =>
    congrArg₂ (· * ·) (h2 k) (congrArg (max · (Ideal.ofBits .f32 0x00000000#32)) (Finset.sum_congr rfl fun ch _ =>
      congrArg₂ (· * ·) (h1 ch k) (congrArg (· * Cert.SqEx.invS) (hA ch))))))

/-- The scaled volume, as contents of the region's result array. -/
abbrev scaledArr (c : Dev nD) : FVec Ideal S8x128x16384 .f32 := Cert.SqEx.scaled (xarr m c) (w1arg m c) (w2arg m c)

/-- An index of the result array lies in the output block of point `t` iff each coordinate lies in the block's range. -/
theorem mem_blk3 (t : Fin cfg0.N) (i : S8x128x16384.Idx) :
    i ∈ ((cfg0.win 3).blk t).view.set ↔ ∀ a : Fin 3, win0_3.index t a * S1x128x16384.size a ≤ (i a).val
      ∧ (i a).val < win0_3.index t a * S1x128x16384.size a + S1x128x16384.size a := by
  show i ∈ ((View.whole main_v2).slice (win0_3.rect t)).set ↔ _
  rw [View.set_slice_whole, Rect.mem_set_unit]
  exact Iff.rfl

/-- WHAT A LAST TILE WRITES BACK is its batch element's block of the scaled volume. -/
theorem flushed3_eq {c : Dev nD} (dat : Dat τ (Elt Ideal) Unit ℕ (UR sig nD τ) ℕ cfg0 c)
    (h3 : ∀ t, dat.after 3 t = outBlk m c t) (t : Fin cfg0.N) (hf : (cfg0.win 3).flush t = true) :
    dat.flushed 3 t = ((cfg0.win 3).blk t).view.read (Elt Ideal) (scaledArr m c) := by
  have h7 : t.val % 8 = 7 := (flush0_3 t).mp hf
  obtain ⟨-, -, -, -, -, -, -, e0, e1, e2⟩ := idx_facts t
  show (cfg0.win 3).cut (grid0.coords t) (dat.after 3 t) = _
  rw [h3]
  funext j
  have j0 : (j 0).val < 1 := (j 0).isLt
  have j1 : (j 1).val < 128 := (j 1).isLt
  have j2 : (j 2).val < 16384 := (j 2).isLt
  rw [View.read_apply]
  have hx : (cfg0.win 3).xinj (grid0.coords t) j = ix3 (0 : Fin 1) (⟨(j 1).val, j1⟩ : Fin 128) (⟨(j 2).val, j2⟩ : Fin 16384) :=
    funext fun a => Fin.ext (by match a with | ⟨0, _⟩ => show (j 0).val = 0; omega | ⟨1, _⟩ => rfl | ⟨2, _⟩ => rfl)
  have he : ((cfg0.win 3).blk t).view.emb j = ix3 (batchOf t) (⟨(j 1).val, j1⟩ : Fin 128) (⟨(j 2).val, j2⟩ : Fin 16384) :=
    funext fun a => Fin.ext (by
      match a with
      | ⟨0, _⟩ => show win0_3.index t (0 : Fin 3) * 1 + 1 * (j 0).val = t.val / 8; omega
      | ⟨1, _⟩ => show win0_3.index t (1 : Fin 3) * 128 + 1 * (j 1).val = (j 1).val; omega
      | ⟨2, _⟩ => show win0_3.index t (2 : Fin 3) * 16384 + 1 * (j 2).val = (j 2).val; omega)
  show outBlk m c t ((cfg0.win 3).xinj (grid0.coords t) j) = scaledArr m c (((cfg0.win 3).blk t).view.emb j)
  rw [hx, he]
  exact outBlk_eq m c t h7 _ _

/-- THE RESULT ARRAY after the region is the scaled volume: the last tile of batch element `n`, point `8·n + 7`, writes
    back batch element `n` whole, and the eight of them cover the array. -/
theorem arr_eq {c : Dev nD} (dat : Dat τ (Elt Ideal) Unit ℕ (UR sig nD τ) ℕ cfg0 c)
    (hA : ∀ w, dat.A w = Gen.V m c (Pipeline.arrRef spec0 w))
    (h3 : ∀ t, dat.after 3 t = outBlk m c t) :
    dat.arrAt 3 cfg0.N = scaledArr m c :=
  dat.arrAt_eq_of_cover 3 (scaledArr m c) (flushed3_eq m dat h3) fun i => by
    have i0 : (i 0).val < 8 := (i 0).isLt
    have i1 : (i 1).val < 128 := (i 1).isLt
    have i2 : (i 2).val < 16384 := (i 2).isLt
    obtain ⟨t, ht⟩ : ∃ t : Fin cfg0.N, t.val = 8 * (i 0).val + 7 :=
      ⟨⟨8 * (i 0).val + 7, lt_of_lt_of_eq (by omega : 8 * (i 0).val + 7 < 64) N_0.symm⟩, rfl⟩
    obtain ⟨-, -, -, -, -, -, -, e0, e1, e2⟩ := idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 128 ≤ (i 1).val ∧ (i 1).val < win0_3.index t (1 : Fin 3) * 128 + 128; omega
    | ⟨2, _⟩ => show win0_3.index t (2 : Fin 3) * 16384 ≤ (i 2).val ∧ (i 2).val < win0_3.index t (2 : Fin 3) * 16384 + 16384; omega

/-- THE PROGRAM'S RESULT: after the region the host restores the three spatial axes, so the result is the volume flattened,
    scaled, and cast back. -/
theorem result_eq (dats : (p : Fin 1) → (c : Dev nD) → Dat τ (Elt Ideal) Unit ℕ (UR sig nD τ) ℕ (cfgs p) c)
    (hA : ∀ c w, (dats 0 c).A w = Gen.V m c (Pipeline.arrRef spec0 w))
    (h3 : ∀ c t, (dats 0 c).after 3 t = outBlk m c t) (c : Dev nD) :
    Pipeline.afterTail₀ cfgs dats 0 (Gen.V0 m) [hostOps1] c main_v3
      = Cert.SqEx.result (xarg m c) (w1arg m c) (w2arg m c) := by
  have e : Pipeline.withArrays spec0 c (Gen.V0 m c) (fun w => (dats 0 c).arrAt w cfg0.N) (Proc.devRef .tc main_v2) = scaledArr m c :=
    (Pipeline.withArrays_arr spec0 launch0.win.arr_inj c _ _ 3).trans (arr_eq m (dats 0 c) (hA c) (h3 c))
  have e1 : scaledArr m c
      = Cert.SqEx.scaled (shapeCast S8x128x16384 (xarg m c) shapeCasts_S8x128x16x32x32_S8x128x16384) (w1arg m c) (w2arg m c) :=
    congrArg (fun X => Cert.SqEx.scaled X (w1arg m c) (w2arg m c)) (xarr_eq m c)
  unfold Pipeline.afterTail₀
  show StableHlo.after hostOps1 _ (Proc.devRef .tc main_v3) = _
  after_results
  show shapeCast S8x128x16x32x32 (Pipeline.withArrays spec0 c (Gen.V0 m c) (fun w => (dats 0 c).arrAt w cfg0.N) (Proc.devRef .tc main_v2))
    shapeCasts_S8x128x16384_S8x128x16x32x32 = _
  rw [e, e1]
  rfl

end Cert.KernelIdeal.Hand

end
-- ==== Proof.RPool.lean ====
/-
  The pooling region of the two-pass program: per batch element and channel, the sum over all 16384 positions,
  accumulated over three position tiles of 6144 (the last one reaching 2048 positions past the array's end, those
  lanes replaced by zero before they are summed).

  The grid runs over batch elements `n` (outer, 8) and position tiles `s` (inner, 3), point `t = 3·n + s`.  At every point
  the tile of `x` is staged (128 channels × 6144 positions; the third tile's transfer is cut at the array's end, so its
  lanes 4096 ‥ 6143 hold words nothing names), and the body rewrites a column of 128 running sums: zeroed when `s = 0`,
  the tile's row sums added when `s = 0, 1`, and when `s = 2` the row sums of the tile with its lanes at or past
  `16384 − 2·6144 = 4096` replaced by zero.  The column is written back to the sums array after `s = 2`.  Since the
  mask kills exactly the lanes the cut transfer does not fill, the running sums do not depend on the unnamed words, and
  after the third tile they are the channel's total over all 16384 positions.
-/
import proofs.«168272_g2000702401841808_pallasbulk_415_2_alg».proof.Proof.Gen.ReferenceIdeal.Launch
import proofs.«168272_g2000702401841808_pallasbulk_415_2_alg».proof.Proof.Gen.ReferenceIdeal.Points
import proofs.«168272_g2000702401841808_pallasbulk_415_2_alg».proof.Proof.Gen.ReferenceIdeal.Skeleton
import proofs.«168272_g2000702401841808_pallasbulk_415_2_alg».proof.Proof.LibTileSums
import Idealize.ShloMosaic.Lib.Pipeline.FrameBody
import Idealize.ShloMosaic.Lib.Pipeline.Frame
import Idealize.ShloMosaic.Lib.Pipeline.Value
import Idealize.ShloMosaic.Lib.StableHlo.Predicate
import Idealize.ShloMosaic.Lib.Tactic
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ReferenceIdeal Cert.ReferenceIdeal.Gen

variable {F : FTy → Type} [FloatOps F]

local notation "𝕄" => MT nD τ sig Unit (Elt F) ℕ (UR sig nD τ) ℕ

/-! ## The body, case by case, on any whole staging memrefs

The body at a grid point `(n, s)` reads the tile's staging buffer once and rewrites the sums' staging buffer: zero it first if
`s = 0`; add the tile's row sums if `s < 2`; add the row sums of the tile with its lanes from `16384 − 6144·s` on replaced by
zero if `s = 2`.  Each case is run on symbolic whole memrefs holding contents `X` (the tile) and `Y` (the sums). -/

/-- The zero offsets of a whole-buffer access, as the constant function. -/
theorem pool_hz : (![0, 0, 0] : Fin 3 → Nat) = fun _ => 0 := funext fun a => by fin_cases a <;> rfl

/-- `s = 0`: the sums' buffer ends at the tile's row sums added to zero, whatever it held. -/
theorem pool_run_first (c : Dev nD) (E : Set ℕ) (i : grid0.Coords)
    (arg2 : Memref sig .tc .vmem S1x128x6144 .f32) (harg2 : arg2.IsWhole)
    (arg3 : Memref sig .tc .vmem S1x128x1 .f32) (harg3 : arg3.IsWhole)
    (h1 : k0_cond1 i = 1#1) (h2 : k0_cond2 i = 1#1) (h3 : ¬ k0_cond3 i = 1#1)
    (X : Vec F S1x128x6144 .f32) (Y : Vec F S1x128x1 .f32) (K : PUnit → sProp 𝕄) :
    iprop(owns (c : Thread nD τ) arg2 fullShare X ∗ owns (c : Thread nD τ) arg3 fullShare Y
        ∗ (iprop(owns (c : Thread nD τ) arg2 fullShare X ∗ owns (c : Thread nD τ) arg3 fullShare (k0_pay3 X (k0_pay1 (F := F)))) -∗ K ⟨⟩))
      ⊢ wp frame (wpE (defs₀ (F := F)) Variants.none c none) E (cc0__pool_kernel i arg2 harg2 arg3 harg3) K := by
  simp only [cc0__pool_kernel_eq_skeleton]; unfold cc0__pool_kernel_skel
  unfold owns
  iintro ⟨⟨%f2, %hf2, H2⟩, ⟨%f3, %hf3, H3⟩, Hk⟩
  obtain rfl := harg2.eq_unread hf2
  sl_exec (disch := first | exact h1 | exact h2 | exact h3)
  sl_step
  iapply Hk
  isplitl [H2]
  · iexists _; isplitr; · ipureintro; exact harg2.read_unread _
    iexact H2
  iexists _; isplitr
  swap; · iexact H3
  ipureintro
  rw [View.read_writes_eq_canon _ _ _ (fun y => ⟨_, List.mem_cons_self, View.mem_set_unit_zero pool_hz inb_S1x128x1_S1x128x1_0_0_0 y⟩)]
  sl_unfold_run_names
  rw [View.canon_cons_unit_zero (S := S1x128x1) pool_hz, View.readCov_unit_zero (S := S1x128x1) _ pool_hz]
  simp only [View.readAt_eq_ld, harg2.read_unread, View.ld_unit_zero (S := S1x128x6144) pool_hz]

/-- `s = 1`: the sums' buffer ends at the tile's row sums added to what it held. -/
theorem pool_run_mid (c : Dev nD) (E : Set ℕ) (i : grid0.Coords)
    (arg2 : Memref sig .tc .vmem S1x128x6144 .f32) (harg2 : arg2.IsWhole)
    (arg3 : Memref sig .tc .vmem S1x128x1 .f32) (harg3 : arg3.IsWhole)
    (h1 : ¬ k0_cond1 i = 1#1) (h2 : k0_cond2 i = 1#1) (h3 : ¬ k0_cond3 i = 1#1)
    (X : Vec F S1x128x6144 .f32) (Y : Vec F S1x128x1 .f32) (K : PUnit → sProp 𝕄) :
    iprop(owns (c : Thread nD τ) arg2 fullShare X ∗ owns (c : Thread nD τ) arg3 fullShare Y
        ∗ (iprop(owns (c : Thread nD τ) arg2 fullShare X ∗ owns (c : Thread nD τ) arg3 fullShare (k0_pay3 X Y)) -∗ K ⟨⟩))
      ⊢ wp frame (wpE (defs₀ (F := F)) Variants.none c none) E (cc0__pool_kernel i arg2 harg2 arg3 harg3) K := by
  simp only [cc0__pool_kernel_eq_skeleton]; unfold cc0__pool_kernel_skel
  unfold owns
  iintro ⟨⟨%f2, %hf2, H2⟩, ⟨%f3, %hf3, H3⟩, Hk⟩
  obtain rfl := harg2.eq_unread hf2
  obtain rfl := harg3.eq_unread hf3
  sl_exec (disch := first | exact h1 | exact h2 | exact h3)
  sl_step
  iapply Hk
  isplitl [H2]
  · iexists _; isplitr; · ipureintro; exact harg2.read_unread _
    iexact H2
  iexists _; isplitr
  swap; · iexact H3
  ipureintro
  rw [View.read_writes_eq_canon _ _ _ (fun y => ⟨_, List.mem_cons_self, View.mem_set_unit_zero pool_hz inb_S1x128x1_S1x128x1_0_0_0 y⟩)]
  sl_unfold_run_names
  rw [View.canon_cons_unit_zero (S := S1x128x1) pool_hz]
  simp only [View.readAt_eq_ld, harg2.read_unread, harg3.read_unread, View.ld_unit_zero (S := S1x128x6144) pool_hz,
    View.ld_unit_zero (S := S1x128x1) pool_hz]

/-- `s = 2`: the sums' buffer ends at the masked tile's row sums added to what it held. -/
theorem pool_run_last (c : Dev nD) (E : Set ℕ) (i : grid0.Coords)
    (arg2 : Memref sig .tc .vmem S1x128x6144 .f32) (harg2 : arg2.IsWhole)
    (arg3 : Memref sig .tc .vmem S1x128x1 .f32) (harg3 : arg3.IsWhole)
    (h1 : ¬ k0_cond1 i = 1#1) (h2 : ¬ k0_cond2 i = 1#1) (h3 : k0_cond3 i = 1#1)
    (X : Vec F S1x128x6144 .f32) (Y : Vec F S1x128x1 .f32) (K : PUnit → sProp 𝕄) :
    iprop(owns (c : Thread nD τ) arg2 fullShare X ∗ owns (c : Thread nD τ) arg3 fullShare Y
        ∗ (iprop(owns (c : Thread nD τ) arg2 fullShare X ∗ owns (c : Thread nD τ) arg3 fullShare (k0_pay4 i X Y)) -∗ K ⟨⟩))
      ⊢ wp frame (wpE (defs₀ (F := F)) Variants.none c none) E (cc0__pool_kernel i arg2 harg2 arg3 harg3) K := by
  simp only [cc0__pool_kernel_eq_skeleton]; unfold cc0__pool_kernel_skel
  unfold owns
  iintro ⟨⟨%f2, %hf2, H2⟩, ⟨%f3, %hf3, H3⟩, Hk⟩
  obtain rfl := harg2.eq_unread hf2
  obtain rfl := harg3.eq_unread hf3
  sl_exec (disch := first | exact h1 | exact h2 | exact h3)
  sl_step
  iapply Hk
  isplitl [H2]
  · iexists _; isplitr; · ipureintro; exact harg2.read_unread _
    iexact H2
  iexists _; isplitr
  swap; · iexact H3
  ipureintro
  rw [View.read_writes_eq_canon _ _ _ (fun y => ⟨_, List.mem_cons_self, View.mem_set_unit_zero pool_hz inb_S1x128x1_S1x128x1_0_0_0 y⟩)]
  sl_unfold_run_names
  rw [View.canon_cons_unit_zero (S := S1x128x1) pool_hz]
  simp only [View.readAt_eq_ld, harg2.read_unread, harg3.read_unread, View.ld_unit_zero (S := S1x128x6144) pool_hz,
    View.ld_unit_zero (S := S1x128x1) pool_hz]

/-! ## The schedule and the branch conditions, decided over the 24 grid points -/

/-- The body zeroes the sums at the first tile of a batch element, -/
theorem pool_cond1 : ∀ t : Fin cfg0.N, k0_cond1 (grid0.coords t) = 1#1 ↔ t.val % 3 = 0 :=
  (by decide +kernel : ∀ t : Fin grid0.N, k0_cond1 (grid0.coords t) = 1#1 ↔ t.val % 3 = 0)
/-- adds a whole tile at the first two, -/
theorem pool_cond2 : ∀ t : Fin cfg0.N, k0_cond2 (grid0.coords t) = 1#1 ↔ t.val % 3 ≠ 2 :=
  (by decide +kernel : ∀ t : Fin grid0.N, k0_cond2 (grid0.coords t) = 1#1 ↔ t.val % 3 ≠ 2)
/-- and a masked tile at the third. -/
theorem pool_cond3 : ∀ t : Fin cfg0.N, k0_cond3 (grid0.coords t) = 1#1 ↔ t.val % 3 = 2 :=
  (by decide +kernel : ∀ t : Fin grid0.N, k0_cond3 (grid0.coords t) = 1#1 ↔ t.val % 3 = 2)

/-- So the sums' window is live at every grid point: one of the three stores runs. -/
theorem pool_live1 : ∀ i : grid0.Coords, cfg0.idle 1 i = false := by decide +kernel

/-- The first two tiles of a batch element lie inside the array: their transfers are not cut. -/
theorem pool_clip_none : ∀ t : Fin cfg0.N, t.val % 3 ≠ 2 → ∀ a, (cfg0.win 0).clip (cfg0.grid.coords t) a = none :=
  (by decide +kernel : ∀ t : Fin grid0.N, t.val % 3 ≠ 2 → ∀ a, win0_0.clip (grid0.coords t) a = none)

/-- The third is cut to its first 4096 positions. -/
theorem pool_xsize_last : ∀ t : Fin cfg0.N, t.val % 3 = 2 → ∀ a, win0_0.xsize (grid0.coords t) a = (![1, 128, 4096] : Fin 3 → ℕ) a :=
  (by decide +kernel : ∀ t : Fin grid0.N, t.val % 3 = 2 → ∀ a, win0_0.xsize (grid0.coords t) a = (![1, 128, 4096] : Fin 3 → ℕ) a)

/-- The position coordinate of point `t = 3·n + s` is `s`. -/
theorem pool_coord1 : ∀ t : Fin cfg0.N, (grid0.coords t 1).val = t.val % 3 :=
  (by decide +kernel : ∀ t : Fin grid0.N, (grid0.coords t 1).val = t.val % 3)

/-- The tile's window sits at batch element `t / 3`, channel block 0, position tile `t % 3`. -/
theorem pool_index0 : ∀ t : Fin cfg0.N, win0_0.index t 0 = t.val / 3 ∧ win0_0.index t 1 = 0 ∧ win0_0.index t 2 = t.val % 3 :=
  (by decide +kernel : ∀ t : Fin grid0.N, win0_0.index t 0 = t.val / 3 ∧ win0_0.index t 1 = 0 ∧ win0_0.index t 2 = t.val % 3)

/-- The sums' window sits at batch element `t / 3`. -/
theorem pool_index1 : ∀ t : Fin cfg0.N, win0_1.index t 0 = t.val / 3 ∧ win0_1.index t 1 = 0 ∧ win0_1.index t 2 = 0 :=
  (by decide +kernel : ∀ t : Fin grid0.N, win0_1.index t 0 = t.val / 3 ∧ win0_1.index t 1 = 0 ∧ win0_1.index t 2 = 0)

/-- The third tile's lane mask: set exactly on the lanes below `16384 − 2·6144 = 4096`. -/
theorem pool_mask_apply (i : grid0.Coords) (hs : (i 1).val = 2) (j : S128x6144.Idx) :
    cmpi .slt (iota .tc S128x6144 32 [1] iota_S128x6144_d1_w32)
        (broadcast S128x6144 (Scalar.subi 16384#32 (Scalar.muli (BitVec.ofNat 32 (i 1).val) 6144#32))) j = 1#1
      ↔ (j 1).val < 4096 := by
  have hv12 : Scalar.subi 16384#32 (Scalar.muli (BitVec.ofNat 32 (i 1).val) 6144#32) = 4096#32 := by rw [hs]; decide
  have h6 : (j 1).val < 6144 := (j 1).isLt
  have h4 : (4096#32 : BitVec 32).toNat = 4096 := by decide
  show IntOp.cmpi .slt (iota .tc S128x6144 32 [1] iota_S128x6144_d1_w32 j)
      (Scalar.subi 16384#32 (Scalar.muli (BitVec.ofNat 32 (i 1).val) 6144#32)) = 1#1 ↔ _
  rw [hv12, iota_single_apply .tc S128x6144 32 1 iota_S128x6144_d1_w32 j,
    StableHlo.Predicate.slt_iff_toNat (by rw [BitVec.toNat_ofNat]; omega) (by decide), BitVec.toNat_ofNat, h4,
    Nat.mod_eq_of_lt (by omega)]

/-- The third tile's payload reads the staged tile on its first 4096 lanes only: the lanes from 4096 on are replaced by
    zero before they are summed, so two tiles that agree on the first 4096 lanes give one payload. -/
theorem pool_pay4_congr (i : grid0.Coords) (hs : (i 1).val = 2) (X X' : Vec F S1x128x6144 .f32) (acc : Vec F S1x128x1 .f32)
    (h : ∀ j : S1x128x6144.Idx, (j 2).val < 4096 → X j = X' j) : k0_pay4 i X acc = k0_pay4 i X' acc := by
  have key : select (cmpi .slt (iota .tc S128x6144 32 [1] iota_S128x6144_d1_w32)
        (broadcast S128x6144 (Scalar.subi 16384#32 (Scalar.muli (BitVec.ofNat 32 (i 1).val) 6144#32))))
        (k0_pay2 X) (broadcast S128x6144 (Scalar.ofBits (F := F) .f32 0x00000000#32))
      = select (cmpi .slt (iota .tc S128x6144 32 [1] iota_S128x6144_d1_w32)
        (broadcast S128x6144 (Scalar.subi 16384#32 (Scalar.muli (BitVec.ofNat 32 (i 1).val) 6144#32))))
        (k0_pay2 X') (broadcast S128x6144 (Scalar.ofBits (F := F) .f32 0x00000000#32)) := by
    funext j
    rw [select_apply, select_apply]
    by_cases hm : cmpi .slt (iota .tc S128x6144 32 [1] iota_S128x6144_d1_w32)
        (broadcast S128x6144 (Scalar.subi 16384#32 (Scalar.muli (BitVec.ofNat 32 (i 1).val) 6144#32))) j = 1#1
    · rw [hm, select_one, select_one]
      have hlt : (j 1).val < 4096 := (pool_mask_apply i hs j).mp hm
      unfold k0_pay2
      rw [shapeCast_dropUnit_apply (![128, 6144]) X, shapeCast_dropUnit_apply (![128, 6144]) X']
      exact h _ hlt
    · rw [eq_zero_of_ne_one hm, select_zero, select_zero]
  unfold k0_pay4
  dsimp only
  rw [key]

section Body

variable (V : (c : Dev nD) → (b : Ref sig .tc) → Buf (Elt F) ((c : Thread nD τ).loc b))

/-- The part inside the array of the tile of `x` that point `t = 3·n + s` stages: batch element `n`, all 128 channels,
    positions `6144·s` onwards — 6144 of them for `s = 0, 1`, the last 4096 of the array for `s = 2`. -/
def xblk (c : Dev nD) (t : Fin cfg0.N) : (win0_0.xblock (grid0.coords t)).Idx → Elt F .f32 :=
  (win0_0.blk t).view.read (Elt F) (V c main_v0)

/-- The staged tile, whole: that part, filled out with the zero word on the lanes past the array's end (there are such
    lanes in the third tile only, its lanes 4096 ‥ 6143; nothing that is kept depends on the word chosen). -/
def xtile (c : Dev nD) (t : Fin cfg0.N) : Vec F S1x128x6144 .f32 :=
  win0_0.fill (grid0.coords t) (fun _ => Scalar.ofBits .f32 0#32) (xblk V c t)

/-- The running sums after point `n = 3·b + s`: at `s = 0` the first tile's row sums added to zero; at `s = 1` the second
    tile's row sums added to what the point before left; at `s = 2` the third tile's row sums, its lanes from
    `16384 − 2·6144 = 4096` on replaced by zero first, added to what the point before left. -/
def sumsAt (c : Dev nD) : (n : ℕ) → n < cfg0.N → Vec F S1x128x1 .f32
  | 0, h => k0_pay3 (xtile V c ⟨0, h⟩) k0_pay1
  | n + 1, h =>
    if (n + 1) % 3 = 0 then k0_pay3 (xtile V c ⟨n + 1, h⟩) k0_pay1
    else if (n + 1) % 3 = 1 then k0_pay3 (xtile V c ⟨n + 1, h⟩) (sumsAt c n (Nat.lt_of_succ_lt h))
    else k0_pay4 (grid0.coords ⟨n + 1, h⟩) (xtile V c ⟨n + 1, h⟩) (sumsAt c n (Nat.lt_of_succ_lt h))

/-- The pooling region's proof data on core `c`, entered with the arrays at `V`: after the body at point `t` the tile's
    staging buffer holds the tile (the body only reads it) and the sums' staging buffer the running sums. -/
def dat0 (c : Dev nD) : Dat τ (Elt F) Unit ℕ (UR sig nD τ) ℕ cfg0 c where
  A w := V c (Pipeline.arrRef spec0 w)
  after w t := match w with
    | ⟨0, _⟩ => xtile V c t
    | ⟨1, _⟩ => sumsAt V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## What the body finds and leaves, window by window -/

theorem pool_after0 (c : Dev nD) (t : Fin cfg0.N) : (dat0 V c).after 0 t = xtile V c t := by dsimp only [dat0]
theorem pool_after1 (c : Dev nD) (t : Fin cfg0.N) : (dat0 V c).after 1 t = sumsAt V c t.val t.isLt := by dsimp only [dat0]

/-- The tile's staging buffer, fetched at every point, holds the tile's part inside the array and, past the array's end,
    whatever the overwrite before the fetch left (`d`). -/
theorem pool_before0 (c : Dev nD) (t : Fin cfg0.N) (d) :
    (dat0 V c).before 0 t d = win0_0.fill (grid0.coords t) d (xblk V c t) := by
  unfold Dat.before; rw [if_pos (fetch0_0 t)]; rfl

/-- The sums' staging buffer at the first tile of a batch element is fresh (the first point, or the point after a
    write-back): it holds anything. -/
theorem pool_before1_reset (c : Dev nD) (t : Fin cfg0.N) (h : t.val % 3 = 0) (d) : (dat0 V c).before 1 t d = d := by
  refine Dat.before_out_reset _ 1 rfl t ?_ d
  by_cases h0 : t.val = 0
  · exact .inl h0
  · refine .inr ⟨h0, (flush0_1 _).mpr ?_⟩
    show (t.val - 1) % 3 = 2
    omega

/-- At the second and third tiles it holds the running sums the point before left. -/
theorem pool_before1_acc (c : Dev nD) (t : Fin cfg0.N) (h : t.val % 3 ≠ 0) (d) :
    (dat0 V c).before 1 t d = sumsAt V c (t.val - 1) (Nat.lt_of_le_of_lt (Nat.sub_le _ _) t.isLt) := by
  rw [Dat.before_out_kept _ 1 rfl t (by omega)
    (Bool.eq_false_iff.mpr fun h' => by have := (flush0_1 _).mp h'; dsimp only at this; omega) pool_live1 (fun _ _ => rfl)]
  dsimp only [dat0]

/-! ## The running sums, case by case -/

/-- The running sums at a first tile, -/
theorem sumsAt_first (c : Dev nD) (t : Fin cfg0.N) (h : t.val % 3 = 0) :
    sumsAt V c t.val t.isLt = k0_pay3 (xtile V c t) (k0_pay1 (F := F)) := by
  obtain ⟨n, hn⟩ := t
  cases n with
  | zero => rfl
  | succ n => exact (if_pos h).trans rfl

/-- at a second tile, -/
theorem sumsAt_mid (c : Dev nD) (t : Fin cfg0.N) (h : t.val % 3 = 1) :
    sumsAt V c t.val t.isLt
      = k0_pay3 (xtile V c t) (sumsAt V c (t.val - 1) (Nat.lt_of_le_of_lt (Nat.sub_le _ _) t.isLt)) := by
  obtain ⟨n, hn⟩ := t
  cases n with
  | zero => simp at h
  | succ n => exact (if_neg (by dsimp only at h; omega)).trans ((if_pos h).trans rfl)

/-- and at a third. -/
theorem sumsAt_last (c : Dev nD) (t : Fin cfg0.N) (h : t.val % 3 = 2) :
    sumsAt V c t.val t.isLt
      = k0_pay4 (grid0.coords t) (xtile V c t) (sumsAt V c (t.val - 1) (Nat.lt_of_le_of_lt (Nat.sub_le _ _) t.isLt)) := by
  obtain ⟨n, hn⟩ := t
  cases n with
  | zero => simp at h
  | succ n => exact (if_neg (by dsimp only at h; omega)).trans ((if_neg (by dsimp only at h; omega)).trans rfl)

/-- The same two, at a successor. -/
theorem sumsAt_succ_mid (c : Dev nD) (n : ℕ) (h : n + 1 < cfg0.N) (hm : (n + 1) % 3 = 1) :
    sumsAt V c (n + 1) h = k0_pay3 (xtile V c ⟨n + 1, h⟩) (sumsAt V c n (Nat.lt_of_succ_lt h)) :=
  (if_neg (by omega)).trans (if_pos hm)

theorem sumsAt_succ_last (c : Dev nD) (n : ℕ) (h : n + 1 < cfg0.N) (hm : (n + 1) % 3 = 2) :
    sumsAt V c (n + 1) h
      = k0_pay4 (grid0.coords ⟨n + 1, h⟩) (xtile V c ⟨n + 1, h⟩) (sumsAt V c n (Nat.lt_of_succ_lt h)) :=
  (if_neg (by omega)).trans (if_neg (by omega))

/-! ## The body obligation -/

/-- The staging memrefs the pipeline calls the body with at point `t`, at their literal types. -/
abbrev poolSt0 (t : Fin cfg0.N) : Memref sig .tc .vmem S1x128x6144 .f32 := win0_0.stage (cfg0.slots t 0)
abbrev poolSt1 (t : Fin cfg0.N) : Memref sig .tc .vmem S1x128x1 .f32 := win0_1.stage (cfg0.slots t 1)

/-- What the body is called with at point `t`: the region's invariant, nothing owed, and each window's current staging
    buffer at what it then holds. -/
def poolPre (c : Dev nD) (t : Fin cfg0.N) : sProp 𝕄 :=
  iprop((dat0 V c).Φ t.castSucc ∗ (dat0 V c).owesAt () t.castSucc
    ∗ (∃ d, owns (c : Thread nD τ) (poolSt0 t) fullShare ((dat0 V c).before 0 t d))
    ∗ (∃ d, owns (c : Thread nD τ) (poolSt1 t) fullShare ((dat0 V c).before 1 t d)))

/-- What it returns: the tile's buffer stated on the part inside the array only (the window is cut at the array's end),
    the sums' buffer at the running sums. -/
def poolPost (c : Dev nD) (t : Fin cfg0.N) : sProp 𝕄 :=
  iprop((dat0 V c).Φ t.succ ∗ (dat0 V c).owesAt () t.succ
    ∗ (∃ d, owns (c : Thread nD τ) (poolSt0 t) fullShare
        (win0_0.fill (grid0.coords t) d (win0_0.cut (grid0.coords t) ((dat0 V c).after 0 t))))
    ∗ owns (c : Thread nD τ) (poolSt1 t) fullShare ((dat0 V c).after 1 t))

/-- The body at any point. The tile's buffer holds the tile on the part inside the array and anything past it; for the
    first two tiles there is nothing past it, and the third tile's payload does not read it. The sums' buffer holds
    anything at a first tile and the running sums of the point before at the other two. -/
theorem pool_sound_body (c : Dev nD) (t : Fin cfg0.N) :
    poolPre V c t ⊢ wp frame (wpE (defs₀ (F := F)) Variants.none c none) Set.univ (bodyAt0 t) (fun _ => poolPost V c t) := by
  unfold poolPre poolPost bodyAt0
  rw [show (dat0 V c).Φ t.succ = (dat0 V c).Φ t.castSucc from rfl,
    show (dat0 V c).owesAt () t.succ = (dat0 V c).owesAt () t.castSucc from rfl, pool_after0, pool_after1]
  have hN : t.val < 24 := lt_of_lt_of_eq t.isLt (show cfg0.N = 24 from N_0)
  have hcut : win0_0.cut (grid0.coords t) (xtile V c t) = xblk V c t := win0_0.cut_fill _ _ _
  rw [hcut]
  iintro ⟨HΦ, Ho, ⟨%d0, H0⟩, ⟨%d1, H1⟩⟩
  rw [pool_before0 V c t d0]
  rcases (by omega : t.val % 3 = 0 ∨ t.val % 3 = 1 ∨ t.val % 3 = 2) with h | h | h
  · rw [pool_before1_reset V c t h d1, sumsAt_first V c t h]
    have hx : win0_0.fill (grid0.coords t) d0 (xblk V c t) = xtile V c t :=
      Pipeline.fill_of_clip_none (cfg := cfg0) 0 _ (pool_clip_none t (by omega)) d0 _ _
    iapply (pool_run_first c Set.univ (grid0.coords t) _ _ _ _ ((pool_cond1 t).mpr h) ((pool_cond2 t).mpr (by omega))
      (fun h' => by have := (pool_cond3 t).mp h'; omega) (win0_0.fill (grid0.coords t) d0 (xblk V c t)) d1 _)
    isplitl [H0]; · iexact H0
    isplitl [H1]; · iexact H1
    iintro ⟨H0, H1⟩
    isplitl [HΦ]; · iexact HΦ
    isplitl [Ho]; · iexact Ho
    isplitl [H0]; · iexists d0; iexact H0
    rw [hx]; iexact H1
  · rw [pool_before1_acc V c t (by omega) d1, sumsAt_mid V c t h]
    have hx : win0_0.fill (grid0.coords t) d0 (xblk V c t) = xtile V c t :=
      Pipeline.fill_of_clip_none (cfg := cfg0) 0 _ (pool_clip_none t (by omega)) d0 _ _
    iapply (pool_run_mid c Set.univ (grid0.coords t) _ _ _ _ (fun h' => by have := (pool_cond1 t).mp h'; omega)
      ((pool_cond2 t).mpr (by omega)) (fun h' => by have := (pool_cond3 t).mp h'; omega)
      (win0_0.fill (grid0.coords t) d0 (xblk V c t)) (sumsAt V c (t.val - 1) (Nat.lt_of_le_of_lt (Nat.sub_le _ _) t.isLt)) _)
    isplitl [H0]; · iexact H0
    isplitl [H1]; · iexact H1
    iintro ⟨H0, H1⟩
    isplitl [HΦ]; · iexact HΦ
    isplitl [Ho]; · iexact Ho
    isplitl [H0]; · iexists d0; iexact H0
    rw [hx]; iexact H1
  · rw [pool_before1_acc V c t (by omega) d1, sumsAt_last V c t h]
    have hx : k0_pay4 (grid0.coords t) (win0_0.fill (grid0.coords t) d0 (xblk V c t))
          (sumsAt V c (t.val - 1) (Nat.lt_of_le_of_lt (Nat.sub_le _ _) t.isLt))
        = k0_pay4 (grid0.coords t) (xtile V c t) (sumsAt V c (t.val - 1) (Nat.lt_of_le_of_lt (Nat.sub_le _ _) t.isLt)) := by
      refine pool_pay4_congr (grid0.coords t) ((pool_coord1 t).trans h) _ _ _ fun j hj => ?_
      have hm : win0_0.moved (grid0.coords t) j = true := (win0_0.moved_iff _ j).mpr fun a => by
        rw [pool_xsize_last t h a]
        match a with
        | ⟨0, _⟩ => exact (j 0).isLt
        | ⟨1, _⟩ => exact (j 1).isLt
        | ⟨2, _⟩ => exact hj
      unfold xtile Window.fill
      rw [dif_pos hm, dif_pos hm]
    iapply (pool_run_last c Set.univ (grid0.coords t) _ _ _ _ (fun h' => by have := (pool_cond1 t).mp h'; omega)
      (fun h' => by have := (pool_cond2 t).mp h'; omega) ((pool_cond3 t).mpr h)
      (win0_0.fill (grid0.coords t) d0 (xblk V c t)) (sumsAt V c (t.val - 1) (Nat.lt_of_le_of_lt (Nat.sub_le _ _) t.isLt)) _)
    isplitl [H0]; · iexact H0
    isplitl [H1]; · iexact H1
    iintro ⟨H0, H1⟩
    isplitl [HΦ]; · iexact HΦ
    isplitl [Ho]; · iexact Ho
    isplitl [H0]; · iexists d0; iexact H0
    rw [hx]; iexact H1

/-- The library's body obligation, at every point: the windows one by one, the sums' window live. -/
theorem body_obligation0 (c : Dev nD) : BodyObligationLoose (dat0 (F := F) V c) (defs₀ (F := F)) Variants.none () Set.univ := fun t => by
  rw [bigSep_W0, bigSep_W0, show cfg0.idle 1 (cfg0.grid.coords t) = false from pool_live1 _]
  exact pool_sound_body V c t

end Body

/-- The volume as the pooling region finds it, at the ideal instance: batch × channel × position. -/
abbrev poolIn (V : (c : Dev nD) → (b : Ref sig .tc) → Buf (Elt Ideal) ((c : Thread nD τ).loc b)) (c : Dev nD) :
    FVec Ideal S8x128x16384 .f32 := V c main_v0

/-- The sums array as the pooling region leaves it. -/
abbrev poolOut (V : (c : Dev nD) → (b : Ref sig .tc) → Buf (Elt Ideal) ((c : Thread nD τ).loc b)) (c : Dev nD) :
    FVec Ideal S8x128x1 .f32 := (dat0 V c).arrAt 1 cfg0.N

/-! ## The value of the sums array, at the ideal instance

Over the extended reals addition is commutative and associative with no finiteness assumption and `0 + a = a`; the payloads
read at an index are sums over the 6144 lanes of a tile, and the three tiles' sums — the third over its first 4096 lanes —
make up the sum over the 16384 positions. -/

/-- The zero column reads zero. -/
theorem pool_pay1_apply (j : S1x128x1.Idx) : k0_pay1 (F := Ideal) j = 0 := Ideal.ofBits_zero_f32

/-- The row sums of a tile, at channel `ch`: the sum over the tile's 6144 lanes. -/
theorem pool_rowsum_apply (X : Vec Ideal S1x128x6144 .f32) (ch : Fin 128) :
    multiReduction .add [1] S128 (k0_pay2 X) 0x00000000#32 reduces_S128x6144_S128 (.inl rfl) rfl (ix1 ch)
      = ∑ l : Fin 6144, X (ix3 (0 : Fin 1) ch l) := by
  refine (Ideal.multiReduction_add_single (k0_pay2 X) _ reduces_S128x6144_S128 _ _ (ix1 ch)).trans ?_
  refine Finset.sum_congr rfl fun l _ => ?_
  unfold k0_pay2
  rw [shapeCast_dropUnit_apply (![128, 6144]) X]
  refine congrArg X ?_
  funext d
  match d with
  | ⟨0, _⟩ => rfl
  | ⟨1, _⟩ => rfl
  | ⟨2, _⟩ => rfl

/-- The row-major positions that the unit-axis reshapes of the running sums identify. -/
theorem pool_rm_col (ch : Fin 128) :
    (S128x1.rowMajor (ix2 ch (0 : Fin 1))).val = (S1x128x1.rowMajor (ix3 (0 : Fin 1) ch (0 : Fin 1))).val := by
  rw [Shape.rowMajor_val_two, Shape.rowMajor_val_three]
  show ch.val * 1 + 0 = (0 * 128 + ch.val) * 1 + 0
  omega
theorem pool_rm_vec (ch : Fin 128) : (S128.rowMajor (ix1 ch)).val = (S128x1.rowMajor (ix2 ch (0 : Fin 1))).val := by
  rw [Shape.rowMajor_val_one, Shape.rowMajor_val_two]
  show ch.val = ch.val * 1 + 0
  omega

/-- A whole tile's payload at channel `ch`: what the sums held there plus the tile's row sum. -/
theorem pool_pay3_apply (X : Vec Ideal S1x128x6144 .f32) (acc : Vec Ideal S1x128x1 .f32) (ch : Fin 128) :
    k0_pay3 X acc (ix3 (0 : Fin 1) ch (0 : Fin 1)) = acc (ix3 (0 : Fin 1) ch (0 : Fin 1)) + ∑ l : Fin 6144, X (ix3 (0 : Fin 1) ch l) := by
  unfold k0_pay3
  dsimp only
  refine (shapeCast_apply _ shapeCasts_S128x1_S1x128x1 (ix3 (0 : Fin 1) ch (0 : Fin 1)) (ix2 ch (0 : Fin 1)) (pool_rm_col ch)).trans ?_
  refine (addf_apply _ _ _).trans ?_
  refine congrArg₂ (· + ·) ?_ ?_
  · exact shapeCast_apply acc shapeCasts_S1x128x1_S128x1 (ix2 ch (0 : Fin 1)) (ix3 (0 : Fin 1) ch (0 : Fin 1)) (pool_rm_col ch).symm
  · exact (shapeCast_apply _ shapeCasts_S128_S128x1 (ix2 ch (0 : Fin 1)) (ix1 ch) (pool_rm_vec ch)).trans (pool_rowsum_apply X ch)

/-- The third tile's payload at channel `ch`: what the sums held there plus the row sum of the tile with its lanes from
    4096 on replaced by zero. -/
theorem pool_pay4_apply (i : grid0.Coords) (hs : (i 1).val = 2) (X : Vec Ideal S1x128x6144 .f32) (acc : Vec Ideal S1x128x1 .f32)
    (ch : Fin 128) :
    k0_pay4 i X acc (ix3 (0 : Fin 1) ch (0 : Fin 1))
      = acc (ix3 (0 : Fin 1) ch (0 : Fin 1)) + ∑ l : Fin 6144, (if l.val < 4096 then X (ix3 (0 : Fin 1) ch l) else 0) := by
  unfold k0_pay4
  dsimp only
  refine (shapeCast_apply _ shapeCasts_S128x1_S1x128x1 (ix3 (0 : Fin 1) ch (0 : Fin 1)) (ix2 ch (0 : Fin 1)) (pool_rm_col ch)).trans ?_
  refine (addf_apply _ _ _).trans ?_
  refine congrArg₂ (· + ·) ?_ ?_
  · exact shapeCast_apply acc shapeCasts_S1x128x1_S128x1 (ix2 ch (0 : Fin 1)) (ix3 (0 : Fin 1) ch (0 : Fin 1)) (pool_rm_col ch).symm
  · refine (shapeCast_apply _ shapeCasts_S128_S128x1 (ix2 ch (0 : Fin 1)) (ix1 ch) (pool_rm_vec ch)).trans ?_
    refine (Ideal.multiReduction_add_single _ _ reduces_S128x6144_S128 _ _ (ix1 ch)).trans ?_
    refine Finset.sum_congr rfl fun l _ => ?_
    refine (select_apply _ _ _ _).trans ?_
    by_cases hl : l.val < 4096
    · rw [if_pos hl, (pool_mask_apply i hs _).mpr (show ((reduces_S128x6144_S128.lift (ix1 ch) l) 1).val < 4096 from hl), select_one]
      unfold k0_pay2
      refine (shapeCast_dropUnit_apply (![128, 6144]) X _ _).trans (congrArg X ?_)
      funext d
      match d with
      | ⟨0, _⟩ => rfl
      | ⟨1, _⟩ => rfl
      | ⟨2, _⟩ => rfl
    · rw [if_neg hl, eq_zero_of_ne_one (fun h => hl ((pool_mask_apply i hs _).mp h)), select_zero]
      exact Ideal.ofBits_zero_f32

section Value

variable (V : (c : Dev nD) → (b : Ref sig .tc) → Buf (Elt Ideal) ((c : Thread nD τ).loc b))

/-- The staged tile read at a lane inside the array: lane `l` of tile `s` of batch element `n` is position `6144·s + l`. -/
theorem pool_xtile_apply (c : Dev nD) (t : Fin cfg0.N) (n : Fin 8) (s : ℕ) (ht : t.val = 3 * n.val + s) (hs : s < 3)
    (ch : Fin 128) (l : Fin 6144) (hl : 6144 * s + l.val < 16384) :
    xtile V c t (ix3 (0 : Fin 1) ch l) = poolIn V c (ix3 n ch (⟨6144 * s + l.val, hl⟩ : Fin 16384)) := by
  have hi := pool_index0 t
  have hm : win0_0.moved (grid0.coords t) (ix3 (0 : Fin 1) ch l) = true := (win0_0.moved_iff _ _).mpr fun a => by
    by_cases h2 : t.val % 3 = 2
    · rw [pool_xsize_last t h2 a]
      match a with
      | ⟨0, _⟩ => exact Nat.one_pos
      | ⟨1, _⟩ => exact ch.isLt
      | ⟨2, _⟩ => show l.val < 4096; omega
    · show _ < ((cfg0.win 0).clip (cfg0.grid.coords t) a).extent (win0_0.size a)
      rw [pool_clip_none t h2 a]
      exact (ix3 (0 : Fin 1) ch l a).isLt
  unfold xtile Window.fill
  rw [dif_pos hm]
  unfold xblk
  rw [View.read_apply]
  show V c main_v0 _ = V c main_v0 _
  congr 1
  funext a
  apply Fin.ext
  match a with
  | ⟨0, _⟩ => show win0_0.index t 0 * 1 + 1 * 0 = n.val; rw [hi.1]; omega
  | ⟨1, _⟩ => show win0_0.index t 1 * 128 + 1 * ch.val = ch.val; rw [hi.2.1]; omega
  | ⟨2, _⟩ => show win0_0.index t 2 * 6144 + 1 * l.val = 6144 * s + l.val; rw [hi.2.2]; omega

end Value

section Value2

variable (V : (c : Dev nD) → (b : Ref sig .tc) → Buf (Elt Ideal) ((c : Thread nD τ).loc b))

/-- After the third tile of batch element `n` the running sum of channel `ch` is the channel's total over all 16384
    positions: zero, plus the first tile's 6144 entries, plus the second's, plus the first 4096 of the third. -/
theorem pool_sums_total (c : Dev nD) (n : Fin 8) (ch : Fin 128) (h : 3 * n.val + 1 + 1 < cfg0.N) :
    sumsAt V c (3 * n.val + 1 + 1) h (ix3 (0 : Fin 1) ch (0 : Fin 1)) = ∑ s : Fin 16384, poolIn V c (ix3 n ch s) := by
  have h1 : 3 * n.val + 1 < cfg0.N := Nat.lt_of_succ_lt h
  have h0 : 3 * n.val < cfg0.N := Nat.lt_of_succ_lt h1
  rw [sumsAt_succ_last V c (3 * n.val + 1) h (by omega)]
  refine (pool_pay4_apply _ ((pool_coord1 ⟨3 * n.val + 1 + 1, h⟩).trans (by show (3 * n.val + 1 + 1) % 3 = 2; omega)) _ _ ch).trans ?_
  rw [sumsAt_succ_mid V c (3 * n.val) h1 (by omega), pool_pay3_apply,
    show sumsAt V c (3 * n.val) h0 = _ from sumsAt_first V c ⟨3 * n.val, h0⟩ (by show (3 * n.val) % 3 = 0; omega),
    pool_pay3_apply, pool_pay1_apply, zero_add]
  have hA : (∑ l : Fin 6144, xtile V c ⟨3 * n.val, h0⟩ (ix3 (0 : Fin 1) ch l))
      = ∑ l : Fin 6144, poolIn V c (ix3 n ch (⟨l.val, by have := l.isLt; omega⟩ : Fin 16384)) :=
    Finset.sum_congr rfl fun l _ =>
      (pool_xtile_apply V c ⟨3 * n.val, h0⟩ n 0 rfl (by omega) ch l (by have := l.isLt; omega)).trans
        (congrArg (fun s => poolIn V c (ix3 n ch s)) (Fin.ext (by show 6144 * 0 + l.val = l.val; omega)))
  have hB : (∑ l : Fin 6144, xtile V c ⟨3 * n.val + 1, h1⟩ (ix3 (0 : Fin 1) ch l))
      = ∑ l : Fin 6144, poolIn V c (ix3 n ch (⟨6144 + l.val, by have := l.isLt; omega⟩ : Fin 16384)) :=
    Finset.sum_congr rfl fun l _ =>
      (pool_xtile_apply V c ⟨3 * n.val + 1, h1⟩ n 1 rfl (by omega) ch l (by have := l.isLt; omega)).trans
        (congrArg (fun s => poolIn V c (ix3 n ch s)) (Fin.ext (by show 6144 * 1 + l.val = 6144 + l.val; omega)))
  have hC : (∑ l : Fin 6144, (if l.val < 4096 then xtile V c ⟨3 * n.val + 1 + 1, h⟩ (ix3 (0 : Fin 1) ch l) else 0))
      = ∑ l : Fin 4096, poolIn V c (ix3 n ch (⟨6144 + (6144 + l.val), by have := l.isLt; omega⟩ : Fin 16384)) := by
    rw [Cert.LibTileSums.sum_masked 4096 6144 (by omega) (fun l => xtile V c ⟨3 * n.val + 1 + 1, h⟩ (ix3 (0 : Fin 1) ch l))]
    exact Finset.sum_congr rfl fun l _ =>
      (pool_xtile_apply V c ⟨3 * n.val + 1 + 1, h⟩ n 2 rfl (by omega) ch ⟨l.val, by have := l.isLt; omega⟩
        (by have := l.isLt; show 6144 * 2 + l.val < 16384; omega)).trans
        (congrArg (fun s => poolIn V c (ix3 n ch s)) (Fin.ext (by show 6144 * 2 + l.val = 6144 + (6144 + l.val); omega)))
  rw [hA, hB, hC, add_assoc]
  exact ((Cert.LibTileSums.sum_head_tail 6144 10240 rfl (fun s : Fin 16384 => poolIn V c (ix3 n ch s))).trans
    (congrArg₂ (· + ·) rfl
      ((Cert.LibTileSums.sum_head_tail 6144 4096 rfl
        (fun i : Fin 10240 => poolIn V c (ix3 n ch (⟨6144 + i.val, by have := i.isLt; omega⟩ : Fin 16384)))).trans rfl))).symm

/-- The totals, as contents of the sums array: entry `(n, ch, 0)` is channel `ch` of batch element `n` summed over all positions. -/
def poolTot (c : Dev nD) : FVec Ideal S8x128x1 .f32 := fun i => ∑ s : Fin 16384, poolIn V c (ix3 (i 0) (i 1) s)

/-- What the write-back after the third tile of a batch element writes is that batch element's block of the totals. -/
theorem pool_flushed (c : Dev nD) (t : Fin cfg0.N) (hf : (cfg0.win 1).flush t = true) :
    (dat0 V c).flushed 1 t = ((cfg0.win 1).blk t).view.read (Elt Ideal) (poolTot V c) := by
  have hN : cfg0.N = 24 := N_0
  have h2 : t.val % 3 = 2 := (flush0_1 t).mp hf
  obtain ⟨n, h, rfl⟩ : ∃ (n : Fin 8) (h : 3 * n.val + 1 + 1 < cfg0.N), t = ⟨3 * n.val + 1 + 1, h⟩ :=
    ⟨⟨t.val / 3, by have := t.isLt; omega⟩, by have := t.isLt; show 3 * (t.val / 3) + 1 + 1 < cfg0.N; omega,
      Fin.ext (by show t.val = 3 * (t.val / 3) + 1 + 1; omega)⟩
  have hi := pool_index1 ⟨3 * n.val + 1 + 1, h⟩
  have e0 : win0_1.index ⟨3 * n.val + 1 + 1, h⟩ 0 = n.val := hi.1.trans (by show (3 * n.val + 1 + 1) / 3 = n.val; omega)
  funext j
  have hj0 : (j 0).val < 1 := (j 0).isLt
  have hj1 : (j 1).val < 128 := (j 1).isLt
  have hj2 : (j 2).val < 1 := (j 2).isLt
  have ex : (cfg0.win 1).xinj (grid0.coords ⟨3 * n.val + 1 + 1, h⟩) j = ix3 (0 : Fin 1) (⟨(j 1).val, hj1⟩ : Fin 128) (0 : Fin 1) := by
    funext d
    apply Fin.ext
    match d with
    | ⟨0, _⟩ => show (j 0).val = 0; omega
    | ⟨1, _⟩ => rfl
    | ⟨2, _⟩ => show (j 2).val = 0; omega
  show (dat0 V c).after 1 ⟨3 * n.val + 1 + 1, h⟩ ((cfg0.win 1).xinj (grid0.coords ⟨3 * n.val + 1 + 1, h⟩) j) = _
  rw [pool_after1, ex, View.read_apply]
  refine (pool_sums_total V c n ⟨(j 1).val, hj1⟩ h).trans ?_
  rw [cast_eq]
  refine Eq.trans (b := poolTot V c (ix3 n (⟨(j 1).val, hj1⟩ : Fin 128) (0 : Fin 1))) rfl (congrArg (poolTot V c) ?_)
  funext d
  apply Fin.ext
  match d with
  | ⟨0, _⟩ => show n.val = win0_1.index ⟨3 * n.val + 1 + 1, h⟩ 0 * 1 + 1 * (j 0).val; rw [e0]; omega
  | ⟨1, _⟩ => show (j 1).val = win0_1.index ⟨3 * n.val + 1 + 1, h⟩ 1 * 128 + 1 * (j 1).val; rw [hi.2.1]; omega
  | ⟨2, _⟩ => show 0 = win0_1.index ⟨3 * n.val + 1 + 1, h⟩ 2 * 1 + 1 * (j 2).val; rw [hi.2.2]; omega

end Value2

/-- The sums array after the region: entry `(n, c, 0)` is the sum of channel `c` of batch element `n` over all positions. -/
theorem pool_result (V : (c : Dev nD) → (b : Ref sig .tc) → Buf (Elt Ideal) ((c : Thread nD τ).loc b)) (c : Dev nD)
    (n : Fin 8) (ch : Fin 128) :
    poolOut V c (ix3 n ch (0 : Fin 1)) = ∑ s : Fin 16384, poolIn V c (ix3 n ch s) := by
  have hN : cfg0.N = 24 := N_0
  have h : 3 * n.val + 1 + 1 < cfg0.N := by have := n.isLt; omega
  have hi := pool_index1 ⟨3 * n.val + 1 + 1, h⟩
  have e0 : win0_1.index ⟨3 * n.val + 1 + 1, h⟩ 0 = n.val := hi.1.trans (by show (3 * n.val + 1 + 1) / 3 = n.val; omega)
  refine ((dat0 V c).arrAt_apply_of_mem 1 (poolTot V c) (pool_flushed V c) cfg0.N ⟨3 * n.val + 1 + 1, h⟩ (ix3 n ch (0 : Fin 1)) h
    ((flush0_1 _).mpr (by show (3 * n.val + 1 + 1) % 3 = 2; omega)) ?_).trans rfl
  show ix3 n ch (0 : Fin 1) ∈ ((View.whole main_v1).slice (win0_1.rect ⟨3 * n.val + 1 + 1, h⟩)).set
  rw [View.set_slice_whole, Rect.mem_set_unit]
  intro a
  match a with
  | ⟨0, _⟩ =>
    show win0_1.index ⟨3 * n.val + 1 + 1, h⟩ 0 * 1 ≤ n.val ∧ n.val < win0_1.index ⟨3 * n.val + 1 + 1, h⟩ 0 * 1 + 1
    rw [e0]; omega
  | ⟨1, _⟩ =>
    show win0_1.index ⟨3 * n.val + 1 + 1, h⟩ 1 * 128 ≤ ch.val ∧ ch.val < win0_1.index ⟨3 * n.val + 1 + 1, h⟩ 1 * 128 + 128
    rw [hi.2.1]; have := ch.isLt; omega
  | ⟨2, _⟩ =>
    show win0_1.index ⟨3 * n.val + 1 + 1, h⟩ 2 * 1 ≤ 0 ∧ 0 < win0_1.index ⟨3 * n.val + 1 + 1, h⟩ 2 * 1 + 1
    rw [hi.2.2]; omega

end Cert.ReferenceIdeal.Hand

end
-- ==== Proof.RScale.lean ====
/-
  The scaling region of the two-pass program: every entry of the volume times its channel's gate, tile by tile
  (three position tiles of 6144, the last one reaching past the array's end; what is computed there is never written
  back).
-/
import proofs.«168272_g2000702401841808_pallasbulk_415_2_alg».proof.Proof.Gen.ReferenceIdeal.Launch
import proofs.«168272_g2000702401841808_pallasbulk_415_2_alg».proof.Proof.Gen.ReferenceIdeal.Points
import proofs.«168272_g2000702401841808_pallasbulk_415_2_alg».proof.Proof.Gen.ReferenceIdeal.Skeleton
import Idealize.ShloMosaic.Lib.Pipeline.FrameBody
import Idealize.ShloMosaic.Lib.Pipeline.Frame
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ReferenceIdeal Cert.ReferenceIdeal.Gen

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-- The volume's tile at point `t = 3n + s` as the fetch reads it: batch element `n`, every channel, and the
    positions from `6144·s` on that lie inside the array (6144 of them for `s = 0, 1`, the last 4096 for `s = 2`). -/
def xblk1 (c : Dev nD) (t : Fin cfg1.N) : (win1_0.xblock (grid1.coords t)).Idx → Elt F .f32 :=
  (win1_0.blk t).view.read (Elt F) (V c main_v0)

/-- The gate block at point `t = 3n + s`: the 128 gates of batch element `n` (one block for the three `s`). -/
def gblk (c : Dev nD) (t : Fin cfg1.N) : S1x128x1.Idx → Elt F .f32 :=
  (win1_1.blk t).view.read (Elt F) (V c main_v17)

/-- A tile scaled by a gate block: entry `(0, ch, p)` of the tile times entry `(0, ch, 0)` of the block. -/
def scaleTile (X : S1x128x6144.Idx → Elt F .f32) (g : S1x128x1.Idx → Elt F .f32) : S1x128x6144.Idx → Elt F .f32 :=
  fun j => FloatOps.mulf (X j) (g (ix3 (0 : Fin 1) (j 1) (0 : Fin 1)))

/-- The volume's tile at point `t` as a whole 6144-position tile: `xblk1` on the positions inside the array, the zero word
    on the 2048 positions past its end that tile `s = 2` reaches. -/
def xtile1 (c : Dev nD) (t : Fin cfg1.N) : S1x128x6144.Idx → Elt F .f32 :=
  win1_0.fill (grid1.coords t) (fun _ => Scalar.ofBits .f32 0#32) (xblk1 V c t)

/-- The product tile at point `t`: on the positions inside the array the volume's entry times its channel's gate, the
    zero word past the array's end. -/
def ptile (c : Dev nD) (t : Fin cfg1.N) : S1x128x6144.Idx → Elt F .f32 :=
  win1_2.fill (grid1.coords t) (fun _ => Scalar.ofBits .f32 0#32)
    (win1_2.cut (grid1.coords t) (scaleTile (xtile1 V c t) (gblk V c t)))

/-- The scaling region's proof data on core `c`, entered with the arrays at `V`: after the body the volume's staging
    buffer still holds its tile and the gates' their block (the body only reads them), and the result's holds the
    product tile; the two tiles are stated on the positions inside the array only (both windows are loose), so what
    fills them out past its end, here the zero word, is never read. -/
def dat1 (c : Dev nD) : Dat τ (Elt F) Unit ℕ (UR sig nD τ) ℕ cfg1 c where
  A w := V c (Pipeline.arrRef spec1 w)
  after w t := match w with
    | ⟨0, _⟩ => xtile1 V c t
    | ⟨1, _⟩ => gblk V c t
    | ⟨2, _⟩ => ptile V c t
  Φ _ := Pipeline.ΦA spec1 c
  q _ := fullShare
  owed _ := 0

theorem A_eq1 (c : Dev nD) (w : Fin cfg1.W) : (dat1 V c).A w = V c (Pipeline.arrRef spec1 w) := by
  dsimp only [dat1]

/-! ## The body: three whole loads, the product, one whole store -/

/-- The three zero offsets of the body's accesses, however spelt. -/
theorem scale_hz : (![0, 0, 0] : Fin 3 → Nat) = fun _ => 0 := funext fun a => by fin_cases a <;> rfl

omit [FloatOps F] in
/-- A load through the whole-shape rectangle at zero offsets reads what the memref reads. -/
theorem scale_read_zero {S : Shape} {e : EltTy} {cs : CoreSpace} (M : Memref sig .tc cs S e) {off : Fin S.rank → Nat}
    (h : off = fun _ => 0) (inb : ∀ a, off a + S.size a ≤ S.size a) (c : Dev nD)
    (f : Buf (Elt F) (M.view.loc (c : Thread nD τ))) :
    (M.access (Rect.unit off S.size inb)).read (Elt F) f = M.view.read (Elt F) f := by
  subst h; funext x
  show M.view.read (Elt F) f ((Rect.whole S).emb x) = M.view.read (Elt F) f x
  rw [Rect.emb_whole_apply]

omit [FloatOps F] in
/-- An unmasked store through it leaves the memref reading the payload. -/
theorem scale_write_zero {S : Shape} {e : EltTy} {cs : CoreSpace} (M : Memref sig .tc cs S e) {off : Fin S.rank → Nat}
    (h : off = fun _ => 0) (inb : ∀ a, off a + S.size a ≤ S.size a) (c : Dev nD)
    (f : Buf (Elt F) (M.view.loc (c : Thread nD τ))) (w : S.Idx → Elt F e) :
    M.view.read (Elt F) ((M.access (Rect.unit off S.size inb)).write (Elt F) f w Finset.univ) = w := by
  subst h; funext x
  have hx := View.read_slice_write_emb (v := M.view) (Rect.whole S) f w (Finset.mem_univ x)
  rw [Rect.emb_whole_apply] at hx
  exact hx

/-- The body's payload is the tile scaled by the gate block: the two shape casts drop and restore the tile's unit
    axis, and the broadcast repeats each channel's gate along the positions. -/
theorem k1_pay1_eq (X : Vec F S1x128x6144 .f32) (g : Vec F S1x128x1 .f32) : k1_pay1 X g = scaleTile X g := by
  funext j
  unfold k1_pay1 scaleTile
  refine (shapeCast_addUnit_apply ![128, 6144] _ _ j).trans ?_
  show FloatOps.mulf _ _ = FloatOps.mulf _ _
  congr 1
  · refine (shapeCast_dropUnit_apply ![128, 6144] X _ _).trans (congrArg X ?_)
    funext a
    match a with
    | ⟨0, _⟩ => exact Fin.ext (by have h0 : (j 0).val < 1 := (j 0).isLt; show 0 = (j 0).val; omega)
    | ⟨1, _⟩ => rfl
    | ⟨2, _⟩ => rfl
  · refine (broadcastTo_apply _ _ _ (ix2 (j 1) (0 : Fin 1)) fun a => ?_).trans ?_
    · match a with
      | ⟨0, _⟩ => rfl
      | ⟨1, _⟩ => rfl
    · refine (shapeCast_dropUnit_apply ![128, 1] g _ _).trans (congrArg g ?_)
      funext a
      match a with
      | ⟨0, _⟩ => rfl
      | ⟨1, _⟩ => rfl
      | ⟨2, _⟩ => rfl

/-- The kernel body on any staging memrefs `M0` (the volume's tile), `M1` (the gate block) and `M2` (the result's tile):
    it loads the first two whole, loads the third (a value nothing reads), and stores their scaled product whole; the
    result's buffer ends holding the tile scaled by the gate block, whatever it held, and the other two are unchanged. -/
theorem scale_sound_body (c : Dev nD) (E : Set ℕ) (i : grid1.Coords)
    (M0 : Memref sig .tc .vmem S1x128x6144 .f32) (h0 : M0.IsWhole) (M1 : Memref sig .tc .vmem S1x128x1 .f32) (h1 : M1.IsWhole)
    (M2 : Memref sig .tc .vmem S1x128x6144 .f32) (h2 : M2.IsWhole)
    (X0 X2 : S1x128x6144.Idx → Elt F .f32) (X1 : S1x128x1.Idx → Elt F .f32) (K : PUnit → sProp 𝕄) :
    iprop((owns (c : Thread nD τ) M0 fullShare X0 ∗ owns (c : Thread nD τ) M1 fullShare X1 ∗ owns (c : Thread nD τ) M2 fullShare X2)
          ∗ (iprop(owns (c : Thread nD τ) M0 fullShare X0 ∗ owns (c : Thread nD τ) M1 fullShare X1
                  ∗ owns (c : Thread nD τ) M2 fullShare (scaleTile X0 X1)) -∗ K ⟨⟩))
      ⊢ wp frame (wpE (defs₀ (F := F)) Variants.none c none) E (cc1__scale_kernel i M0 h0 M1 h1 M2 h2) K := by
  simp only [cc1__scale_kernel_eq_skeleton]; unfold cc1__scale_kernel_skel
  simp only [Prog.lift, Prog.bind_op, Prog.bind_ret]
  unfold owns
  iintro ⟨⟨⟨%f0, %hf0, H0⟩, ⟨%f1, %hf1, H1⟩, ⟨%f2, %hf2, H2⟩⟩, Hk⟩
  iapply (wp_load_rect Variants.none (c : Thread nD τ) none E (m := M0) (r := Rect.unit (s := S1x128x6144) ![0, 0, 0] S1x128x6144.size Facts₀.inb_S1x128x6144_S1x128x6144_0_0_0) (View.set_slice_subset _ _)) $$ H0
  iintro H0
  iapply (wp_load_rect Variants.none (c : Thread nD τ) none E (m := M1) (r := Rect.unit (s := S1x128x1) ![0, 0, 0] S1x128x1.size Facts₀.inb_S1x128x1_S1x128x1_0_0_0) (View.set_slice_subset _ _)) $$ H1
  iintro H1
  iapply (wp_load_rect Variants.none (c : Thread nD τ) none E (m := M2) (r := Rect.unit (s := S1x128x6144) ![0, 0, 0] S1x128x6144.size Facts₀.inb_S1x128x6144_S1x128x6144_0_0_0) (View.set_slice_subset _ _)) $$ H2
  iintro H2
  iapply (wp_store Variants.none (c : Thread nD τ) none E (m := M2) (r := Rect.unit (s := S1x128x6144) ![0, 0, 0] S1x128x6144.size Facts₀.inb_S1x128x6144_S1x128x6144_0_0_0) (Mk := Finset.univ) (View.set_slice_subset _ _)) $$ H2
  iintro H2
  rw [wp_pure]; imodintro
  iapply Hk
  isplitl [H0]
  · iexists f0; isplitr; · ipureintro; exact hf0
    iexact H0
  isplitl [H1]
  · iexists f1; isplitr; · ipureintro; exact hf1
    iexact H1
  · iexists _; isplitr
    rotate_left
    · iexact H2
    · ipureintro
      rw [scale_write_zero M2 scale_hz _ c, scale_read_zero M0 scale_hz _ c, scale_read_zero M1 scale_hz _ c, hf0, hf1, k1_pay1_eq]

/-! ## What the body finds in the staging buffers -/

/-- The volume's buffer, fetched at every point: its tile on the positions inside the array, `d` past its end. -/
theorem scale_before_0 (c : Dev nD) (t : Fin cfg1.N) (d) :
    (dat1 V c).before (0 : Fin 3) t d = win1_0.fill (grid1.coords t) d (xblk1 V c t) := by
  unfold Dat.before; rw [if_pos (fetch1_0 t)]; rfl

/-- The gates' buffer holds the gate block at every point, fetched there (`s = 0`) or not: the block index does not
    move with `s`, and the body leaves the block in place. -/
theorem scale_before_1 (c : Dev nD) (t : Fin cfg1.N) (d) : (dat1 V c).before (1 : Fin 3) t d = gblk V c t :=
  ((dat1 V c).before_in_eq_fetched (1 : Fin 3) rfl (fun _ => rfl) (fun _ _ _ => rfl) (fun _ => rfl) t d).trans rfl

/-- The result's buffer, written back at every point, comes back at contents nothing names. -/
theorem scale_before_2 (c : Dev nD) (t : Fin cfg1.N) (d) : (dat1 V c).before (2 : Fin 3) t d = d :=
  (dat1 V c).before_out_reset (2 : Fin 3) rfl t
    (by
      by_cases ht : t.val = 0
      · exact .inl ht
      · exact .inr ⟨ht, flush1_2 _⟩) d

omit [FloatOps F] in
/-- On the positions a cut transfer moves, a filled tile does not depend on what filled it out. -/
theorem scale_fill_moved (i : grid1.Coords) (d d' : S1x128x6144.Idx → Elt F .f32) (g : (win1_0.xblock i).Idx → Elt F .f32)
    {k : S1x128x6144.Idx} (hk : win1_0.moved i k = true) : win1_0.fill i d g k = win1_0.fill i d' g k := by
  unfold Window.fill; rw [dif_pos hk, dif_pos hk]

/-- On the positions inside the array the scaled tile reads the volume's tile only there: the tile as fetched, filled
    out with anything, and the tile filled out with zeros scale to tiles that agree on what the write-back moves. -/
theorem scale_cut_congr (c : Dev nD) (t : Fin cfg1.N) (d0 : S1x128x6144.Idx → Elt F .f32) :
    win1_2.cut (grid1.coords t) (scaleTile (win1_0.fill (grid1.coords t) d0 (xblk1 V c t)) (gblk V c t))
      = win1_2.cut (grid1.coords t) (scaleTile (xtile1 V c t) (gblk V c t)) := by
  funext j
  show FloatOps.mulf _ _ = FloatOps.mulf _ _
  congr 1
  exact scale_fill_moved (grid1.coords t) _ _ _ ((win1_0.moved_iff (grid1.coords t) _).mpr fun a => (j a).isLt)

/-- The library's body obligation, from `scale_sound_body` at the point's staging buffers: the volume's buffer arrives
    holding its tile filled out with `d0` past the array's end, the gates' their block, the result's anything; the
    first two leave as they came and the result's leaves holding the scaled tile, which on the positions inside the
    array is the product tile's — all the two loose windows' obligations ask. -/
theorem body_obligation1 (c : Dev nD) : BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩⟩
  rw [scale_before_0 V c t d0, scale_before_1 V c t d1, scale_before_2 V c t d2]
  iapply (scale_sound_body (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_0.fill (grid1.coords t) d0 (xblk1 V c t)) d2 (gblk V c t) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win1_0.cut (grid1.coords t) (xtile1 V c t) = xblk1 V c t := win1_0.cut_fill _ _ _
  have hp : win1_2.cut (grid1.coords t) (ptile V c t)
      = win1_2.cut (grid1.coords t) (scaleTile (xtile1 V c t) (gblk V c t)) := win1_2.cut_fill _ _ _
  dsimp only [dat1]
  isplitl [H0]
  · iexists d0
    rw [hx]; iexact H0
  isplitl [H1]
  · iexact H1
  · iexists scaleTile (win1_0.fill (grid1.coords t) d0 (xblk1 V c t)) (gblk V c t)
    rw [hp, ← scale_cut_congr V c t d0, Window.fill_cut]; iexact H2

end Body

/-- The volume as the scaling region finds it, at the ideal instance: batch × channel × position. -/
abbrev scaleIn (V : (c : Dev nD) → (b : Ref sig .tc) → Buf (Elt Ideal) ((c : Thread nD τ).loc b)) (c : Dev nD) :
    FVec Ideal S8x128x16384 .f32 := V c main_v0

/-- The gates as the scaling region finds them: batch × channel × 1. -/
abbrev scaleGate (V : (c : Dev nD) → (b : Ref sig .tc) → Buf (Elt Ideal) ((c : Thread nD τ).loc b)) (c : Dev nD) :
    FVec Ideal S8x128x1 .f32 := V c main_v17

/-- The result array as the scaling region leaves it. -/
abbrev scaleOut (V : (c : Dev nD) → (b : Ref sig .tc) → Buf (Elt Ideal) ((c : Thread nD τ).loc b)) (c : Dev nD) :
    FVec Ideal S8x128x16384 .f32 := (dat1 V c).arrAt 2 cfg1.N

/-- The array the region leaves, in one piece: every entry of the volume times the gate of its batch element and channel. -/
def scaleG (V : (c : Dev nD) → (b : Ref sig .tc) → Buf (Elt Ideal) ((c : Thread nD τ).loc b)) (c : Dev nD) :
    FVec Ideal S8x128x16384 .f32 :=
  fun i => scaleIn V c i * scaleGate V c (ix3 (i 0) (i 1) (0 : Fin 1))

/-- Two rank-3 indices are equal when their three coordinates are equal as naturals. -/
theorem scale_idx3_ext {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-- Where the tiles and the gate blocks sit, decided over the 24 points `t = 3n + s`: the result's tile is batch element
    `n = t / 3`, every channel, positions from `6144·s`, `s = t % 3` — 6144 of them, but 4096 for `s = 2`; the gate block is
    batch element `n`'s. -/
theorem scale_geom : ∀ t : Fin grid1.N,
    win1_2.index t 0 = t.val / 3 ∧ win1_2.index t 1 = 0 ∧ win1_2.index t 2 = t.val % 3
      ∧ win1_2.xsize (grid1.coords t) 0 = 1 ∧ win1_2.xsize (grid1.coords t) 1 = 128
      ∧ win1_2.xsize (grid1.coords t) 2 = (if t.val % 3 = 2 then 4096 else 6144)
      ∧ win1_1.index t 0 = t.val / 3 ∧ win1_1.index t 1 = 0 ∧ win1_1.index t 2 = 0 := by decide +kernel

/-- An entry of the gate block at point `t` is the gate array's entry of the same batch element and channel as any entry
    of the result's tile there in that channel. -/
theorem scale_gate_emb (t : Fin cfg1.N) (j : (win1_2.xblock (grid1.coords t)).Idx) :
    (win1_1.rect t).emb (ix3 (0 : Fin 1) (⟨(j 1).val, (j 1).isLt.trans_le (win1_2.xsize_le (grid1.coords t) 1)⟩ : Fin 128) (0 : Fin 1))
      = ix3 ((win1_2.rect t).emb j 0) ((win1_2.rect t).emb j 1) (0 : Fin 1) := by
  obtain ⟨i0, i1, i2, x0, x1, x2, g0, g1, g2⟩ := scale_geom t
  have hj0 : (j 0).val < 1 := x0 ▸ (j 0).isLt
  refine scale_idx3_ext (n := S8x128x1.size) ?_ ?_ ?_
  · show ((win1_1.rect t).emb (ix3 (0 : Fin 1) (⟨(j 1).val, (j 1).isLt.trans_le (win1_2.xsize_le (grid1.coords t) 1)⟩ : Fin 128) (0 : Fin 1)) 0 : ℕ)
      = ((win1_2.rect t).emb j 0 : ℕ)
    rw [win1_1.rect_emb_val t _ 0, win1_2.rect_emb_val t j 0, g0, i0]
    show t.val / 3 * 1 + 0 = t.val / 3 * 1 + (j 0).val
    omega
  · show ((win1_1.rect t).emb (ix3 (0 : Fin 1) (⟨(j 1).val, (j 1).isLt.trans_le (win1_2.xsize_le (grid1.coords t) 1)⟩ : Fin 128) (0 : Fin 1)) 1 : ℕ)
      = ((win1_2.rect t).emb j 1 : ℕ)
    rw [win1_1.rect_emb_val t _ 1, win1_2.rect_emb_val t j 1, g1, i1]
    rfl
  · show ((win1_1.rect t).emb (ix3 (0 : Fin 1) (⟨(j 1).val, (j 1).isLt.trans_le (win1_2.xsize_le (grid1.coords t) 1)⟩ : Fin 128) (0 : Fin 1)) 2 : ℕ)
      = 0
    rw [win1_1.rect_emb_val t _ 2, g2]
    rfl

/-- What point `t` writes back is its tile of that array: on the positions inside the array the product tile is the
    volume's entry (the fetched tile read back through the same rectangle) times the gate block's entry of its channel. -/
theorem scale_flushed (V : (c : Dev nD) → (b : Ref sig .tc) → Buf (Elt Ideal) ((c : Thread nD τ).loc b)) (c : Dev nD)
    (t : Fin cfg1.N) :
    (dat1 V c).flushed (2 : Fin 3) t = ((cfg1.win 2).blk t).view.read (Elt Ideal) (scaleG V c) := by
  have hp : win1_2.cut (grid1.coords t) (ptile V c t)
      = win1_2.cut (grid1.coords t) (scaleTile (xtile1 V c t) (gblk V c t)) := win1_2.cut_fill _ _ _
  show win1_2.cut (grid1.coords t) ((dat1 V c).after (2 : Fin 3) t) = _
  dsimp only [dat1]
  rw [hp]
  funext j
  have hx : xtile1 V c t (win1_2.xinj (grid1.coords t) j) = scaleIn V c ((win1_2.rect t).emb j) :=
    (win1_0.fill_xinj (grid1.coords t) _ (xblk1 V c t) j).trans rfl
  have hg : gblk V c t (ix3 (0 : Fin 1) (⟨(j 1).val, (j 1).isLt.trans_le (win1_2.xsize_le (grid1.coords t) 1)⟩ : Fin 128) (0 : Fin 1))
      = scaleGate V c (ix3 ((win1_2.rect t).emb j 0) ((win1_2.rect t).emb j 1) (0 : Fin 1)) :=
    (rfl : _ = scaleGate V c ((win1_1.rect t).emb _)).trans (congrArg (scaleGate V c) (scale_gate_emb t j))
  show xtile1 V c t (win1_2.xinj (grid1.coords t) j) * gblk V c t _ = scaleG V c ((win1_2.rect t).emb j)
  unfold scaleG
  rw [hx]
  exact congrArg _ hg

/-- Entry `(n, ch, s)` of the array lies in the tile point `3n + s / 6144` writes back. -/
theorem scale_mem (n : Fin 8) (ch : Fin 128) (s : Fin 16384) :
    ∃ t : Fin cfg1.N, (ix3 n ch s : S8x128x16384.Idx) ∈ ((cfg1.win 2).blk t).view.set := by
  refine ⟨⟨3 * n.val + s.val / 6144, by have := n.isLt; have := s.isLt; show _ < 24; omega⟩, ?_⟩
  show _ ∈ ((View.whole main_v18).slice (win1_2.rect _)).set
  rw [View.set_slice_whole, Rect.mem_set_unit]
  obtain ⟨i0, i1, i2, x0, x1, x2, -, -, -⟩ := scale_geom ⟨3 * n.val + s.val / 6144, by have := n.isLt; have := s.isLt; show _ < 24; omega⟩
  have hn := n.isLt; have hc := ch.isLt; have hs := s.isLt
  intro a
  match a with
  | ⟨0, _⟩ =>
    show win1_2.index _ 0 * 1 ≤ n.val ∧ n.val < win1_2.index _ 0 * 1 + win1_2.xsize _ 0
    rw [i0, x0]; show (3 * n.val + s.val / 6144) / 3 * 1 ≤ _ ∧ _ < (3 * n.val + s.val / 6144) / 3 * 1 + 1; omega
  | ⟨1, _⟩ =>
    show win1_2.index _ 1 * 128 ≤ ch.val ∧ ch.val < win1_2.index _ 1 * 128 + win1_2.xsize _ 1
    rw [i1, x1]; omega
  | ⟨2, _⟩ =>
    show win1_2.index _ 2 * 6144 ≤ s.val ∧ s.val < win1_2.index _ 2 * 6144 + win1_2.xsize _ 2
    rw [i2, x2]; show (3 * n.val + s.val / 6144) % 3 * 6144 ≤ _ ∧ _ < (3 * n.val + s.val / 6144) % 3 * 6144 + (if (3 * n.val + s.val / 6144) % 3 = 2 then 4096 else 6144)
    split <;> omega

/-- The result array after the region: every entry of the volume times the gate of its batch element and channel. -/
theorem scale_result (V : (c : Dev nD) → (b : Ref sig .tc) → Buf (Elt Ideal) ((c : Thread nD τ).loc b)) (c : Dev nD)
    (n : Fin 8) (ch : Fin 128) (s : Fin 16384) :
    scaleOut V c (ix3 n ch s) = scaleIn V c (ix3 n ch s) * scaleGate V c (ix3 n ch (0 : Fin 1)) := by
  obtain ⟨t, ht⟩ := scale_mem n ch s
  exact (dat1 V c).arrAt_apply_of_mem (2 : Fin 3) (scaleG V c) (fun t _ => scale_flushed V c t) cfg1.N t (ix3 n ch s) t.isLt
    (flush1_2 t) ht

end Cert.ReferenceIdeal.Hand

end
-- ==== Proof.RChain.lean ====
/-
  The contents of the two-pass program's buffers at each boundary of @main, as a chain of valuations: the launch
  memory; after the flattening of the volume; after the pooling region (its arrays at what its pipeline leaves); after
  the twenty host operations that turn sums into gates; after the scaling region; after the final reshape.
-/
import proofs.«168272_g2000702401841808_pallasbulk_415_2_alg».proof.Proof.RPool
import proofs.«168272_g2000702401841808_pallasbulk_415_2_alg».proof.Proof.RScale
import Idealize.ShloMosaic.Lib.Pipeline.FrameSuffix

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After the flattening of the volume: what the pooling region is entered with. -/
abbrev W1 (c : Dev nD) : Valuation τ sig (Elt F) := StableHlo.after hostOps0 (W0 m c)
/-- The same read at the TensorCore's references. -/
abbrev V1 (c : Dev nD) (b : Ref sig .tc) : Buf (Elt F) ((c : Thread nD τ).loc b) := W1 m c b
/-- After the pooling region: its arrays at what its pipeline leaves, every other buffer as entered. -/
def W2 (c : Dev nD) : Valuation τ sig (Elt F) :=
  Pipeline.withArrays spec0 c (W1 m c) fun w => (dat0 (V1 m) c).arrAt w cfg0.N
/-- After the host operations between the regions: what the scaling region is entered with. -/
abbrev W3 (c : Dev nD) : Valuation τ sig (Elt F) := StableHlo.after hostOps1 (W2 m c)
/-- The same read at the TensorCore's references. -/
abbrev V3 (c : Dev nD) (b : Ref sig .tc) : Buf (Elt F) ((c : Thread nD τ).loc b) := W3 m c b
/-- After the scaling region: its arrays at what its pipeline leaves, every other buffer as entered. -/
def W4 (c : Dev nD) : Valuation τ sig (Elt F) :=
  Pipeline.withArrays spec1 c (W3 m c) fun w => (dat1 (V3 m) c).arrAt w cfg1.N
/-- After the final reshape: the contents @main returns with. -/
abbrev W5 (c : Dev nD) : Valuation τ sig (Elt F) := StableHlo.after hostOps2 (W4 m c)

end Cert.ReferenceIdeal.Hand

end
-- ==== Proof.RLaunch.lean ====
/-
  The run of the two-pass program's @main as five segments launched together: the flattening of the volume, the
  pooling region, the twenty host operations that turn sums into gates, the scaling region, the final reshape.
  Between two segments a core holds every unscoped buffer at the chain's valuation for that boundary, its generator
  register at some state, and owes nothing. The run therefore ends with every unscoped buffer at the last valuation,
  which is then read back: each argument as launched, the result the reshape of what the scaling region leaves.
-/
import proofs.«168272_g2000702401841808_pallasbulk_415_2_alg».proof.Proof.RChain
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a segment changes

A region changes its windows' arrays and no other buffer; a host stretch changes the buffers its operations write. -/

/-- After the pooling region each of its arrays holds what its pipeline leaves there, -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- and a buffer that is none of them what it held when the region was entered. -/
theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the scaling region each of its arrays holds what its pipeline leaves there, -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- and a buffer that is none of them what it held when the region was entered. -/
theorem W4_off (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- The flattening writes the flat volume only. -/
theorem W1_off (c : Dev nD) (r : Ref sig .tc) (h : r ≠ main_v0) :
    W1 m c (Proc.devRef .tc r) = W0 m c (Proc.devRef .tc r) :=
  StableHlo.reshape_result_ne main_arg0 main_v0 _ _ _ _ (W0 m c) h
/-- The final reshape writes the result only. -/
theorem W5_off (c : Dev nD) (r : Ref sig .tc) (h : r ≠ main_v19) :
    W5 m c (Proc.devRef .tc r) = W4 m c (Proc.devRef .tc r) :=
  StableHlo.reshape_result_ne main_v18 main_v19 _ _ _ _ (W4 m c) h

/-- The buffers the twenty operations between the regions write, in the operations' order. -/
abbrev written1 : List (Ref sig .tc) :=
  [main_v2, main_cst, main_v3, main_v4, main_v5, main_v6, main_cst_0, main_v7, main_v8, main_v9, main_v10, main_v11,
   main_v12, main_cst_1, main_v13, main_v14, main_cst_2, main_v15, main_v16, main_v17]
/-- Each of the twenty writes one buffer, and it is on that list. -/
theorem hostOps1_writes : (hostOps1 : List (HloOp τ sig (Elt F))).Forall fun op =>
    op.writes ⊆ (written1.map (Proc.devRef (τ := τ) .tc)).toFinset := by
  simp only [List.Forall, StableHlo.nullary_writes, StableHlo.unary_writes, StableHlo.binary_writes,
    StableHlo.reshape_writes, Finset.singleton_subset_iff, List.mem_toFinset]
  repeat' apply And.intro
  all_goals exact List.mem_map_of_mem (by decide)
/-- A buffer off that list is, after the twenty operations, as the pooling region left it. -/
theorem W3_off (c : Dev nD) (r : Ref sig .tc) (h : r ∉ written1) :
    W3 m c (Proc.devRef .tc r) = W2 m c (Proc.devRef .tc r) :=
  StableHlo.after_of_writes_sub hostOps1 _ hostOps1_writes h

/-! ## The last valuation read back -/

/-- No segment writes the volume argument: it ends as launched. -/
theorem W5_main_arg0 (c : Dev nD) : W5 m c (Proc.devRef .tc main_arg0) = m ((c : Thread nD τ).loc main_arg0) :=
  (W5_off m c main_arg0 (by decide)).trans <| (W4_off m c main_arg0 (by decide)).trans <|
    (W3_off m c main_arg0 (by decide)).trans <| (W2_off m c main_arg0 (by decide)).trans <| W1_off m c main_arg0 (by decide)
/-- No segment writes the first layer's weights: they end as launched. -/
theorem W5_main_arg1 (c : Dev nD) : W5 m c (Proc.devRef .tc main_arg1) = m ((c : Thread nD τ).loc main_arg1) :=
  (W5_off m c main_arg1 (by decide)).trans <| (W4_off m c main_arg1 (by decide)).trans <|
    (W3_off m c main_arg1 (by decide)).trans <| (W2_off m c main_arg1 (by decide)).trans <| W1_off m c main_arg1 (by decide)
/-- No segment writes the second layer's weights: they end as launched. -/
theorem W5_main_arg2 (c : Dev nD) : W5 m c (Proc.devRef .tc main_arg2) = m ((c : Thread nD τ).loc main_arg2) :=
  (W5_off m c main_arg2 (by decide)).trans <| (W4_off m c main_arg2 (by decide)).trans <|
    (W3_off m c main_arg2 (by decide)).trans <| (W2_off m c main_arg2 (by decide)).trans <| W1_off m c main_arg2 (by decide)

/-- The result is the five-axis reshape of the flat array the scaling region leaves. -/
theorem W5_main_v19 (c : Dev nD) :
    W5 m c (Proc.devRef .tc main_v19)
      = shapeCast S8x128x16x32x32 ((dat1 (V3 m) c).arrAt 2 cfg1.N) shapeCasts_S8x128x16384_S8x128x16x32x32 := by
  have h18 : W4 m c (Proc.devRef .tc main_v18) = (dat1 (V3 m) c).arrAt 2 cfg1.N := W4_arr m c 2
  show StableHlo.after hostOps2 (W4 m c) _ = _
  after_results
  rw [h18]
  rfl

/-! ## The proof data of both pipelines, and what a core holds between segments -/

/-- The prefetched tables' admissible contents: neither pipeline has a table. -/
abbrev adm : (p : Fin 2) → (pcfgs (F := F) p).Adm := fun p => (cfgs p).toPCfg_adm

/-- Both pipelines' proof data, each at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core owes another anything, so no level is assigned. -/
abbrev L : GSem nD τ sig → Finset Unit := fun _ => ∅
abbrev lv : GSem nD τ sig → Unit → ℕ := fun _ _ => 0

/-- Beside its buffers a core carries its generator register, at some state, and its dues, which are none. -/
abbrev beside (c : Dev nD) : sProp 𝕄 :=
  iprop((∃ r, prngReg c r) ∗ ∃ W, owes (c : Thread nD τ) (0 : CellTallies nD τ sig Unit) W)
/-- A core between two segments: every unscoped buffer at the valuation `W`, and what it carries beside them. -/
abbrev between (W : Valuation τ sig (Elt F)) (c : Dev nD) : sProp 𝕄 :=
  iprop(StableHlo.held (c : Thread nD τ) (Pipeline.ucRefs τ sig) W ∗ beside c)

/-- An unscoped reference of the TensorCore is among the buffers a core holds between segments. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The host stretches -/

/-- No operation of the three stretches allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- A stretch of host operations run from the valuation `W`: it takes `between (W c)` to `between` at the valuation
    after the operations. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-! ## A region's dues

Neither region's body owes anything at any point, so the dues a core carries between segments, none, are the dues its
region's proof data name at the first point and at the last. -/

/-- Owing nothing is owing what proof data name at a point where they name no dues and bound nothing. -/
theorem dues_in {cfg : Cfg sig Λ₀} {c : Dev nD} (d : Dat τ (Elt F) Unit ℕ (UR sig nD τ) ℕ cfg c) (t : Fin (cfg.N + 1))
    (h0 : d.owed t = 0) (hB : ∀ x, x ∈ d.bound () t) :
    (iprop(∃ W, owes (c : Thread nD τ) (0 : CellTallies nD τ sig Unit) W) : sProp 𝕄) ⊢ d.owesAt () t := by
  unfold Dat.owesAt Pipeline.owesWithin
  rw [h0]
  iintro ⟨%W, H⟩
  iexists W
  isplitr; · ipureintro; exact fun x _ => hB x
  iexact H
/-- And back. -/
theorem dues_out {cfg : Cfg sig Λ₀} {c : Dev nD} (d : Dat τ (Elt F) Unit ℕ (UR sig nD τ) ℕ cfg c) (t : Fin (cfg.N + 1))
    (h0 : d.owed t = 0) :
    (d.owesAt () t : sProp 𝕄) ⊢ iprop(∃ W, owes (c : Thread nD τ) (0 : CellTallies nD τ sig Unit) W) := by
  unfold Dat.owesAt Pipeline.owesWithin
  rw [h0]
  iintro ⟨%W, -, H⟩
  iexists W
  iexact H

/-! ## A region's arrays out of the unscoped buffers, and back

At a region's entry the core's unscoped buffers are the region's arrays, at the contents its proof data start from,
and the other unscoped buffers; at its exit the arrays at what the pipeline leaves and those other buffers, untouched,
are the unscoped buffers at the next valuation of the chain. -/

set_option backward.isDefEq.respectTransparency.types false in
theorem split0 (c : Dev nD) :
    (StableHlo.held (c : Thread nD τ) (Pipeline.ucRefs τ sig) (W1 m c) : sProp 𝕄)
      ⊢ iprop((pdats m 0 c).arrays ((pdats m 0 c).arrAt · 0)
          ∗ Pipeline.unscopedRest (Ix := Unit) (Name := ℕ) (U := UR sig nD τ) (Lvl := ℕ) spec0 c (V1 m c)) := by
  have h := Pipeline.arrays_of_unscopedBufs (p := 0) (pcfgs (F := F)) adm (pdats m) launch0.win launch0.arr_whole c
    ((pdats m 0 c).share_full fun _ => rfl) (V1 m c) fun _ => rfl
  rw [Pipeline.unscopedBufs_held] at h
  exact h

set_option backward.isDefEq.respectTransparency.types false in
theorem join0 (c : Dev nD) :
    iprop((pdats m 0 c).arrays ((pdats m 0 c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V1 m c) (fun b => W2 m c b) ((pdats m 0 c).arrAt · cfg0.N) (fun w => (W2_arr m c w).symm)
    (fun b hb => W2_off m c b fun w e => hb (Finset.mem_image.mpr ⟨w, Finset.mem_univ _, e⟩))
  rw [Pipeline.unscopedBufs_held] at h
  exact h

set_option backward.isDefEq.respectTransparency.types false in
theorem split1 (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := by
  have h := Pipeline.arrays_of_unscopedBufs (p := 1) (pcfgs (F := F)) adm (pdats m) launch1.win launch1.arr_whole c
    ((pdats m 1 c).share_full fun _ => rfl) (V3 m c) fun _ => rfl
  rw [Pipeline.unscopedBufs_held] at h
  exact h

set_option backward.isDefEq.respectTransparency.types false in
theorem join1 (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V3 m c) (fun b => W4 m c b) ((pdats m 1 c).arrAt · cfg1.N) (fun w => (W4_arr m c w).symm)
    (fun b hb => W4_off m c b fun w e => hb (Finset.mem_image.mpr ⟨w, Finset.mem_univ _, e⟩))
  rw [Pipeline.unscopedBufs_held] at h
  exact h

/-! ## The regions as segments

Each region is entered from `between` at its entry valuation and left at `between` at the next one. Its arrays go in
and come back by the split and the join above; the generator register goes into the region's invariant, beside the
scoped buffers no window stages, and comes back out of it; the dues, none, are the proof data's at both ends; the
other unscoped buffers pass the region by. Neither kernel has a semaphore of its own or a prefetched table. -/

set_option backward.isDefEq.respectTransparency.types false in
/-- The pooling region: from every unscoped buffer at `W1` to every unscoped buffer at `W2`. -/
def pool : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := between (W1 m c) c
  post c := between (W2 m c) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hbufs, Hreg, Hdue⟩, -, -⟩
    ihave Hs := split0 m c $$ Hbufs
    icases Hs with ⟨Harr, Hrest⟩
    ihave Hd := dues_in (pdats m 0 c) 0 rfl (fun _ => Or.inl trivial) $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    iintro ⟨Harr, Hd, Hreg, Hrest⟩
    ihave Hbufs := join0 m c $$ [Harr Hrest]
    · isplitl [Harr] <;> iassumption
    ihave Hdue := dues_out (pdats m 0 c) (Fin.last _) rfl $$ Hd
    imodintro
    isplitl [Hbufs]; · iexact Hbufs
    isplitl [Hreg]; · iexact Hreg
    iexact Hdue

set_option backward.isDefEq.respectTransparency.types false in
/-- The scaling region: from every unscoped buffer at `W3` to every unscoped buffer at `W4`. -/
def scale : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := between (W3 m c) c
  post c := between (W4 m c) c
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    iintro ⟨⟨Hbufs, Hreg, Hdue⟩, -, -⟩
    ihave Hs := split1 m c $$ Hbufs
    icases Hs with ⟨Harr, Hrest⟩
    ihave Hd := dues_in (pdats m 1 c) 0 rfl (fun _ => Or.inl trivial) $$ Hdue
    imodintro
    isplitl [Harr]; · iexact Harr
    isplitr
    · unfold Pipeline.prefHeld; rw [show (Finset.univ : Finset (Fin 0)) = ∅ from rfl, BI.bigSep_empty]; iempintro
    isplitl [Hd]; · iexact Hd
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    iintro ⟨Harr, Hd, Hreg, Hrest⟩
    ihave Hbufs := join1 m c $$ [Harr Hrest]
    · isplitl [Harr] <;> iassumption
    ihave Hdue := dues_out (pdats m 1 c) (Fin.last _) rfl $$ Hd
    imodintro
    isplitl [Hbufs]; · iexact Hbufs
    isplitl [Hreg]; · iexact Hreg
    iexact Hdue

/-! ## @main as five segments, and the launch -/

/-- @main's segments in order: a stretch from the launch contents, the pooling region, a stretch from what it leaves,
    the scaling region, a stretch from what that leaves. -/
abbrev segs : List (Pipeline.Seg (pcfgs (F := F)) adm (pdats m) () defs₀ Variants.none L lv) :=
  [ .host (stretch hostOps0 hostOps0_sub hostOps0_fresh (W0 m)),
    .region (pool m),
    .host (stretch hostOps1 hostOps1_sub hostOps1_fresh (W2 m)),
    .region (scale m),
    .host (stretch hostOps2 hostOps2_sub hostOps2_fresh (W4 m)) ]

/-- @main is the run of those segments. -/
theorem main_run (c : Dev nD) : main (F := F) c = Pipeline.Seg.run (segs m) :=
  main_segs adm (pdats m) () Variants.none L lv _ _ _ (pool m) (scale m) rfl rfl rfl c

/-- What the launch deals a core — its unscoped buffers at the launch contents, its generator register, nothing owed —
    is `between` at the first valuation. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts L lv)
      ⊢ |={Set.univ}=> between (W0 m c) c := by
  rw [show unscopedBufs c (fun b => m ((c : Thread nD τ).loc b))
      = StableHlo.held (c : Thread nD τ) (Pipeline.ucRefs τ sig) (W0 m c) from Pipeline.unscopedBufs_held c (W0 m c)]
  iintro ⟨⟨Hbufs, -, Hdue, -, Hreg, -⟩, -⟩
  imodintro
  isplitl [Hbufs]; · iexact Hbufs
  isplitl [Hreg]; · iexists _; iexact Hreg
  iexists ∅; iexact Hdue

/-- Every unscoped buffer held at the last valuation, beside a final state's interpretation: that state's memory
    has each of them at the last valuation. -/
theorem last_state (c : Dev nD) (s' : Phys nD τ sig (Elt F)) :
    iprop(StableHlo.held (c : Thread nD τ) (Pipeline.ucRefs τ sig) (W5 m c) ∗ SI s')
      ⊢ |={Set.univ}=> (iprop(⌜∀ b ∈ Pipeline.ucRefs τ sig, s'.mem.mem ((c : Thread nD τ).1, b) = W5 m c b⌝ ∗ SI s') : sProp 𝕄) := by
  unfold StableHlo.held
  iintro ⟨Hbufs, HSI⟩
  imodintro
  iapply (pointsTo_read_all (Pipeline.ucRefs τ sig) (fun b => ((c : Thread nD τ).1, b)) (W5 m c) s')
  isplitl [Hbufs] <;> iassumption

/-- The last stretch ends at `between` at the last valuation: the buffers there, and nothing owed; the generator
    register is not needed further. -/
theorem last_link (c : Dev nD) :
    between (F := F) (W5 m c) c
      ⊢ iprop(StableHlo.held (c : Thread nD τ) (Pipeline.ucRefs τ sig) (W5 m c)
          ∗ ∃ W, owes (c : Thread nD τ) (0 : CellTallies nD τ sig Unit) W) := by
  iintro ⟨Hbufs, -, Hdue⟩
  isplitl [Hbufs]; · iexact Hbufs
  iexact Hdue

set_option backward.isDefEq.respectTransparency.types false in
/-- THE RUN. From any memory with zero counters every weakly fair execution of @main on the TensorCores terminates,
    and in every final state each unscoped buffer of each core holds what the last valuation of the chain names. -/
theorem run_named : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => between (W0 m c) c)
    (Tₙ := fun c => StableHlo.held (c : Thread nD τ) (Pipeline.ucRefs τ sig) (W5 m c))
    (hch := ⟨fun _ => .rfl, fun _ => .rfl, fun _ => .rfl, fun _ => .rfl, fun _ => .rfl, fun c => last_link m c⟩)
    (hinit := Pipeline.initEach L lv fun c => first_state m ρ c)
    (QY := fun c s => ∀ b ∈ Pipeline.ucRefs τ sig, s.mem ((c : Thread nD τ).1, b) = W5 m c b)
    (hfin := fun c s' => last_state m c s')
    (hQ := fun s h => h)

/-- THE FRAME: every execution terminates with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩)
    (fun r h c =>
      ⟨(h c _ (mem_uc main_arg0 (by decide))).trans (W5_main_arg0 m c),
       (h c _ (mem_uc main_arg1 (by decide))).trans (W5_main_arg1 m c),
       (h c _ (mem_uc main_arg2 (by decide))).trans (W5_main_arg2 m c)⟩)
    (run_named m ρ)

end Cert.ReferenceIdeal.Hand

end
-- ==== Proof.RGates.lean ====
/-
  The gates the two-pass program hands its scaling region, as the specification's function of the three argument
  arrays.  Between the two regions twenty host operations turn the sums array into the gates: the sums array loses its
  unit axis and is multiplied by the word 2⁻¹⁴ (the means); the means meet the transposed first weight matrix in an inner
  product over the 128 channels and are rectified against the zero word (the hidden units); the hidden units meet the
  transposed second weight matrix in an inner product over the 16 units; and one over one plus the exponential of the
  negated result is, on the extended reals, the logistic function by its definition.  Read at an index each stage is
  the specification's: a reshape keeps the row-major position, a transposed matrix at (c, k) is the matrix at (k, c), a
  broadcast scalar is that scalar everywhere, and an inner product with one contracted axis is the sum over that axis
  of the products.  The volume itself reaches both regions as the launch contents reshaped to batch × channel ×
  position: one reshape writes it, the pooling region only reads it, and no later host operation writes it.
-/
import proofs.«168272_g2000702401841808_pallasbulk_415_2_alg».proof.Proof.Spec
import proofs.«168272_g2000702401841808_pallasbulk_415_2_alg».proof.Proof.RChain
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL.Sem
open Cert.ReferenceIdeal Cert.ReferenceIdeal.Gen

/-! ### The three stages between the regions, each as one function of what it reads -/

/-- The means as the host operations compute them: the sums array without its unit axis, times the broadcast word 2⁻¹⁴. -/
def hostMean (sums : FVec Ideal S8x128x1 .f32) : FVec Ideal S8x128 .f32 :=
  mulf (shapeCast S8x128 sums Facts₀.shapeCasts_S8x128x1_S8x128)
    (broadcastInDim S8x128 ![] Facts₀.bcast_S_S8x128 (constant (F := Ideal) S_ .f32 0x38800000#32))

/-- The hidden units as the host operations compute them: the means against the transposed first weight matrix,
    rectified against the broadcast zero word. -/
def hostHidden (mean : FVec Ideal S8x128 .f32) (w1 : FVec Ideal S16x128 .f32) : FVec Ideal S8x16 .f32 :=
  maximumf (Host.dotGeneral (F := Ideal) dot_S8x128_S128x16_S8x16_1_0_0_1_n_n none mean
      (transpose S128x16 [1, 0] w1 Facts₀.transposes_S16x128_S128x16_1_0))
    (broadcastInDim S8x16 ![] Facts₀.bcast_S_S8x16 (constant (F := Ideal) S_ .f32 0x00000000#32))

/-- The gates as the host operations compute them: the hidden units against the transposed second weight matrix,
    negated, exponentiated, one added, and one divided by that. -/
def hostGate (hid : FVec Ideal S8x16 .f32) (w2 : FVec Ideal S128x16 .f32) : FVec Ideal S8x128 .f32 :=
  Host.divf (F := Ideal) (broadcastInDim S8x128 ![] Facts₀.bcast_S_S8x128 (constant (F := Ideal) S_ .f32 0x3F800000#32))
    (addf (broadcastInDim S8x128 ![] Facts₀.bcast_S_S8x128 (constant (F := Ideal) S_ .f32 0x3F800000#32))
      (Host.exp (F := Ideal) (Host.negf (F := Ideal)
        (Host.dotGeneral (F := Ideal) dot_S8x16_S16x128_S8x128_1_0_0_1_n_n none hid
          (transpose S16x128 [1, 0] w2 Facts₀.transposes_S128x16_S16x128_1_0)))))

/-! ### The two inner products at an index

Each `dot_general` contracts axis 1 of its left operand with axis 0 of its right one and has no batch axis: at result
index `(a, b)` and contraction position `q` the left operand is read at `(a, q)` and the right one at `(q, b)`. -/

theorem dotA_lhs_0 (j : S8x16.Idx) (q : dot_S8x128_S128x16_S8x16_1_0_0_1_n_n.contr.Idx) :
    (dot_S8x128_S128x16_S8x16_1_0_0_1_n_n.lhsIdx j q 0).val = (j 0).val := by
  simp [DotDims.lhsIdx, dot_S8x128_S128x16_S8x16_1_0_0_1_n_n]; rfl
theorem dotA_lhs_1 (j : S8x16.Idx) (q : dot_S8x128_S128x16_S8x16_1_0_0_1_n_n.contr.Idx) :
    (dot_S8x128_S128x16_S8x16_1_0_0_1_n_n.lhsIdx j q 1).val = (q ⟨0, by decide⟩).val :=
  dot_S8x128_S128x16_S8x16_1_0_0_1_n_n.lhsIdx_val_of_single (cl := 1) rfl j q
theorem dotA_rhs_0 (j : S8x16.Idx) (q : dot_S8x128_S128x16_S8x16_1_0_0_1_n_n.contr.Idx) :
    (dot_S8x128_S128x16_S8x16_1_0_0_1_n_n.rhsIdx j q 0).val = (q ⟨0, by decide⟩).val :=
  dot_S8x128_S128x16_S8x16_1_0_0_1_n_n.rhsIdx_val_of_single (cr := 0) rfl j q
theorem dotA_rhs_1 (j : S8x16.Idx) (q : dot_S8x128_S128x16_S8x16_1_0_0_1_n_n.contr.Idx) :
    (dot_S8x128_S128x16_S8x16_1_0_0_1_n_n.rhsIdx j q 1).val = (j 1).val := by
  simp [DotDims.rhsIdx, dot_S8x128_S128x16_S8x16_1_0_0_1_n_n]; rfl

/-- The first inner product: `[8,128] · [128,16]` at `(n, k)` is the sum over the 128 channels. -/
theorem dotA_apply (l : FVec Ideal S8x128 .f32) (r : FVec Ideal S128x16 .f32) (n : Fin 8) (k : Fin 16) :
    Host.dotGeneral (F := Ideal) dot_S8x128_S128x16_S8x16_1_0_0_1_n_n none l r (ix2 n k)
      = ∑ c : Fin 128, l (ix2 n c) * r (ix2 c k) := by
  show FloatOps.dotGeneral dot_S8x128_S128x16_S8x16_1_0_0_1_n_n none .single l r (ix2 n k) = _
  rw [Ideal.dotGeneral_apply, ← Equiv.sum_comp (contrEquiv1 dot_S8x128_S128x16_S8x16_1_0_0_1_n_n 128 rfl rfl).symm]
  refine Finset.sum_congr rfl fun c _ => ?_
  have hc := contrEquiv1_symm_val dot_S8x128_S128x16_S8x16_1_0_0_1_n_n 128 rfl rfl c
  congr 1
  · exact congrArg l (Shape.idx_ext₂ (dotA_lhs_0 _ _) ((dotA_lhs_1 _ _).trans hc))
  · exact congrArg r (Shape.idx_ext₂ ((dotA_rhs_0 _ _).trans hc) (dotA_rhs_1 _ _))

theorem dotB_lhs_0 (j : S8x128.Idx) (q : dot_S8x16_S16x128_S8x128_1_0_0_1_n_n.contr.Idx) :
    (dot_S8x16_S16x128_S8x128_1_0_0_1_n_n.lhsIdx j q 0).val = (j 0).val := by
  simp [DotDims.lhsIdx, dot_S8x16_S16x128_S8x128_1_0_0_1_n_n]; rfl
theorem dotB_lhs_1 (j : S8x128.Idx) (q : dot_S8x16_S16x128_S8x128_1_0_0_1_n_n.contr.Idx) :
    (dot_S8x16_S16x128_S8x128_1_0_0_1_n_n.lhsIdx j q 1).val = (q ⟨0, by decide⟩).val :=
  dot_S8x16_S16x128_S8x128_1_0_0_1_n_n.lhsIdx_val_of_single (cl := 1) rfl j q
theorem dotB_rhs_0 (j : S8x128.Idx) (q : dot_S8x16_S16x128_S8x128_1_0_0_1_n_n.contr.Idx) :
    (dot_S8x16_S16x128_S8x128_1_0_0_1_n_n.rhsIdx j q 0).val = (q ⟨0, by decide⟩).val :=
  dot_S8x16_S16x128_S8x128_1_0_0_1_n_n.rhsIdx_val_of_single (cr := 0) rfl j q
theorem dotB_rhs_1 (j : S8x128.Idx) (q : dot_S8x16_S16x128_S8x128_1_0_0_1_n_n.contr.Idx) :
    (dot_S8x16_S16x128_S8x128_1_0_0_1_n_n.rhsIdx j q 1).val = (j 1).val := by
  simp [DotDims.rhsIdx, dot_S8x16_S16x128_S8x128_1_0_0_1_n_n]; rfl

/-- The second inner product: `[8,16] · [16,128]` at `(n, ch)` is the sum over the 16 hidden units. -/
theorem dotB_apply (l : FVec Ideal S8x16 .f32) (r : FVec Ideal S16x128 .f32) (n : Fin 8) (ch : Fin 128) :
    Host.dotGeneral (F := Ideal) dot_S8x16_S16x128_S8x128_1_0_0_1_n_n none l r (ix2 n ch)
      = ∑ k : Fin 16, l (ix2 n k) * r (ix2 k ch) := by
  show FloatOps.dotGeneral dot_S8x16_S16x128_S8x128_1_0_0_1_n_n none .single l r (ix2 n ch) = _
  rw [Ideal.dotGeneral_apply, ← Equiv.sum_comp (contrEquiv1 dot_S8x16_S16x128_S8x128_1_0_0_1_n_n 16 rfl rfl).symm]
  refine Finset.sum_congr rfl fun k _ => ?_
  have hk := contrEquiv1_symm_val dot_S8x16_S16x128_S8x128_1_0_0_1_n_n 16 rfl rfl k
  congr 1
  · exact congrArg l (Shape.idx_ext₂ (dotB_lhs_0 _ _) ((dotB_lhs_1 _ _).trans hk))
  · exact congrArg r (Shape.idx_ext₂ ((dotB_rhs_0 _ _).trans hk) (dotB_rhs_1 _ _))

/-! ### The stages at an index -/

/-- A mean is the sums array's entry times 2⁻¹⁴: the reshape `[8,128,1] → [8,128]` keeps the row-major position. -/
theorem hostMean_apply (sums : FVec Ideal S8x128x1 .f32) (n : Fin 8) (ch : Fin 128) :
    hostMean sums (ix2 n ch) = sums (ix3 n ch (0 : Fin 1)) * Cert.SqEx.invS := by
  unfold hostMean
  rw [mulf_apply, broadcastInDim_scalar_apply, constant_apply,
    shapeCast_apply sums Facts₀.shapeCasts_S8x128x1_S8x128 (ix2 n ch) (ix3 n ch (0 : Fin 1))
      (by rw [Shape.rowMajor_val_three, Shape.rowMajor_val_two]; simp)]

/-- A hidden unit is the rectified sum over the channels of mean times weight: the transposed first weight matrix at
    `(c, k)` is the matrix at `(k, c)`. -/
theorem hostHidden_apply (mean : FVec Ideal S8x128 .f32) (w1 : FVec Ideal S16x128 .f32) (n : Fin 8) (k : Fin 16) :
    hostHidden mean w1 (ix2 n k)
      = max (∑ c : Fin 128, mean (ix2 n c) * w1 (ix2 k c)) (Ideal.ofBits .f32 0x00000000#32) := by
  unfold hostHidden
  rw [maximumf_apply, broadcastInDim_scalar_apply, constant_apply, dotA_apply]
  refine congrArg (fun z : EReal => max z (Ideal.ofBits .f32 0x00000000#32)) (Finset.sum_congr rfl fun c _ => ?_)
  exact congrArg (fun z : EReal => mean (ix2 n c) * z) (transpose_ix2_apply w1 _ c k)

/-- A gate is the logistic function of the sum over the hidden units of unit times weight: on the extended reals the
    logistic function is by definition one over one plus the exponential of the negated argument, and the word
    0x3F800000 is one. -/
theorem hostGate_apply (hid : FVec Ideal S8x16 .f32) (w2 : FVec Ideal S128x16 .f32) (n : Fin 8) (ch : Fin 128) :
    hostGate hid w2 (ix2 n ch) = Ideal.logistic (∑ k : Fin 16, hid (ix2 n k) * w2 (ix2 ch k)) := by
  unfold hostGate
  rw [hostDivf_apply, addf_apply, broadcastInDim_scalar_apply, constant_apply, Ideal.ofBits_one_f32]
  show Ideal.div 1 (1 + Ideal.exp (-(Host.dotGeneral (F := Ideal) dot_S8x16_S16x128_S8x128_1_0_0_1_n_n none hid
    (transpose S16x128 [1, 0] w2 Facts₀.transposes_S128x16_S16x128_1_0) (ix2 n ch)))) = _
  rw [dotB_apply]
  refine congrArg Ideal.logistic (Finset.sum_congr rfl fun k _ => ?_)
  exact congrArg (fun z : EReal => hid (ix2 n k) * z) (transpose_ix2_apply w2 _ k ch)

/-- The three stages together are the specification's gate of any volume whose channel sums the sums array holds.
    The factors of each product stand in the other order in the specification; multiplication on the extended reals is
    commutative. -/
theorem hostGate_eq_gate (sums : FVec Ideal S8x128x1 .f32) (x : FVec Ideal S8x128x16384 .f32)
    (w1 : FVec Ideal S16x128 .f32) (w2 : FVec Ideal S128x16 .f32)
    (hs : ∀ (n : Fin 8) (ch : Fin 128), sums (ix3 n ch (0 : Fin 1)) = ∑ s : Fin 16384, x (ix3 n ch s))
    (n : Fin 8) (ch : Fin 128) :
    hostGate (hostHidden (hostMean sums) w1) w2 (ix2 n ch) = Cert.SqEx.gate x w1 w2 n ch := by
  rw [hostGate_apply]
  unfold Cert.SqEx.gate
  refine congrArg Ideal.logistic (Finset.sum_congr rfl fun k _ => ?_)
  rw [hostHidden_apply, mul_comm]
  unfold Cert.SqEx.hidden
  refine congrArg (fun z : EReal => w2 (ix2 ch k) * max z (Ideal.ofBits .f32 0x00000000#32)) (Finset.sum_congr rfl fun cc _ => ?_)
  rw [hostMean_apply, mul_comm, hs]
  rfl

variable (m : (ℓ : Loc nD τ sig) → Buf (Elt Ideal) ℓ)

/-! ### The buffers the stages read, walked back to the launch contents -/

/-- The pooling region is entered with the volume reshaped to batch × channel × position. -/
theorem V1_main_v0 (c : Dev nD) :
    (V1 m c main_v0 : FVec Ideal S8x128x16384 .f32)
      = shapeCast S8x128x16384 (m ((c : Thread nD τ).loc main_arg0)) Facts₀.shapeCasts_S8x128x16x32x32_S8x128x16384 := by
  show StableHlo.after hostOps0 (W0 m c) (Proc.devRef .tc main_v0) = _
  after_results
  rfl

/-- The pooling region only reads the reshaped volume: it leaves it as entered. -/
theorem W2_main_v0 (c : Dev nD) : W2 m c (Proc.devRef .tc main_v0) = W1 m c (Proc.devRef .tc main_v0) := by
  unfold W2
  exact (Pipeline.withArrays_arr spec0 launch0.win.arr_inj c _ _ 0).trans
    (((dat0 (V1 m) c).arrAt_in 0 rfl _).trans (A_eq0 (V1 m) c 0))

/-- The sums array after the pooling region is what its pipeline leaves. -/
theorem W2_main_v1 (c : Dev nD) : W2 m c (Proc.devRef .tc main_v1) = poolOut (V1 m) c := by
  unfold W2
  exact Pipeline.withArrays_arr spec0 launch0.win.arr_inj c _ _ 1

/-- Neither the first reshape nor the pooling region touches the first weight matrix. -/
theorem W2_main_arg1 (c : Dev nD) : W2 m c (Proc.devRef .tc main_arg1) = m ((c : Thread nD τ).loc main_arg1) := by
  unfold W2
  refine (Pipeline.withArrays_of_ne spec0 c _ _ main_arg1 (by decide)).trans ?_
  show StableHlo.after hostOps0 (W0 m c) (Proc.devRef .tc main_arg1) = _
  after_results

/-- Nor the second. -/
theorem W2_main_arg2 (c : Dev nD) : W2 m c (Proc.devRef .tc main_arg2) = m ((c : Thread nD τ).loc main_arg2) := by
  unfold W2
  refine (Pipeline.withArrays_of_ne spec0 c _ _ main_arg2 (by decide)).trans ?_
  show StableHlo.after hostOps0 (W0 m c) (Proc.devRef .tc main_arg2) = _
  after_results

/-- The scaling region is entered with the same reshaped volume: none of the twenty host operations writes it. -/
theorem V3_main_v0 (c : Dev nD) :
    (V3 m c main_v0 : FVec Ideal S8x128x16384 .f32)
      = shapeCast S8x128x16384 (m ((c : Thread nD τ).loc main_arg0)) Facts₀.shapeCasts_S8x128x16x32x32_S8x128x16384 := by
  have h : V3 m c main_v0 = W2 m c (Proc.devRef .tc main_v0) := by
    show StableHlo.after hostOps1 (W2 m c) (Proc.devRef .tc main_v0) = _
    after_results
  exact h.trans ((W2_main_v0 m c).trans (V1_main_v0 m c))

/-- The gates array entering the scaling region is the three stages applied to the sums array and the two weight
    matrices as the pooling region leaves them, with a unit axis added. -/
theorem V3_main_v17_eq (c : Dev nD) :
    (V3 m c main_v17 : FVec Ideal S8x128x1 .f32)
      = shapeCast S8x128x1
          (hostGate (hostHidden (hostMean (W2 m c (Proc.devRef .tc main_v1))) (W2 m c (Proc.devRef .tc main_arg1)))
            (W2 m c (Proc.devRef .tc main_arg2)))
          Facts₀.shapeCasts_S8x128_S8x128x1 := by
  show StableHlo.after hostOps1 (W2 m c) (Proc.devRef .tc main_v17) = _
  after_results
  rfl

/-! ### The gates -/

/-- The three argument arrays at launch, at their literal types. -/
abbrev argX (c : Dev nD) : FVec Ideal S8x128x16x32x32 .f32 := m ((c : Thread nD τ).loc main_arg0)
abbrev argW1 (c : Dev nD) : FVec Ideal S16x128 .f32 := m ((c : Thread nD τ).loc main_arg1)
abbrev argW2 (c : Dev nD) : FVec Ideal S128x16 .f32 := m ((c : Thread nD τ).loc main_arg2)
/-- The volume flattened to batch × channel × position. -/
abbrev argXflat (c : Dev nD) : FVec Ideal S8x128x16384 .f32 :=
  shapeCast S8x128x16384 (argX m c) Facts₀.shapeCasts_S8x128x16x32x32_S8x128x16384

/-- Entry `(n, ch, 0)` of the gates array entering the scaling region is the specification's gate of batch element
    `n` and channel `ch`, computed from the launch contents of the three arguments: the sums array holds the channel
    sums of the flattened volume, and the added unit axis keeps the row-major position. -/
theorem V3_main_v17_apply (c : Dev nD) (n : Fin 8) (ch : Fin 128) :
    (V3 m c main_v17 : FVec Ideal S8x128x1 .f32) (ix3 n ch (0 : Fin 1))
      = Cert.SqEx.gate (argXflat m c) (argW1 m c) (argW2 m c) n ch := by
  rw [V3_main_v17_eq, W2_main_arg1, W2_main_arg2,
    shapeCast_apply _ Facts₀.shapeCasts_S8x128_S8x128x1 (ix3 n ch (0 : Fin 1)) (ix2 n ch)
      (by rw [Shape.rowMajor_val_three, Shape.rowMajor_val_two]; simp)]
  refine hostGate_eq_gate _ (argXflat m c) (argW1 m c) (argW2 m c) (fun n' ch' => ?_) n ch
  rw [W2_main_v1, pool_result]
  exact Finset.sum_congr rfl fun s _ => congrFun (V1_main_v0 m c) (ix3 n' ch' s)

end Cert.ReferenceIdeal.Hand

end
-- ==== Proof.RValue.lean ====
/-
  The value the two-pass program returns, as the specification's function of the three argument arrays.  The scaling
  region is entered with the flattened volume and with the gates array whose entry (n, c, 0) is the specification's
  gate of batch element n and channel c; it leaves every entry of the volume times that gate, which is the
  specification's scaling of the flattened volume; and the final reshape restores the three spatial axes, which is how
  the specification states the result on the five-dimensional volume.
-/
import proofs.«168272_g2000702401841808_pallasbulk_415_2_alg».proof.Proof.RGates

set_option maxRecDepth 16384

noncomputable section

open scoped BigOperators

namespace Cert.ReferenceIdeal.Hand

open Idealize.ShloMosaic Idealize.ShloMosaic.TcCoe Idealize.ShloMosaic.ValueIdx
open Idealize.SL.Sem
open Cert.ReferenceIdeal Cert.ReferenceIdeal.Gen

variable (m : (ℓ : Loc nD τ sig) → Buf (Elt Ideal) ℓ)

/-- The result array after the scaling region is what its pipeline leaves. -/
theorem W4_main_v18 (c : Dev nD) : W4 m c (Proc.devRef .tc main_v18) = scaleOut (V3 m) c := by
  unfold W4
  exact Pipeline.withArrays_arr spec1 launch1.win.arr_inj c _ _ 2

/-- What the scaling region leaves is the specification's scaling of the flattened volume: entry by entry the volume's
    entry times the gate of its batch element and channel. -/
theorem scaleOut_eq (c : Dev nD) :
    scaleOut (V3 m) c = Cert.SqEx.scaled (argXflat m c) (argW1 m c) (argW2 m c) := by
  funext j
  obtain ⟨n, ch, s, rfl⟩ : ∃ (n : Fin 8) (ch : Fin 128) (s : Fin 16384), j = ix3 n ch s := ⟨j 0, j 1, j 2, eq_ix3 j⟩
  have hx : scaleIn (V3 m) c = argXflat m c := V3_main_v0 m c
  have hg : scaleGate (V3 m) c (ix3 n ch (0 : Fin 1))
      = Cert.SqEx.gate (argXflat m c) (argW1 m c) (argW2 m c) n ch := V3_main_v17_apply m c n ch
  rw [scale_result, Cert.SqEx.scaled_apply, hx, hg]

/-- The buffer the two-pass program returns holds the specification's result of the three argument arrays: the final
    reshape restores the three spatial axes of what the scaling region leaves. -/
theorem ref_result (c : Dev nD) :
    (W5 m c (Proc.devRef .tc main_v19) : FVec Ideal S8x128x16x32x32 .f32)
      = Cert.SqEx.result (argX m c) (argW1 m c) (argW2 m c) := by
  have h : (W5 m c (Proc.devRef .tc main_v19) : FVec Ideal S8x128x16x32x32 .f32)
      = shapeCast S8x128x16x32x32 (scaleOut (V3 m) c) Facts₀.shapeCasts_S8x128x16384_S8x128x16x32x32 := by
    rw [← W4_main_v18]
    show StableHlo.after hostOps2 (W4 m c) (Proc.devRef .tc main_v19) = _
    after_results
    rfl
  rw [h, scaleOut_eq]
  rfl

end Cert.ReferenceIdeal.Hand

end
-- ==== Proof.lean ====
/-
  The certificate: the one-pass squeeze-and-excitation kernel against the two-pass reference, over the extended reals.

  Both programs flatten the volume to batch × channel × position, compute for every batch element and channel the sum
  over the 16384 positions, turn the 128 sums of a batch element into 128 gates (times 2⁻¹⁴; a rectified layer of 16
  units; the logistic function of a second layer), scale every entry by its channel's gate and restore the volume's
  shape.  The one-pass kernel accumulates the sums over eight tiles of 2048 positions while it copies the tiles into a
  slab it keeps, and scales the slab at the last tile; the reference accumulates them over three tiles of 6144 (the last
  one cut at the array's end, the lanes past it replaced by zero), computes the gates on the host — the logistic
  function spelt as 1 / (1 + e⁻ᶻ), which is what it denotes on the extended reals — and scales tile by tile in a second
  kernel.  On the extended reals addition and multiplication are commutative and associative without any finiteness
  assumption, so the two orders of summation agree and the precondition is never opened.

  The three frames: each program's run, its argument arrays read back unchanged.  The idealization rewrote nothing,
  so `preserves` is trivial.  The algebraic conjunct: both results are `Cert.SqEx.result` of the arguments.
-/
import proofs.«168272_g2000702401841808_pallasbulk_415_2_alg».proof.Defs
import proofs.«168272_g2000702401841808_pallasbulk_415_2_alg».proof.Proof.Gen.Kernel
import proofs.«168272_g2000702401841808_pallasbulk_415_2_alg».proof.Proof.Gen.KernelIdeal
import proofs.«168272_g2000702401841808_pallasbulk_415_2_alg».proof.Proof.Gen.ReferenceIdeal
import proofs.«168272_g2000702401841808_pallasbulk_415_2_alg».proof.Proof.Gen.Pre_finite_inputs
import proofs.«168272_g2000702401841808_pallasbulk_415_2_alg».proof.Proof.KBody
import proofs.«168272_g2000702401841808_pallasbulk_415_2_alg».proof.Proof.KBodyBits
import proofs.«168272_g2000702401841808_pallasbulk_415_2_alg».proof.Proof.KValue
import proofs.«168272_g2000702401841808_pallasbulk_415_2_alg».proof.Proof.RLaunch
import proofs.«168272_g2000702401841808_pallasbulk_415_2_alg».proof.Proof.RValue

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- So does the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- Both idealized programs end with the specification's function of the arguments in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.SqEx.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the one-pass kernel: the result buffer is the reshape after the region of the array the region leaves
    refine (θ_run Cert.KernelIdeal.defs _ _).mono (fun r h c => ⟨?_, ?_, ?_, ?_⟩) (Cert.KernelIdeal.Hand.run_main (F := Ideal) m ρ)
    · exact ((h c).2 Cert.KernelIdeal.main_v3 (Pipeline.mem_restRefs_of Cert.KernelIdeal.main_v3 (by decide) (by decide))).trans
        (Cert.KernelIdeal.Hand.result_eq m (Cert.KernelIdeal.Hand.dats m) (Cert.KernelIdeal.Hand.A_eq m) (Cert.KernelIdeal.Hand.after0_3 m) c)
    · exact ((h c).2 Cert.KernelIdeal.main_arg0 (Pipeline.mem_restRefs_of Cert.KernelIdeal.main_arg0 (by decide) (by decide))).trans
        (Cert.KernelIdeal.Gen.W_main_arg0 m (Cert.KernelIdeal.Hand.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Hand.dats m) c)
    · exact ((h c).1 2).trans (((Cert.KernelIdeal.Hand.dats m 0 c).arrAt_in 2 rfl _).trans
        ((Cert.KernelIdeal.Hand.A_eq m c 2).trans (Cert.KernelIdeal.Gen.V_main_arg2 m c)))
  · -- the two-pass reference: every unscoped buffer ends at the last valuation of the chain through @main
    refine (θ_run Cert.ReferenceIdeal.defs _ _).mono (fun r h c => ⟨?_, ?_, ?_, ?_⟩) (Cert.ReferenceIdeal.Hand.run_named (F := Ideal) m' ρ')
    · exact (h c _ (Cert.ReferenceIdeal.Hand.mem_uc Cert.ReferenceIdeal.main_v19 (by decide))).trans ((Cert.ReferenceIdeal.Hand.ref_result m' c).trans
        (congr (congr (congrArg Cert.SqEx.result (hagree c).1) (hagree c).2.1) (hagree c).2.2))
    · exact (h c _ (Cert.ReferenceIdeal.Hand.mem_uc Cert.ReferenceIdeal.main_arg0 (by decide))).trans (Cert.ReferenceIdeal.Hand.W5_main_arg0 m' c)
    · exact (h c _ (Cert.ReferenceIdeal.Hand.mem_uc Cert.ReferenceIdeal.main_arg1 (by decide))).trans (Cert.ReferenceIdeal.Hand.W5_main_arg1 m' c)
    · exact (h c _ (Cert.ReferenceIdeal.Hand.mem_uc Cert.ReferenceIdeal.main_arg2 (by decide))).trans (Cert.ReferenceIdeal.Hand.W5_main_arg2 m' c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
